-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S256x10 .f32) (main_arg9 : FVec F S10 .f32) (main_v33 : IVec S_ 1) : IVec S_ 1 :=
  let main_v34 : FVec F S256x10 .f32 := Host.absf main_arg8
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S3x128 .f32) (main_arg6 : FVec F S128x256 .f32) (main_arg7 : FVec F S256 .f32) (main_arg8 : FVec F S256x10 .f32) (main_arg9 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S262144x128 .f32) (main_arg1 : IVec S262144 32) (main_arg2 : FVec F S3x128x128 .f32) (main_arg3 : FVec F S3x128 .f32) (main_arg4 : FVec F S3x128x128 .f32) (main_arg5 : FVec F S3x128 .f32) (main_arg6 : FVec F S128x256 .f32) (main_arg7 : FVec F S256 .f32) (main_arg8 : FVec F S256x10 .f32) (main_arg9 : FVec F S10 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S262144x128 : Shape := ⟨2, ![262144, 128]⟩
abbrev S262144 : Shape := ⟨1, ![262144]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S8192x128 : Shape := ⟨2, ![8192, 128]⟩
abbrev S262144x1 : Shape := ⟨2, ![262144, 1]⟩
abbrev S8192 : Shape := ⟨1, ![8192]⟩
abbrev S8192x1 : Shape := ⟨2, ![8192, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S4096x128 : Shape := ⟨2, ![4096, 128]⟩
abbrev S1x256 : Shape := ⟨2, ![1, 256]⟩
abbrev S1x10 : Shape := ⟨2, ![1, 10]⟩
abbrev S8192x10 : Shape := ⟨2, ![8192, 10]⟩
abbrev S2048x128 : Shape := ⟨2, ![2048, 128]⟩
abbrev S2048x10 : Shape := ⟨2, ![2048, 10]⟩
abbrev S2048x256 : Shape := ⟨2, ![2048, 256]⟩

abbrev nBuf : Space → Nat
  | .hbm => 188
  | .vmem => 32
  | .smem => 0
  | _ => 0

abbrev hbmTy0_0 (i : Nat) : BufTy := match i % 128 with
  | 0 => ⟨S262144x128, .f32⟩
  | 1 => ⟨S262144, .i32⟩
  | 2 => ⟨S3x128x128, .f32⟩
  | 3 => ⟨S3x128, .f32⟩
  | 4 => ⟨S3x128x128, .f32⟩
  | 5 => ⟨S3x128, .f32⟩
  | 6 => ⟨S128x256, .f32⟩
  | 7 => ⟨S256, .f32⟩
  | 8 => ⟨S256x10, .f32⟩
  | 9 => ⟨S10, .f32⟩
  | 10 => ⟨S_, .f32⟩
  | 11 => ⟨S8192x128, .f32⟩
  | 12 => ⟨S262144x1, .i32⟩
  | 13 => ⟨S8192x128, .f32⟩
  | 14 => ⟨S_, .f32⟩
  | 15 => ⟨S262144, .f32⟩
  | 16 => ⟨S_, .f32⟩
  | 17 => ⟨S8192, .f32⟩
  | 18 => ⟨S262144x1, .i32⟩
  | 19 => ⟨S8192, .f32⟩
  | 20 => ⟨S_, .f32⟩
  | 21 => ⟨S8192, .f32⟩
  | 22 => ⟨S8192, .f32⟩
  | 23 => ⟨S8192x1, .f32⟩
  | 24 => ⟨S8192x128, .f32⟩
  | 25 => ⟨S8192x128, .f32⟩
  | 26 => ⟨S1x128x128, .f32⟩
  | 27 => ⟨S128x128, .f32⟩
  | 28 => ⟨S8192x128, .f32⟩
  | 29 => ⟨S1x128, .f32⟩
  | 30 => ⟨S128, .f32⟩
  | 31 => ⟨S1x128, .f32⟩
  | 32 => ⟨S8192x128, .f32⟩
  | 33 => ⟨S8192x128, .f32⟩
  | 34 => ⟨S_, .i32⟩
  | 35 => ⟨S262144, .i32⟩
  | 36 => ⟨S262144, .i1⟩
  | 37 => ⟨S_, .i32⟩
  | 38 => ⟨S262144, .i32⟩
  | 39 => ⟨S262144, .i32⟩
  | 40 => ⟨S262144, .i32⟩
  | 41 => ⟨S262144x1, .i32⟩
  | 42 => ⟨S1, .i32⟩
  | 43 => ⟨S_, .i32⟩
  | 44 => ⟨S262144x1, .i32⟩
  | 45 => ⟨S262144x1, .i1⟩
  | 46 => ⟨S1x1, .i32⟩
  | 47 => ⟨S262144x1, .i32⟩
  | 48 => ⟨S262144x1, .i1⟩
  | 49 => ⟨S262144x1, .i1⟩
  | 50 => ⟨S_, .i1⟩
  | 51 => ⟨S262144, .i1⟩
  | 52 => ⟨S262144x128, .f32⟩
  | 53 => ⟨S262144x128, .i1⟩
  | 54 => ⟨S_, .f32⟩
  | 55 => ⟨S262144x128, .f32⟩
  | 56 => ⟨S262144x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S262144x128, .f32⟩
  | 63 => ⟨S_, .f32⟩
  | 64 => ⟨S8192x128, .f32⟩
  | 65 => ⟨S262144x1, .i32⟩
  | 66 => ⟨S8192x128, .f32⟩
  | 67 => ⟨S_, .f32⟩
  | 68 => ⟨S262144, .f32⟩
  | 69 => ⟨S_, .f32⟩
  | 70 => ⟨S8192, .f32⟩
  | 71 => ⟨S262144x1, .i32⟩
  | 72 => ⟨S8192, .f32⟩
  | 73 => ⟨S_, .f32⟩
  | 74 => ⟨S8192, .f32⟩
  | 75 => ⟨S8192, .f32⟩
  | 76 => ⟨S8192x1, .f32⟩
  | 77 => ⟨S8192x128, .f32⟩
  | 78 => ⟨S8192x128, .f32⟩
  | 79 => ⟨S1x128x128, .f32⟩
  | 80 => ⟨S128x128, .f32⟩
  | 81 => ⟨S8192x128, .f32⟩
  | 82 => ⟨S1x128, .f32⟩
  | 83 => ⟨S128, .f32⟩
  | 84 => ⟨S1x128, .f32⟩
  | 85 => ⟨S8192x128, .f32⟩
  | 86 => ⟨S8192x128, .f32⟩
  | 87 => ⟨S_, .i32⟩
  | 88 => ⟨S262144, .i32⟩
  | 89 => ⟨S262144, .i1⟩
  | 90 => ⟨S_, .i32⟩
  | 91 => ⟨S262144, .i32⟩
  | 92 => ⟨S262144, .i32⟩
  | 93 => ⟨S262144, .i32⟩
  | 94 => ⟨S262144x1, .i32⟩
  | 95 => ⟨S1, .i32⟩
  | 96 => ⟨S_, .i32⟩
  | 97 => ⟨S262144x1, .i32⟩
  | 98 => ⟨S262144x1, .i1⟩
  | 99 => ⟨S1x1, .i32⟩
  | 100 => ⟨S262144x1, .i32⟩
  | 101 => ⟨S262144x1, .i1⟩
  | 102 => ⟨S262144x1, .i1⟩
  | 103 => ⟨S_, .i1⟩
  | 104 => ⟨S262144, .i1⟩
  | 105 => ⟨S262144x128, .f32⟩
  | 106 => ⟨S262144x128, .i1⟩
  | 107 => ⟨S_, .f32⟩
  | 108 => ⟨S262144x128, .f32⟩
  | 109 => ⟨S262144x128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S262144x128, .f32⟩
  | 116 => ⟨S_, .f32⟩
  | 117 => ⟨S8192x128, .f32⟩
  | 118 => ⟨S262144x1, .i32⟩
  | 119 => ⟨S8192x128, .f32⟩
  | 120 => ⟨S_, .f32⟩
  | 121 => ⟨S262144, .f32⟩
  | 122 => ⟨S_, .f32⟩
  | 123 => ⟨S8192, .f32⟩
  | 124 => ⟨S262144x1, .i32⟩
  | 125 => ⟨S8192, .f32⟩
  | 126 => ⟨S_, .f32⟩
  | 127 => ⟨S8192, .f32⟩
  | _ => ⟨S262144x128, .f32⟩

abbrev hbmTy0_1 (i : Nat) : BufTy := match i % 128 with
  | 0 => ⟨S8192, .f32⟩
  | 1 => ⟨S8192x1, .f32⟩
  | 2 => ⟨S8192x128, .f32⟩
  | 3 => ⟨S8192x128, .f32⟩
  | 4 => ⟨S1x128x128, .f32⟩
  | 5 => ⟨S128x128, .f32⟩
  | 6 => ⟨S8192x128, .f32⟩
  | 7 => ⟨S1x128, .f32⟩
  | 8 => ⟨S128, .f32⟩
  | 9 => ⟨S1x128, .f32⟩
  | 10 => ⟨S8192x128, .f32⟩
  | 11 => ⟨S8192x128, .f32⟩
  | 12 => ⟨S_, .i32⟩
  | 13 => ⟨S262144, .i32⟩
  | 14 => ⟨S262144, .i1⟩
  | 15 => ⟨S_, .i32⟩
  | 16 => ⟨S262144, .i32⟩
  | 17 => ⟨S262144, .i32⟩
  | 18 => ⟨S262144, .i32⟩
  | 19 => ⟨S262144x1, .i32⟩
  | 20 => ⟨S1, .i32⟩
  | 21 => ⟨S_, .i32⟩
  | 22 => ⟨S262144x1, .i32⟩
  | 23 => ⟨S262144x1, .i1⟩
  | 24 => ⟨S1x1, .i32⟩
  | 25 => ⟨S262144x1, .i32⟩
  | 26 => ⟨S262144x1, .i1⟩
  | 27 => ⟨S262144x1, .i1⟩
  | 28 => ⟨S_, .i1⟩
  | 29 => ⟨S262144, .i1⟩
  | 30 => ⟨S262144x128, .f32⟩
  | 31 => ⟨S262144x128, .i1⟩
  | 32 => ⟨S_, .f32⟩
  | 33 => ⟨S262144x128, .f32⟩
  | 34 => ⟨S262144x128, .f32⟩
  | 35 => ⟨S1x128x128, .f32⟩
  | 36 => ⟨S128x128, .f32⟩
  | 37 => ⟨S1x128, .f32⟩
  | 38 => ⟨S128, .f32⟩
  | 39 => ⟨S1x128, .f32⟩
  | 40 => ⟨S262144x128, .f32⟩
  | 41 => ⟨S_, .f32⟩
  | 42 => ⟨S8192x128, .f32⟩
  | 43 => ⟨S262144x1, .i32⟩
  | 44 => ⟨S8192x128, .f32⟩
  | 45 => ⟨S_, .f32⟩
  | 46 => ⟨S262144, .f32⟩
  | 47 => ⟨S_, .f32⟩
  | 48 => ⟨S8192, .f32⟩
  | 49 => ⟨S262144x1, .i32⟩
  | 50 => ⟨S8192, .f32⟩
  | 51 => ⟨S_, .f32⟩
  | 52 => ⟨S8192, .f32⟩
  | 53 => ⟨S8192, .f32⟩
  | 54 => ⟨S8192x1, .f32⟩
  | 55 => ⟨S8192x128, .f32⟩
  | 56 => ⟨S8192x128, .f32⟩
  | 57 => ⟨S1x256, .f32⟩
  | 58 => ⟨S1x10, .f32⟩
  | 59 => ⟨S8192x10, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S128x128, .f32⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S128x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | .local _ .vmem, ⟨24, _⟩ => ⟨S2048x128, .f32⟩
  | .local _ .vmem, ⟨25, _⟩ => ⟨S2048x128, .f32⟩
  | .local _ .vmem, ⟨26, _⟩ => ⟨S128x256, .f32⟩
  | .local _ .vmem, ⟨27, _⟩ => ⟨S1x256, .f32⟩
  | .local _ .vmem, ⟨28, _⟩ => ⟨S256x10, .f32⟩
  | .local _ .vmem, ⟨29, _⟩ => ⟨S1x10, .f32⟩
  | .local _ .vmem, ⟨30, _⟩ => ⟨S2048x10, .f32⟩
  | .local _ .vmem, ⟨31, _⟩ => ⟨S2048x10, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_3 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_4 : Ref sig .tc := ⟨.hbm, 67, rfl⟩
abbrev main_v30 : Ref sig .tc := ⟨.hbm, 68, rfl⟩
abbrev main_cst_5 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_6 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call1_c : Ref sig .tc := ⟨.hbm, 87, rfl⟩
abbrev main_call1_v0 : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_c_1 : Ref sig .tc := ⟨.hbm, 95, rfl⟩
abbrev main_call1_c_2 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_3 : Ref sig .tc := ⟨.hbm, 103, rfl⟩
abbrev main_call1_v12 : Ref sig .tc := ⟨.hbm, 104, rfl⟩
abbrev main_call1_v13 : Ref sig .tc := ⟨.hbm, 105, rfl⟩
abbrev main_call1_v14 : Ref sig .tc := ⟨.hbm, 106, rfl⟩
abbrev main_call1_cst : Ref sig .tc := ⟨.hbm, 107, rfl⟩
abbrev main_call1_v15 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_7 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_8 : Ref sig .tc := ⟨.hbm, 120, rfl⟩
abbrev main_v57 : Ref sig .tc := ⟨.hbm, 121, rfl⟩
abbrev main_cst_9 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_10 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_call2_c : Ref sig .tc := ⟨.hbm, 140, rfl⟩
abbrev main_call2_v0 : Ref sig .tc := ⟨.hbm, 141, rfl⟩
abbrev main_call2_v1 : Ref sig .tc := ⟨.hbm, 142, rfl⟩
abbrev main_call2_c_0 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_c_1 : Ref sig .tc := ⟨.hbm, 148, rfl⟩
abbrev main_call2_c_2 : Ref sig .tc := ⟨.hbm, 149, rfl⟩
abbrev main_call2_v6 : Ref sig .tc := ⟨.hbm, 150, rfl⟩
abbrev main_call2_v7 : Ref sig .tc := ⟨.hbm, 151, rfl⟩
abbrev main_call2_v8 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_c_3 : Ref sig .tc := ⟨.hbm, 156, rfl⟩
abbrev main_call2_v12 : Ref sig .tc := ⟨.hbm, 157, rfl⟩
abbrev main_call2_v13 : Ref sig .tc := ⟨.hbm, 158, rfl⟩
abbrev main_call2_v14 : Ref sig .tc := ⟨.hbm, 159, rfl⟩
abbrev main_call2_cst : Ref sig .tc := ⟨.hbm, 160, rfl⟩
abbrev main_call2_v15 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_cst_11 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_cst_12 : Ref sig .tc := ⟨.hbm, 173, rfl⟩
abbrev main_v84 : Ref sig .tc := ⟨.hbm, 174, rfl⟩
abbrev main_cst_13 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_cst_14 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x10 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S8192x128 : S_.BroadcastsInDim S8192x128 (![] : Fin 0 → Fin S8192x128.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x128_0 : S262144.BroadcastsInDim S262144x128 (![0] : Fin 1 → Fin S262144x128.rank)
  bcast_S_S262144x128 : S_.BroadcastsInDim S262144x128 (![] : Fin 0 → Fin S262144x128.rank)
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S4096x128 : S4096x128.ShapeCasts S4096x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S256_S1x256 : S256.ShapeCasts S1x256
  shapeCasts_S10_S1x10 : S10.ShapeCasts S1x10
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  scatter_S8192x128_S262144x1_S262144x128_1_0_0_1_wf : ScatterDims.WF S8192x128 S262144x1 S262144x128 [1] [0] [0] 1
  scatter_S8192_S262144x1_S262144_n_0_0_1_wf : ScatterDims.WF S8192 S262144x1 S262144 [] [0] [0] 1
  dot_S8192x128_S128x128_S8192x128_1_0_0_1_n_n_wf : DotDims.WF S8192x128 S128x128 S8192x128 [1] [0] [0] [1] [] []
  gather_S8192x128_S262144x1_S262144x128_1_0_n_n_0_1_1128_wf : GatherDims.WF S8192x128 S262144x1 S262144x128 [1] [0] [] [0] [] 1 ![1, 128]
  dot_S4096x128_S128x128_S4096x128_1_0_0_1_n_n_wf : DotDims.WF S4096x128 S128x128 S4096x128 [1] [0] [0] [1] [] []
  dot_S2048x128_S128x256_S2048x256_1_0_0_1_n_n_wf : DotDims.WF S2048x128 S128x256 S2048x256 [1] [0] [0] [1] [] []
  dot_S2048x256_S256x10_S2048x10_1_0_0_1_n_n_wf : DotDims.WF S2048x256 S256x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S262144x128.size a
  hwx1_1 : ∀ i : grid1.Coords, EltTy.bits .f32 = 32 ∨ (Rect.block (s := S262144x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S262144x128.size a
  hwx1_4 : ∀ i : grid1.Coords, EltTy.bits .f32 = 32 ∨ (Rect.block (s := S262144x128) S4096x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S262144x128.size a
  hwx2_0 : ∀ i : grid2.Coords, EltTy.bits .f32 = 32 ∨ (Rect.block (s := S262144x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S262144x128.size a
  hwx2_1 : ∀ i : grid2.Coords, EltTy.bits .f32 = 32 ∨ (Rect.block (s := S262144x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S262144x128.size a
  hwx2_4 : ∀ i : grid2.Coords, EltTy.bits .f32 = 32 ∨ (Rect.block (s := S262144x128) S4096x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x10.size a ≤ S256x10.size a
  hwx3_3 : ∀ i : grid3.Coords, EltTy.bits .f32 = 32 ∨ (Rect.block (s := S256x10) S256x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x10.size a ≤ S8192x10.size a
  hwx3_5 : ∀ i : grid3.Coords, EltTy.bits .f32 = 32 ∨ (Rect.block (s := S8192x10) S2048x10.size (cc3_transform_5 i) (hinb3_5 i)).WholeWords (EltTy.packing .f32)

variable [Facts₀]

def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x10_S2048x10_1_0_0_1_n_n : DotDims S2048x256 S256x10 S2048x10 where
  lhsContracting := [1]
  rhsContracting := [0]
  lhsNonContracting := [0]
  rhsNonContracting := [1]
  lhsBatch := []
  rhsBatch := []
  wf := dot_S2048x256_S256x10_S2048x10_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S4096x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v92) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S256x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S2048x10.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S262144x128 : Shape := ⟨2, ![262144, 128]⟩
abbrev S262144 : Shape := ⟨1, ![262144]⟩
abbrev S3x128x128 : Shape := ⟨3, ![3, 128, 128]⟩
abbrev S3x128 : Shape := ⟨2, ![3, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S8192x128 : Shape := ⟨2, ![8192, 128]⟩
abbrev S262144x1 : Shape := ⟨2, ![262144, 1]⟩
abbrev S8192 : Shape := ⟨1, ![8192]⟩
abbrev S8192x1 : Shape := ⟨2, ![8192, 1]⟩
abbrev S8192x256 : Shape := ⟨2, ![8192, 256]⟩
abbrev S1x256 : Shape := ⟨2, ![1, 256]⟩
abbrev S8192x10 : Shape := ⟨2, ![8192, 10]⟩
abbrev S1x10 : Shape := ⟨2, ![1, 10]⟩

abbrev nBuf : Space → Nat
  | .hbm => 208
  | .vmem => 0
  | .smem => 0
  | _ => 0

abbrev hbmTy0_0 (i : Nat) : BufTy := match i % 128 with
  | 0 => ⟨S262144x128, .f32⟩
  | 1 => ⟨S262144, .i32⟩
  | 2 => ⟨S3x128x128, .f32⟩
  | 3 => ⟨S3x128, .f32⟩
  | 4 => ⟨S3x128x128, .f32⟩
  | 5 => ⟨S3x128, .f32⟩
  | 6 => ⟨S128x256, .f32⟩
  | 7 => ⟨S256, .f32⟩
  | 8 => ⟨S256x10, .f32⟩
  | 9 => ⟨S10, .f32⟩
  | 10 => ⟨S1x128x128, .f32⟩
  | 11 => ⟨S128x128, .f32⟩
  | 12 => ⟨S262144x128, .f32⟩
  | 13 => ⟨S1x128, .f32⟩
  | 14 => ⟨S128, .f32⟩
  | 15 => ⟨S1x128, .f32⟩
  | 16 => ⟨S262144x128, .f32⟩
  | 17 => ⟨S262144x128, .f32⟩
  | 18 => ⟨S_, .f32⟩
  | 19 => ⟨S8192x128, .f32⟩
  | 20 => ⟨S262144x1, .i32⟩
  | 21 => ⟨S8192x128, .f32⟩
  | 22 => ⟨S_, .f32⟩
  | 23 => ⟨S262144, .f32⟩
  | 24 => ⟨S_, .f32⟩
  | 25 => ⟨S8192, .f32⟩
  | 26 => ⟨S262144x1, .i32⟩
  | 27 => ⟨S8192, .f32⟩
  | 28 => ⟨S_, .f32⟩
  | 29 => ⟨S8192, .f32⟩
  | 30 => ⟨S8192, .f32⟩
  | 31 => ⟨S8192x1, .f32⟩
  | 32 => ⟨S8192x128, .f32⟩
  | 33 => ⟨S8192x128, .f32⟩
  | 34 => ⟨S1x128x128, .f32⟩
  | 35 => ⟨S128x128, .f32⟩
  | 36 => ⟨S8192x128, .f32⟩
  | 37 => ⟨S1x128, .f32⟩
  | 38 => ⟨S128, .f32⟩
  | 39 => ⟨S1x128, .f32⟩
  | 40 => ⟨S8192x128, .f32⟩
  | 41 => ⟨S8192x128, .f32⟩
  | 42 => ⟨S_, .i32⟩
  | 43 => ⟨S262144, .i32⟩
  | 44 => ⟨S262144, .i1⟩
  | 45 => ⟨S_, .i32⟩
  | 46 => ⟨S262144, .i32⟩
  | 47 => ⟨S262144, .i32⟩
  | 48 => ⟨S262144, .i32⟩
  | 49 => ⟨S262144x1, .i32⟩
  | 50 => ⟨S262144x128, .f32⟩
  | 51 => ⟨S262144x128, .f32⟩
  | 52 => ⟨S_, .f32⟩
  | 53 => ⟨S262144x128, .f32⟩
  | 54 => ⟨S262144x128, .i1⟩
  | 55 => ⟨S_, .f32⟩
  | 56 => ⟨S262144x128, .f32⟩
  | 57 => ⟨S262144x128, .i1⟩
  | 58 => ⟨S_, .f32⟩
  | 59 => ⟨S_, .f32⟩
  | 60 => ⟨S262144x128, .f32⟩
  | 61 => ⟨S262144x128, .f32⟩
  | 62 => ⟨S262144x128, .f32⟩
  | 63 => ⟨S_, .f32⟩
  | 64 => ⟨S262144x128, .f32⟩
  | 65 => ⟨S262144x128, .f32⟩
  | 66 => ⟨S262144x128, .f32⟩
  | 67 => ⟨S1x128x128, .f32⟩
  | 68 => ⟨S128x128, .f32⟩
  | 69 => ⟨S262144x128, .f32⟩
  | 70 => ⟨S1x128, .f32⟩
  | 71 => ⟨S128, .f32⟩
  | 72 => ⟨S1x128, .f32⟩
  | 73 => ⟨S262144x128, .f32⟩
  | 74 => ⟨S262144x128, .f32⟩
  | 75 => ⟨S_, .f32⟩
  | 76 => ⟨S8192x128, .f32⟩
  | 77 => ⟨S262144x1, .i32⟩
  | 78 => ⟨S8192x128, .f32⟩
  | 79 => ⟨S_, .f32⟩
  | 80 => ⟨S262144, .f32⟩
  | 81 => ⟨S_, .f32⟩
  | 82 => ⟨S8192, .f32⟩
  | 83 => ⟨S262144x1, .i32⟩
  | 84 => ⟨S8192, .f32⟩
  | 85 => ⟨S_, .f32⟩
  | 86 => ⟨S8192, .f32⟩
  | 87 => ⟨S8192, .f32⟩
  | 88 => ⟨S8192x1, .f32⟩
  | 89 => ⟨S8192x128, .f32⟩
  | 90 => ⟨S8192x128, .f32⟩
  | 91 => ⟨S1x128x128, .f32⟩
  | 92 => ⟨S128x128, .f32⟩
  | 93 => ⟨S8192x128, .f32⟩
  | 94 => ⟨S1x128, .f32⟩
  | 95 => ⟨S128, .f32⟩
  | 96 => ⟨S1x128, .f32⟩
  | 97 => ⟨S8192x128, .f32⟩
  | 98 => ⟨S8192x128, .f32⟩
  | 99 => ⟨S_, .i32⟩
  | 100 => ⟨S262144, .i32⟩
  | 101 => ⟨S262144, .i1⟩
  | 102 => ⟨S_, .i32⟩
  | 103 => ⟨S262144, .i32⟩
  | 104 => ⟨S262144, .i32⟩
  | 105 => ⟨S262144, .i32⟩
  | 106 => ⟨S262144x1, .i32⟩
  | 107 => ⟨S262144x128, .f32⟩
  | 108 => ⟨S262144x128, .f32⟩
  | 109 => ⟨S_, .f32⟩
  | 110 => ⟨S262144x128, .f32⟩
  | 111 => ⟨S262144x128, .i1⟩
  | 112 => ⟨S_, .f32⟩
  | 113 => ⟨S262144x128, .f32⟩
  | 114 => ⟨S262144x128, .i1⟩
  | 115 => ⟨S_, .f32⟩
  | 116 => ⟨S_, .f32⟩
  | 117 => ⟨S262144x128, .f32⟩
  | 118 => ⟨S262144x128, .f32⟩
  | 119 => ⟨S262144x128, .f32⟩
  | 120 => ⟨S_, .f32⟩
  | 121 => ⟨S262144x128, .f32⟩
  | 122 => ⟨S262144x128, .f32⟩
  | 123 => ⟨S262144x128, .f32⟩
  | 124 => ⟨S1x128x128, .f32⟩
  | 125 => ⟨S128x128, .f32⟩
  | 126 => ⟨S262144x128, .f32⟩
  | 127 => ⟨S1x128, .f32⟩
  | _ => ⟨S262144x128, .f32⟩

abbrev hbmTy0_1 (i : Nat) : BufTy := match i % 128 with
  | 0 => ⟨S128, .f32⟩
  | 1 => ⟨S1x128, .f32⟩
  | 2 => ⟨S262144x128, .f32⟩
  | 3 => ⟨S262144x128, .f32⟩
  | 4 => ⟨S_, .f32⟩
  | 5 => ⟨S8192x128, .f32⟩
  | 6 => ⟨S262144x1, .i32⟩
  | 7 => ⟨S8192x128, .f32⟩
  | 8 => ⟨S_, .f32⟩
  | 9 => ⟨S262144, .f32⟩
  | 10 => ⟨S_, .f32⟩
  | 11 => ⟨S8192, .f32⟩
  | 12 => ⟨S262144x1, .i32⟩
  | 13 => ⟨S8192, .f32⟩
  | 14 => ⟨S_, .f32⟩
  | 15 => ⟨S8192, .f32⟩
  | 16 => ⟨S8192, .f32⟩
  | 17 => ⟨S8192x1, .f32⟩
  | 18 => ⟨S8192x128, .f32⟩
  | 19 => ⟨S8192x128, .f32⟩
  | 20 => ⟨S1x128x128, .f32⟩
  | 21 => ⟨S128x128, .f32⟩
  | 22 => ⟨S8192x128, .f32⟩
  | 23 => ⟨S1x128, .f32⟩
  | 24 => ⟨S128, .f32⟩
  | 25 => ⟨S1x128, .f32⟩
  | 26 => ⟨S8192x128, .f32⟩
  | 27 => ⟨S8192x128, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144x128, .f32⟩
  | 37 => ⟨S262144x128, .f32⟩
  | 38 => ⟨S_, .f32⟩
  | 39 => ⟨S262144x128, .f32⟩
  | 40 => ⟨S262144x128, .i1⟩
  | 41 => ⟨S_, .f32⟩
  | 42 => ⟨S262144x128, .f32⟩
  | 43 => ⟨S262144x128, .i1⟩
  | 44 => ⟨S_, .f32⟩
  | 45 => ⟨S_, .f32⟩
  | 46 => ⟨S262144x128, .f32⟩
  | 47 => ⟨S262144x128, .f32⟩
  | 48 => ⟨S262144x128, .f32⟩
  | 49 => ⟨S_, .f32⟩
  | 50 => ⟨S262144x128, .f32⟩
  | 51 => ⟨S262144x128, .f32⟩
  | 52 => ⟨S262144x128, .f32⟩
  | 53 => ⟨S_, .f32⟩
  | 54 => ⟨S8192x128, .f32⟩
  | 55 => ⟨S262144x1, .i32⟩
  | 56 => ⟨S8192x128, .f32⟩
  | 57 => ⟨S_, .f32⟩
  | 58 => ⟨S262144, .f32⟩
  | 59 => ⟨S_, .f32⟩
  | 60 => ⟨S8192, .f32⟩
  | 61 => ⟨S262144x1, .i32⟩
  | 62 => ⟨S8192, .f32⟩
  | 63 => ⟨S_, .f32⟩
  | 64 => ⟨S8192, .f32⟩
  | 65 => ⟨S8192, .f32⟩
  | 66 => ⟨S8192x1, .f32⟩
  | 67 => ⟨S8192x128, .f32⟩
  | 68 => ⟨S8192x128, .f32⟩
  | 69 => ⟨S8192x256, .f32⟩
  | 70 => ⟨S1x256, .f32⟩
  | 71 => ⟨S8192x256, .f32⟩
  | 72 => ⟨S8192x256, .f32⟩
  | 73 => ⟨S_, .f32⟩
  | 74 => ⟨S8192x256, .f32⟩
  | 75 => ⟨S8192x256, .f32⟩
  | 76 => ⟨S8192x10, .f32⟩
  | 77 => ⟨S1x10, .f32⟩
  | 78 => ⟨S8192x10, .f32⟩
  | 79 => ⟨S8192x10, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_cst_1 : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_v4 : Ref sig .tc := ⟨.hbm, 61, rfl⟩
abbrev main_call0_v5 : Ref sig .tc := ⟨.hbm, 62, rfl⟩
abbrev main_call0_cst_2 : Ref sig .tc := ⟨.hbm, 63, rfl⟩
abbrev main_call0_v6 : Ref sig .tc := ⟨.hbm, 64, rfl⟩
abbrev main_call0_v7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_4 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_5 : Ref sig .tc := ⟨.hbm, 79, rfl⟩
abbrev main_v48 : Ref sig .tc := ⟨.hbm, 80, rfl⟩
abbrev main_cst_6 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_8 : Ref sig .tc := ⟨.hbm, 99, rfl⟩
abbrev main_v65 : Ref sig .tc := ⟨.hbm, 100, rfl⟩
abbrev main_v66 : Ref sig .tc := ⟨.hbm, 101, rfl⟩
abbrev main_c_9 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_call1_cst : Ref sig .tc := ⟨.hbm, 109, rfl⟩
abbrev main_call1_v0 : Ref sig .tc := ⟨.hbm, 110, rfl⟩
abbrev main_call1_v1 : Ref sig .tc := ⟨.hbm, 111, rfl⟩
abbrev main_call1_cst_0 : Ref sig .tc := ⟨.hbm, 112, rfl⟩
abbrev main_call1_v2 : Ref sig .tc := ⟨.hbm, 113, rfl⟩
abbrev main_call1_v3 : Ref sig .tc := ⟨.hbm, 114, rfl⟩
abbrev main_call1_cst_1 : Ref sig .tc := ⟨.hbm, 115, rfl⟩
abbrev main_call1_call0_v0 : Ref sig .tc := ⟨.hbm, 116, rfl⟩
abbrev main_call1_call0_v1 : Ref sig .tc := ⟨.hbm, 117, rfl⟩
abbrev main_call1_v4 : Ref sig .tc := ⟨.hbm, 118, rfl⟩
abbrev main_call1_v5 : Ref sig .tc := ⟨.hbm, 119, rfl⟩
abbrev main_call1_cst_2 : Ref sig .tc := ⟨.hbm, 120, rfl⟩
abbrev main_call1_v6 : Ref sig .tc := ⟨.hbm, 121, rfl⟩
abbrev main_call1_v7 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_10 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_11 : Ref sig .tc := ⟨.hbm, 136, rfl⟩
abbrev main_v85 : Ref sig .tc := ⟨.hbm, 137, rfl⟩
abbrev main_cst_12 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_13 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_c_14 : Ref sig .tc := ⟨.hbm, 156, rfl⟩
abbrev main_v102 : Ref sig .tc := ⟨.hbm, 157, rfl⟩
abbrev main_v103 : Ref sig .tc := ⟨.hbm, 158, rfl⟩
abbrev main_c_15 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_call2_cst : Ref sig .tc := ⟨.hbm, 166, rfl⟩
abbrev main_call2_v0 : Ref sig .tc := ⟨.hbm, 167, rfl⟩
abbrev main_call2_v1 : Ref sig .tc := ⟨.hbm, 168, rfl⟩
abbrev main_call2_cst_0 : Ref sig .tc := ⟨.hbm, 169, rfl⟩
abbrev main_call2_v2 : Ref sig .tc := ⟨.hbm, 170, rfl⟩
abbrev main_call2_v3 : Ref sig .tc := ⟨.hbm, 171, rfl⟩
abbrev main_call2_cst_1 : Ref sig .tc := ⟨.hbm, 172, rfl⟩
abbrev main_call2_call0_v0 : Ref sig .tc := ⟨.hbm, 173, rfl⟩
abbrev main_call2_call0_v1 : Ref sig .tc := ⟨.hbm, 174, rfl⟩
abbrev main_call2_v4 : Ref sig .tc := ⟨.hbm, 175, rfl⟩
abbrev main_call2_v5 : Ref sig .tc := ⟨.hbm, 176, rfl⟩
abbrev main_call2_cst_2 : Ref sig .tc := ⟨.hbm, 177, rfl⟩
abbrev main_call2_v6 : Ref sig .tc := ⟨.hbm, 178, rfl⟩
abbrev main_call2_v7 : Ref sig .tc := ⟨.hbm, 179, rfl⟩
abbrev main_v110 : Ref sig .tc := ⟨.hbm, 180, rfl⟩
abbrev main_cst_16 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_cst_17 : Ref sig .tc := ⟨.hbm, 185, rfl⟩
abbrev main_v114 : Ref sig .tc := ⟨.hbm, 186, rfl⟩
abbrev main_cst_18 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_cst_19 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_call3_cst : Ref sig .tc := ⟨.hbm, 201, rfl⟩
abbrev main_call3_v0 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S8192x128 : S_.BroadcastsInDim S8192x128 (![] : Fin 0 → Fin S8192x128.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  bcast_S_S262144x128 : S_.BroadcastsInDim S262144x128 (![] : Fin 0 → Fin S262144x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S262144x128_S128x128_S262144x128_1_0_0_1_n_n_wf : DotDims.WF S262144x128 S128x128 S262144x128 [1] [0] [0] [1] [] []
  scatter_S8192x128_S262144x1_S262144x128_1_0_0_1_wf : ScatterDims.WF S8192x128 S262144x1 S262144x128 [1] [0] [0] 1
  scatter_S8192_S262144x1_S262144_n_0_0_1_wf : ScatterDims.WF S8192 S262144x1 S262144 [] [0] [0] 1
  dot_S8192x128_S128x128_S8192x128_1_0_0_1_n_n_wf : DotDims.WF S8192x128 S128x128 S8192x128 [1] [0] [0] [1] [] []
  gather_S8192x128_S262144x1_S262144x128_1_0_n_n_0_1_1128_wf : GatherDims.WF S8192x128 S262144x1 S262144x128 [1] [0] [] [0] [] 1 ![1, 128]
  dot_S8192x128_S128x256_S8192x256_1_0_0_1_n_n_wf : DotDims.WF S8192x128 S128x256 S8192x256 [1] [0] [0] [1] [] []
  dot_S8192x256_S256x10_S8192x10_1_0_0_1_n_n_wf : DotDims.WF S8192x256 S256x10 S8192x10 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x10_S8192x10_1_0_0_1_n_n : DotDims S8192x256 S256x10 S8192x10 where
  lhsContracting := [1]
  rhsContracting := [0]
  lhsNonContracting := [0]
  rhsNonContracting := [1]
  lhsBatch := []
  rhsBatch := []
  wf := dot_S8192x256_S256x10_S8192x10_1_0_0_1_n_n_wf

class Facts : Prop extends Facts₀ where

variable [Facts]
-- ==== Proof.Spec.lean ====
/-
  The mathematics both programs compute, index by index, over the extended reals — no program is imported here.

  A graph network over N = 262144 feature rows of width 128 grouped into 8192 segments by an integer id per row.
  One layer sends a feature array h to  ELU(h · W + b + g[id]),  where g = (segment mean of h) · W' + b' has one row per
  segment and g[id] reads, for row n, the row of g named by that row's segment id. After three layers the head is
  relu(mean · W1 + b1) · W2 + b2 on the segment means.

  A row is LIVE when its id, read as a signed integer, names a segment (0 ≤ id < 8192). A segment sum only ever adds
  live rows (an update whose target lies outside the operand is dropped), and one layer's row n depends on row n of h and
  on g only; so two feature arrays that agree on the live rows have the same segment sums, and their images under a
  layer agree on the live rows again. That is the invariant carried through the three layers: the two programs differ
  exactly in what they put in the rows that are not live (one fills them with a fixed value, the other clamps the id).
-/
import Idealize.ShloMosaic.Lib.ValueIdx
import Idealize.ShloMosaic.PureOps.Ideal.Laws

noncomputable section

open scoped BigOperators

namespace Cert.Spec

open Idealize.ShloMosaic Idealize.ShloMosaic.ValueIdx

/-- A row's segment id, read signed, names one of the 8192 segments. -/
def Live (idx : (⟨1, ![262144]⟩ : Shape).Idx → BitVec 32) (n : Fin 262144) : Prop :=
  0 ≤ (idx (ix1 n)).toInt ∧ (idx (ix1 n)).toInt < 8192

/-- Two feature arrays agree on every live row. -/
def AgreeLive (idx : (⟨1, ![262144]⟩ : Shape).Idx → BitVec 32) (h h' : (⟨2, ![262144, 128]⟩ : Shape).Idx → EReal) : Prop :=
  ∀ n : Fin 262144, Live idx n → ∀ k : Fin 128, h (ix2 n k) = h' (ix2 n k)

/-- ELU on the extended reals: the identity above zero, e^s − 1 elsewhere. -/
def elu (s : EReal) : EReal := if 0 < s then s else Ideal.exp s - 1

/-- One layer at row n, channel k: ELU of (row n of h) · (column k of W) + b k + the gathered feature there. -/
def layerAt (h g : (⟨2, ![262144, 128]⟩ : Shape).Idx → EReal) (W : (⟨2, ![128, 128]⟩ : Shape).Idx → EReal)
    (b : Fin 128 → EReal) (n : Fin 262144) (k : Fin 128) : EReal :=
  elu ((∑ j : Fin 128, h (ix2 n j) * W (ix2 j k)) + b k + g (ix2 n k))

/-- The head at segment r, task t: relu(row r of G · W1 + b1) · (column t of W2) + b2 t. -/
def headAt (G : (⟨2, ![8192, 128]⟩ : Shape).Idx → EReal) (W1 : (⟨2, ![128, 256]⟩ : Shape).Idx → EReal) (b1 : Fin 256 → EReal)
    (W2 : (⟨2, ![256, 10]⟩ : Shape).Idx → EReal) (b2 : Fin 10 → EReal) (r : Fin 8192) (t : Fin 10) : EReal :=
  (∑ q : Fin 256, max ((∑ j : Fin 128, G (ix2 r j) * W1 (ix2 j q)) + b1 q) 0 * W2 (ix2 q t)) + b2 t

/-- A layer's row depends on that row of h and of g only: arrays that agree on row n give the same value there. -/
theorem layerAt_congr {h h' g g' : (⟨2, ![262144, 128]⟩ : Shape).Idx → EReal} (W : (⟨2, ![128, 128]⟩ : Shape).Idx → EReal)
    (b : Fin 128 → EReal) (n : Fin 262144) (k : Fin 128) (hh : ∀ j, h (ix2 n j) = h' (ix2 n j)) (hg : g (ix2 n k) = g' (ix2 n k)) :
    layerAt h g W b n k = layerAt h' g' W b n k := by
  unfold layerAt
  rw [hg]
  exact congrArg (fun s => elu (s + b k + g' (ix2 n k))) (Finset.sum_congr rfl fun j _ => by rw [hh j])

/-- The exact float scatter-add only adds the updates that land inside the operand: two update arrays that agree
    wherever the update lands give the same result. -/
theorem scatterAdd_congr {s si su : Shape} (d : ScatterDims s si su) {w : Nat} (x : s.Idx → EReal) (idx : IVec si w)
    (u u' : su.Idx → EReal) (hu : ∀ j, (d.resultIdx? j idx).isSome → u j = u' j) :
    Ideal.hostScatterAdd d x idx u = Ideal.hostScatterAdd d x idx u' := by
  funext i
  unfold Ideal.hostScatterAdd
  refine congrArg (x i + ·) (Finset.sum_congr rfl fun j hj => hu j ?_)
  rw [(Finset.mem_filter.mp hj).2]; rfl

end Cert.Spec

end
-- ==== Proof.KLayer0.lean ====
/-
  The first layer's kernel region, read as mathematics: for ANY contents of the arrays when the region is entered, the
  region leaves in its output array, at row n and channel k,

      ELU( Σ_j h(n, j) · W(j, k) + b(0, k) + g(n, k) ),

  h the feature array, g the gathered array, W the weights, b the one-row bias (`Cert.Spec.layerAt`).

  The road. The body's arithmetic at one index of a block (`payload_at`): the block product into a zero accumulator is
  the sum over the 128 contraction positions (`matmul_at`; the narrowing of the operands is the identity on the
  extended reals), the one-row bias broadcast down the rows reads the bias at the channel (`bias_at`), and "keep s above
  zero, else e^s − 1" is ELU (`elu_word`). Then from blocks to the array: at grid point t the row windows hold rows
  4096·t … 4096·t + 4095 of their arrays and the weight and bias windows their whole arrays (`index_facts`, the block
  reads), so what point t writes back is block t of the layer's image (`flushed_eq`); row r is written back by point
  r / 4096 (`covered`), so the blocks tile the output array and it ends holding the layer's image (`arrAt_eq`,
  `arrAt_out`).
-/
import proofs.«424086_j12352325943915_1_alg».proof.Proof.Gen.KernelIdeal.Frame
import proofs.«424086_j12352325943915_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index

The product's dimension numbers contract axis 1 of the left operand with axis 0 of the right one and have no batch
axes: at output index (p, q) and contraction position k the left operand is read at (p, k), the right one at (k, q). -/

theorem lhs_row (i : S4096x128.Idx) (k : dot_S4096x128_S128x128_S4096x128_1_0_0_1_n_n.contr.Idx) :
    (dot_S4096x128_S128x128_S4096x128_1_0_0_1_n_n.lhsIdx i k 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem lhs_contr (i : S4096x128.Idx) (k : dot_S4096x128_S128x128_S4096x128_1_0_0_1_n_n.contr.Idx) :
    (dot_S4096x128_S128x128_S4096x128_1_0_0_1_n_n.lhsIdx i k 1).val = (k ⟨0, by decide⟩).val :=
  dot_S4096x128_S128x128_S4096x128_1_0_0_1_n_n.lhsIdx_val_of_single rfl i k

theorem rhs_contr (i : S4096x128.Idx) (k : dot_S4096x128_S128x128_S4096x128_1_0_0_1_n_n.contr.Idx) :
    (dot_S4096x128_S128x128_S4096x128_1_0_0_1_n_n.rhsIdx i k 0).val = (k ⟨0, by decide⟩).val :=
  dot_S4096x128_S128x128_S4096x128_1_0_0_1_n_n.rhsIdx_val_of_single rfl i k

theorem rhs_col (i : S4096x128.Idx) (k : dot_S4096x128_S128x128_S4096x128_1_0_0_1_n_n.contr.Idx) :
    (dot_S4096x128_S128x128_S4096x128_1_0_0_1_n_n.rhsIdx i k 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The block product into the zero accumulator, at row p and column q: the sum over the 128 contraction positions
    of the left operand's row p times the right operand's column q. -/
theorem matmul_at (a : FVec Ideal S4096x128 .bf16) (w : FVec Ideal S128x128 .bf16) (p : Fin 4096) (q : Fin 128) :
    matmul dot_S4096x128_S128x128_S4096x128_1_0_0_1_n_n none a w (constant (F := Ideal) S4096x128 .f32 0x00000000#32) (ix2 p q)
      = ∑ j : Fin 128, a (ix2 p j) * w (ix2 j q) := by
  simp only [matmul]
  rw [Ideal.matmul_constant_zero_apply,
    ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q)
      ((contrEquiv1 dot_S4096x128_S128x128_S4096x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S4096x128_S128x128_S4096x128_1_0_0_1_n_n.rhsIdx (ix2 p q)
      ((contrEquiv1 dot_S4096x128_S128x128_S4096x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-! ## The body's arithmetic at an index -/

/-- The activation as the body spells it on one value — keep s where it is above the zero word, e^s minus the word of
    one elsewhere — is ELU. -/
theorem elu_word (s : Ideal .f32) :
    Scalar.select (FloatOps.cmpf .ogt s (FloatOps.ofBits .f32 0x00000000#32)) s
      (FloatOps.subf (FloatOps.exp s) (FloatOps.ofBits .f32 0x3F800000#32)) = Cert.Spec.elu s := by
  show Scalar.select (BitVec.ofBool (decide (Ideal.ofBits .f32 0x00000000#32 < s))) s
      (Ideal.exp s - Ideal.ofBits .f32 0x3F800000#32) = if 0 < s then s else Ideal.exp s - 1
  rw [Ideal.ofBits_zero_f32, Ideal.ofBits_one_f32]
  by_cases h : (0 : EReal) < s
  · rw [if_pos h, show BitVec.ofBool (decide ((0 : EReal) < s)) = 1#1 by simp [h]]
    exact select_one _ _
  · rw [if_neg h, show BitVec.ofBool (decide ((0 : EReal) < s)) = 0#1 by simp [h]]
    exact select_zero _ _

/-- The one-row bias broadcast down the rows, at row p and channel q, is the bias at channel q. -/
theorem bias_at (b : Vec Ideal S1x128 .f32) (p : Fin 4096) (q : Fin 128) :
    broadcastTo S4096x128 b broadcasts_S1x128_S4096x128 (ix2 p q) = b (ix2 0 q) :=
  broadcastTo_apply b _ (ix2 p q) (ix2 0 q) (fun a => by match a with | ⟨0, _⟩ => rfl | ⟨1, _⟩ => rfl)

/-- THE BODY AT AN INDEX: from a block x0 of features, the weights w, the one-row bias b and a block x1 of gathered
    features, the stored value at row p, channel q is ELU of (row p of x0) · (column q of w) + b q + x1 (p, q). -/
theorem payload_at (x0 x1 : Vec Ideal S4096x128 .f32) (w : Vec Ideal S128x128 .f32) (b : Vec Ideal S1x128 .f32)
    (p : Fin 4096) (q : Fin 128) :
    k0_pay1 x0 w b x1 (ix2 p q)
      = Cert.Spec.elu ((∑ j : Fin 128, x0 (ix2 p j) * w (ix2 j q)) + b (ix2 0 q) + x1 (ix2 p q)) := by
  unfold k0_pay1
  simp only [shapeCast_self]
  have hs : addf (addf (matmul dot_S4096x128_S128x128_S4096x128_1_0_0_1_n_n none (truncf .bf16 x0 bitsLt_bf16_f32)
        (truncf .bf16 w bitsLt_bf16_f32) (constant (F := Ideal) S4096x128 .f32 0x00000000#32))
        (broadcastTo S4096x128 b broadcasts_S1x128_S4096x128)) x1 (ix2 p q)
      = (∑ j : Fin 128, x0 (ix2 p j) * w (ix2 j q)) + b (ix2 0 q) + x1 (ix2 p q) := by
    rw [addf_apply, addf_apply, matmul_at, bias_at]
    rfl
  generalize addf (addf (matmul dot_S4096x128_S128x128_S4096x128_1_0_0_1_n_n none (truncf .bf16 x0 bitsLt_bf16_f32)
        (truncf .bf16 w bitsLt_bf16_f32) (constant (F := Ideal) S4096x128 .f32 0x00000000#32))
        (broadcastTo S4096x128 b broadcasts_S1x128_S4096x128)) x1 = S at hs ⊢
  rw [← hs]
  exact elu_word (S (ix2 p q))

/-! ## From blocks to the array

At grid point t the feature window, the gathered window and the output window hold rows 4096·t … 4096·t + 4095 of
their arrays; the weight and bias windows hold their whole arrays. -/

section Region

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The layer's image as ONE array: row n, channel k of it is the layer at (n, k). -/
abbrev layerArr (h g : S262144x128.Idx → Ideal .f32) (W : S128x128.Idx → Ideal .f32) (b : S1x128.Idx → Ideal .f32) :
    S262144x128.Idx → Ideal .f32 :=
  fun y => Cert.Spec.layerAt h g W (fun k' => b (ix2 0 k')) (y 0) (y 1)

/-- The windows' block indices over the grid: the row windows move with the point, the weight and bias windows stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature window's block at point t is rows 4096·t … of the feature array. -/
theorem feature_block (c : Dev nD) (t : Fin cfg0.N) (p : Fin 4096) (q : Fin 128) (n : Fin 262144)
    (hn : n.val = 4096 * t.val + p.val) :
    (iblk0 V c 0 t : Vec Ideal S4096x128 .f32) (ix2 p q) = (V c main_arg0 : S262144x128.Idx → Ideal .f32) (ix2 n q) := by
  obtain ⟨e0, e1, -⟩ := index_facts t
  unfold iblk0
  rw [View.read_apply]
  show V c main_arg0 _ = V c main_arg0 _
  refine congrArg (V c main_arg0) (funext fun a => Fin.ext ?_)
  match a with
  | ⟨0, _⟩ => show win0_0.index t (0 : Fin 2) * 4096 + 1 * p.val = n.val; rw [e0, hn]; omega
  | ⟨1, _⟩ => show win0_0.index t (1 : Fin 2) * 128 + 1 * q.val = q.val; rw [e1]; omega

/-- The gathered window's block at point t is rows 4096·t … of the gathered array. -/
theorem gathered_block (c : Dev nD) (t : Fin cfg0.N) (p : Fin 4096) (q : Fin 128) (n : Fin 262144)
    (hn : n.val = 4096 * t.val + p.val) :
    (iblk0 V c 1 t : Vec Ideal S4096x128 .f32) (ix2 p q) = (V c main_v20 : S262144x128.Idx → Ideal .f32) (ix2 n q) := by
  obtain ⟨-, -, e0, e1, -⟩ := index_facts t
  unfold iblk0
  rw [View.read_apply]
  show V c main_v20 _ = V c main_v20 _
  refine congrArg (V c main_v20) (funext fun a => Fin.ext ?_)
  match a with
  | ⟨0, _⟩ => show win0_1.index t (0 : Fin 2) * 4096 + 1 * p.val = n.val; rw [e0, hn]; omega
  | ⟨1, _⟩ => show win0_1.index t (1 : Fin 2) * 128 + 1 * q.val = q.val; rw [e1]; omega

/-- The weight window's block at every point is the weight array. -/
theorem weight_block (c : Dev nD) (t : Fin cfg0.N) (j : Fin 128) (q : Fin 128) :
    (iblk0 V c 2 t : Vec Ideal S128x128 .f32) (ix2 j q) = (V c main_v22 : S128x128.Idx → Ideal .f32) (ix2 j q) := by
  obtain ⟨-, -, -, -, e0, e1, -⟩ := index_facts t
  unfold iblk0
  rw [View.read_apply]
  show V c main_v22 _ = V c main_v22 _
  refine congrArg (V c main_v22) (funext fun a => Fin.ext ?_)
  match a with
  | ⟨0, _⟩ => show win0_2.index t (0 : Fin 2) * 128 + 1 * j.val = j.val; rw [e0]; omega
  | ⟨1, _⟩ => show win0_2.index t (1 : Fin 2) * 128 + 1 * q.val = q.val; rw [e1]; omega

/-- The bias window's block at every point is the one-row bias array. -/
theorem bias_block (c : Dev nD) (t : Fin cfg0.N) (q : Fin 128) :
    (iblk0 V c 3 t : Vec Ideal S1x128 .f32) (ix2 0 q) = (V c main_v25 : S1x128.Idx → Ideal .f32) (ix2 0 q) := by
  obtain ⟨-, -, -, -, -, -, e0, e1, -⟩ := index_facts t
  unfold iblk0
  rw [View.read_apply]
  show V c main_v25 _ = V c main_v25 _
  refine congrArg (V c main_v25) (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The body on blocks that are rows 4096·T … of the arrays (and the whole weight and bias arrays), at block index
    y, is the layer's image at the array index i that y names: row 4096·T + y 0, channel y 1. -/
theorem block_value (h g : Vec Ideal S262144x128 .f32) (W : Vec Ideal S128x128 .f32) (b : Vec Ideal S1x128 .f32)
    (x0 x1 : Vec Ideal S4096x128 .f32) (w : Vec Ideal S128x128 .f32) (b' : Vec Ideal S1x128 .f32) (T : Nat)
    (hx0 : ∀ (p : Fin 4096) (j : Fin 128) (n : Fin 262144), n.val = 4096 * T + p.val → x0 (ix2 p j) = h (ix2 n j))
    (hx1 : ∀ (p : Fin 4096) (q : Fin 128) (n : Fin 262144), n.val = 4096 * T + p.val → x1 (ix2 p q) = g (ix2 n q))
    (hw : ∀ (j q : Fin 128), w (ix2 j q) = W (ix2 j q)) (hb : ∀ q : Fin 128, b' (ix2 0 q) = b (ix2 0 q))
    (y : S4096x128.Idx) (i : S262144x128.Idx) (hi0 : (i 0).val = 4096 * T + (y 0).val) (hi1 : (i 1).val = (y 1).val) :
    k0_pay1 x0 w b' x1 y = layerArr h g W b i := by
  obtain ⟨p, q, rfl⟩ : ∃ (p : Fin 4096) (q : Fin 128), y = ix2 p q := ⟨y 0, y 1, eq_ix2 y⟩
  obtain ⟨n, k, rfl⟩ : ∃ (n : Fin 262144) (k : Fin 128), i = ix2 n k := ⟨i 0, i 1, eq_ix2 i⟩
  have hk : k = q := Fin.ext hi1
  subst hk
  rw [payload_at]
  show _ = Cert.Spec.elu ((∑ j : Fin 128, h (ix2 n j) * W (ix2 j k)) + b (ix2 0 k) + g (ix2 n k))
  rw [hx1 p k n hi0, hb k]
  exact congrArg (fun s => Cert.Spec.elu (s + b (ix2 0 k) + g (ix2 n k)))
    (Finset.sum_congr rfl fun j _ => by rw [hx0 p j n hi0, hw j k])

/-- WHAT POINT t WRITES BACK is block t of the layer's image of the arrays as the region finds them. -/
theorem flushed_eq (c : Dev nD) (t : Fin cfg0.N) :
    (dat0 (F := Ideal) V c).flushed 4 t = ((cfg0.win 4).blk t).view.read (Elt Ideal)
      (layerArr (V c main_arg0) (V c main_v20) (V c main_v22) (V c main_v25)) := by
  show (cfg0.win 4).cut (grid0.coords t) ((dat0 V c).after 4 t) = _
  rw [after0_4]
  unfold out0_4
  rw [View.canon_unit_zero zero_offsets]
  simp only [View.ld_unit_zero (S := S4096x128) zero_offsets, View.ld_unit_zero (S := S128x128) zero_offsets,
    View.ld_unit_zero (S := S1x128) zero_offsets]
  obtain ⟨-, -, -, -, -, -, -, -, e0, e1⟩ := index_facts t
  funext y
  rw [View.read_apply]
  refine block_value (V c main_arg0) (V c main_v20) (V c main_v22) (V c main_v25)
    (iblk0 V c 0 t) (iblk0 V c 1 t) (iblk0 V c 2 t) (iblk0 V c 3 t) t.val
    (fun p j n hn => feature_block V c t p j n hn) (fun p q n hn => gathered_block V c t p q n hn)
    (fun j q => weight_block V c t j q) (fun q => bias_block V c t q) y (((cfg0.win 4).blk t).view.emb y) ?_ ?_
  · show win0_4.index t (0 : Fin 2) * 4096 + 1 * (y 0).val = 4096 * t.val + (y 0).val
    rw [e0]; omega
  · show win0_4.index t (1 : Fin 2) * 128 + 1 * (y 1).val = (y 1).val
    rw [e1]; omega

/-- An index of the output array is in point t's block iff each coordinate is in the block's range on its axis. -/
theorem mem_block (t : Fin cfg0.N) (i : S262144x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v26).slice (win0_4.rect t)).set ↔ _
  rw [View.set_slice_whole, Rect.mem_set_unit]
  exact Iff.rfl

/-- Every row r of the output array is written back by point r / 4096. -/
theorem covered (i : S262144x128.Idx) :
    ∃ t : Fin cfg0.N, (cfg0.win 4).flush t = true ∧ i ∈ ((cfg0.win 4).blk t).view.set := by
  have hi0 : (i 0).val < 262144 := (i 0).isLt
  have hi1 : (i 1).val < 128 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨-, -, -, -, -, -, -, -, e0, e1⟩ := index_facts t
  refine ⟨t, flush0_4 t, ?_⟩
  rw [mem_block]
  intro a
  match a with
  | ⟨0, _⟩ =>
    show win0_4.index t (0 : Fin 2) * 4096 ≤ (i 0).val ∧ (i 0).val < win0_4.index t (0 : Fin 2) * 4096 + 4096
    rw [e0, ht]; omega
  | ⟨1, _⟩ =>
    show win0_4.index t (1 : Fin 2) * 128 ≤ (i 1).val ∧ (i 1).val < win0_4.index t (1 : Fin 2) * 128 + 128
    rw [e1]; omega

/-- THE OUTPUT ARRAY after the region, whole: the layer's image of the arrays as the region finds them. -/
theorem arrAt_eq (c : Dev nD) :
    (dat0 (F := Ideal) V c).arrAt 4 cfg0.N = layerArr (V c main_arg0) (V c main_v20) (V c main_v22) (V c main_v25) :=
  (dat0 (F := Ideal) V c).arrAt_eq_of_cover 4 (layerArr (V c main_arg0) (V c main_v20) (V c main_v22) (V c main_v25))
    (fun t _ => flushed_eq V c t) covered

/-- THE OUTPUT ARRAY after the region, at row n and channel k: ELU of (row n of the features) · (column k of the
    weights) + the bias at k + the gathered feature at (n, k). -/
theorem arrAt_out (c : Dev nD) (n : Fin 262144) (k : Fin 128) :
    ((dat0 (F := Ideal) V c).arrAt 4 cfg0.N) (ix2 n k)
      = Cert.Spec.layerAt (V c main_arg0) (V c main_v20) (V c main_v22) (fun k' => V c main_v25 (ix2 0 k')) n k :=
  congrFun (arrAt_eq V c) (ix2 n k)

end Region

end Cert.KernelIdeal.Val0

end
-- ==== Proof.KLayer1.lean ====
/-
  The second layer's kernel region, read as mathematics: for ANY contents of the arrays when the region is entered, the
  region leaves in its output array, at row n and channel k,

      ELU( Σ_j h(n, j) · W(j, k) + b(0, k) + g(n, k) ),

  h the feature array, g the gathered array, W the weights, b the one-row bias (`Cert.Spec.layerAt`).

  The road. The body's arithmetic at one index of a block (`payload_at`): the block product into a zero accumulator is
  the sum over the 128 contraction positions (`matmul_at`; the narrowing of the operands is the identity on the
  extended reals), the one-row bias broadcast down the rows reads the bias at the channel (`bias_at`), and "keep s above
  zero, else e^s − 1" is ELU (`elu_word`). Then from blocks to the array: at grid point t the row windows hold rows
  4096·t … 4096·t + 4095 of their arrays and the weight and bias windows their whole arrays (`index_facts`, the block
  reads), so what point t writes back is block t of the layer's image (`flushed_eq`); row r is written back by point
  r / 4096 (`covered`), so the blocks tile the output array and it ends holding the layer's image (`arrAt_eq`,
  `arrAt_out`).
-/
import proofs.«424086_j12352325943915_1_alg».proof.Proof.Gen.KernelIdeal.Frame
import proofs.«424086_j12352325943915_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index

The product's dimension numbers contract axis 1 of the left operand with axis 0 of the right one and have no batch
axes: at output index (p, q) and contraction position k the left operand is read at (p, k), the right one at (k, q). -/

theorem lhs_row (i : S4096x128.Idx) (k : dot_S4096x128_S128x128_S4096x128_1_0_0_1_n_n.contr.Idx) :
    (dot_S4096x128_S128x128_S4096x128_1_0_0_1_n_n.lhsIdx i k 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem lhs_contr (i : S4096x128.Idx) (k : dot_S4096x128_S128x128_S4096x128_1_0_0_1_n_n.contr.Idx) :
    (dot_S4096x128_S128x128_S4096x128_1_0_0_1_n_n.lhsIdx i k 1).val = (k ⟨0, by decide⟩).val :=
  dot_S4096x128_S128x128_S4096x128_1_0_0_1_n_n.lhsIdx_val_of_single rfl i k

theorem rhs_contr (i : S4096x128.Idx) (k : dot_S4096x128_S128x128_S4096x128_1_0_0_1_n_n.contr.Idx) :
    (dot_S4096x128_S128x128_S4096x128_1_0_0_1_n_n.rhsIdx i k 0).val = (k ⟨0, by decide⟩).val :=
  dot_S4096x128_S128x128_S4096x128_1_0_0_1_n_n.rhsIdx_val_of_single rfl i k

theorem rhs_col (i : S4096x128.Idx) (k : dot_S4096x128_S128x128_S4096x128_1_0_0_1_n_n.contr.Idx) :
    (dot_S4096x128_S128x128_S4096x128_1_0_0_1_n_n.rhsIdx i k 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The block product into the zero accumulator, at row p and column q: the sum over the 128 contraction positions
    of the left operand's row p times the right operand's column q. -/
theorem matmul_at (a : FVec Ideal S4096x128 .bf16) (w : FVec Ideal S128x128 .bf16) (p : Fin 4096) (q : Fin 128) :
    matmul dot_S4096x128_S128x128_S4096x128_1_0_0_1_n_n none a w (constant (F := Ideal) S4096x128 .f32 0x00000000#32) (ix2 p q)
      = ∑ j : Fin 128, a (ix2 p j) * w (ix2 j q) := by
  simp only [matmul]
  rw [Ideal.matmul_constant_zero_apply,
    ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q)
      ((contrEquiv1 dot_S4096x128_S128x128_S4096x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S4096x128_S128x128_S4096x128_1_0_0_1_n_n.rhsIdx (ix2 p q)
      ((contrEquiv1 dot_S4096x128_S128x128_S4096x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-! ## The body's arithmetic at an index -/

/-- The activation as the body spells it on one value — keep s where it is above the zero word, e^s minus the word of
    one elsewhere — is ELU. -/
theorem elu_word (s : Ideal .f32) :
    Scalar.select (FloatOps.cmpf .ogt s (FloatOps.ofBits .f32 0x00000000#32)) s
      (FloatOps.subf (FloatOps.exp s) (FloatOps.ofBits .f32 0x3F800000#32)) = Cert.Spec.elu s := by
  show Scalar.select (BitVec.ofBool (decide (Ideal.ofBits .f32 0x00000000#32 < s))) s
      (Ideal.exp s - Ideal.ofBits .f32 0x3F800000#32) = if 0 < s then s else Ideal.exp s - 1
  rw [Ideal.ofBits_zero_f32, Ideal.ofBits_one_f32]
  by_cases h : (0 : EReal) < s
  · rw [if_pos h, show BitVec.ofBool (decide ((0 : EReal) < s)) = 1#1 by simp [h]]
    exact select_one _ _
  · rw [if_neg h, show BitVec.ofBool (decide ((0 : EReal) < s)) = 0#1 by simp [h]]
    exact select_zero _ _

/-- The one-row bias broadcast down the rows, at row p and channel q, is the bias at channel q. -/
theorem bias_at (b : Vec Ideal S1x128 .f32) (p : Fin 4096) (q : Fin 128) :
    broadcastTo S4096x128 b broadcasts_S1x128_S4096x128 (ix2 p q) = b (ix2 0 q) :=
  broadcastTo_apply b _ (ix2 p q) (ix2 0 q) (fun a => by match a with | ⟨0, _⟩ => rfl | ⟨1, _⟩ => rfl)

/-- THE BODY AT AN INDEX: from a block x0 of features, the weights w, the one-row bias b and a block x1 of gathered
    features, the stored value at row p, channel q is ELU of (row p of x0) · (column q of w) + b q + x1 (p, q). -/
theorem payload_at (x0 x1 : Vec Ideal S4096x128 .f32) (w : Vec Ideal S128x128 .f32) (b : Vec Ideal S1x128 .f32)
    (p : Fin 4096) (q : Fin 128) :
    k1_pay1 x0 w b x1 (ix2 p q)
      = Cert.Spec.elu ((∑ j : Fin 128, x0 (ix2 p j) * w (ix2 j q)) + b (ix2 0 q) + x1 (ix2 p q)) := by
  unfold k1_pay1
  simp only [shapeCast_self]
  have hs : addf (addf (matmul dot_S4096x128_S128x128_S4096x128_1_0_0_1_n_n none (truncf .bf16 x0 bitsLt_bf16_f32)
        (truncf .bf16 w bitsLt_bf16_f32) (constant (F := Ideal) S4096x128 .f32 0x00000000#32))
        (broadcastTo S4096x128 b broadcasts_S1x128_S4096x128)) x1 (ix2 p q)
      = (∑ j : Fin 128, x0 (ix2 p j) * w (ix2 j q)) + b (ix2 0 q) + x1 (ix2 p q) := by
    rw [addf_apply, addf_apply, matmul_at, bias_at]
    rfl
  generalize addf (addf (matmul dot_S4096x128_S128x128_S4096x128_1_0_0_1_n_n none (truncf .bf16 x0 bitsLt_bf16_f32)
        (truncf .bf16 w bitsLt_bf16_f32) (constant (F := Ideal) S4096x128 .f32 0x00000000#32))
        (broadcastTo S4096x128 b broadcasts_S1x128_S4096x128)) x1 = S at hs ⊢
  rw [← hs]
  exact elu_word (S (ix2 p q))

/-! ## From blocks to the array

At grid point t the feature window, the gathered window and the output window hold rows 4096·t … 4096·t + 4095 of
their arrays; the weight and bias windows hold their whole arrays. -/

section Region

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The layer's image as ONE array: row n, channel k of it is the layer at (n, k). -/
abbrev layerArr (h g : S262144x128.Idx → Ideal .f32) (W : S128x128.Idx → Ideal .f32) (b : S1x128.Idx → Ideal .f32) :
    S262144x128.Idx → Ideal .f32 :=
  fun y => Cert.Spec.layerAt h g W (fun k' => b (ix2 0 k')) (y 0) (y 1)

/-- The windows' block indices over the grid: the row windows move with the point, the weight and bias windows stay. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature window's block at point t is rows 4096·t … of the feature array. -/
theorem feature_block (c : Dev nD) (t : Fin cfg1.N) (p : Fin 4096) (q : Fin 128) (n : Fin 262144)
    (hn : n.val = 4096 * t.val + p.val) :
    (iblk1 V c 0 t : Vec Ideal S4096x128 .f32) (ix2 p q) = (V c main_v26 : S262144x128.Idx → Ideal .f32) (ix2 n q) := by
  obtain ⟨e0, e1, -⟩ := index_facts t
  unfold iblk1
  rw [View.read_apply]
  show V c main_v26 _ = V c main_v26 _
  refine congrArg (V c main_v26) (funext fun a => Fin.ext ?_)
  match a with
  | ⟨0, _⟩ => show win1_0.index t (0 : Fin 2) * 4096 + 1 * p.val = n.val; rw [e0, hn]; omega
  | ⟨1, _⟩ => show win1_0.index t (1 : Fin 2) * 128 + 1 * q.val = q.val; rw [e1]; omega

/-- The gathered window's block at point t is rows 4096·t … of the gathered array. -/
theorem gathered_block (c : Dev nD) (t : Fin cfg1.N) (p : Fin 4096) (q : Fin 128) (n : Fin 262144)
    (hn : n.val = 4096 * t.val + p.val) :
    (iblk1 V c 1 t : Vec Ideal S4096x128 .f32) (ix2 p q) = (V c main_v47 : S262144x128.Idx → Ideal .f32) (ix2 n q) := by
  obtain ⟨-, -, e0, e1, -⟩ := index_facts t
  unfold iblk1
  rw [View.read_apply]
  show V c main_v47 _ = V c main_v47 _
  refine congrArg (V c main_v47) (funext fun a => Fin.ext ?_)
  match a with
  | ⟨0, _⟩ => show win1_1.index t (0 : Fin 2) * 4096 + 1 * p.val = n.val; rw [e0, hn]; omega
  | ⟨1, _⟩ => show win1_1.index t (1 : Fin 2) * 128 + 1 * q.val = q.val; rw [e1]; omega

/-- The weight window's block at every point is the weight array. -/
theorem weight_block (c : Dev nD) (t : Fin cfg1.N) (j : Fin 128) (q : Fin 128) :
    (iblk1 V c 2 t : Vec Ideal S128x128 .f32) (ix2 j q) = (V c main_v49 : S128x128.Idx → Ideal .f32) (ix2 j q) := by
  obtain ⟨-, -, -, -, e0, e1, -⟩ := index_facts t
  unfold iblk1
  rw [View.read_apply]
  show V c main_v49 _ = V c main_v49 _
  refine congrArg (V c main_v49) (funext fun a => Fin.ext ?_)
  match a with
  | ⟨0, _⟩ => show win1_2.index t (0 : Fin 2) * 128 + 1 * j.val = j.val; rw [e0]; omega
  | ⟨1, _⟩ => show win1_2.index t (1 : Fin 2) * 128 + 1 * q.val = q.val; rw [e1]; omega

/-- The bias window's block at every point is the one-row bias array. -/
theorem bias_block (c : Dev nD) (t : Fin cfg1.N) (q : Fin 128) :
    (iblk1 V c 3 t : Vec Ideal S1x128 .f32) (ix2 0 q) = (V c main_v52 : S1x128.Idx → Ideal .f32) (ix2 0 q) := by
  obtain ⟨-, -, -, -, -, -, e0, e1, -⟩ := index_facts t
  unfold iblk1
  rw [View.read_apply]
  show V c main_v52 _ = V c main_v52 _
  refine congrArg (V c main_v52) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- The body on blocks that are rows 4096·T … of the arrays (and the whole weight and bias arrays), at block index
    y, is the layer's image at the array index i that y names: row 4096·T + y 0, channel y 1. -/
theorem block_value (h g : Vec Ideal S262144x128 .f32) (W : Vec Ideal S128x128 .f32) (b : Vec Ideal S1x128 .f32)
    (x0 x1 : Vec Ideal S4096x128 .f32) (w : Vec Ideal S128x128 .f32) (b' : Vec Ideal S1x128 .f32) (T : Nat)
    (hx0 : ∀ (p : Fin 4096) (j : Fin 128) (n : Fin 262144), n.val = 4096 * T + p.val → x0 (ix2 p j) = h (ix2 n j))
    (hx1 : ∀ (p : Fin 4096) (q : Fin 128) (n : Fin 262144), n.val = 4096 * T + p.val → x1 (ix2 p q) = g (ix2 n q))
    (hw : ∀ (j q : Fin 128), w (ix2 j q) = W (ix2 j q)) (hb : ∀ q : Fin 128, b' (ix2 0 q) = b (ix2 0 q))
    (y : S4096x128.Idx) (i : S262144x128.Idx) (hi0 : (i 0).val = 4096 * T + (y 0).val) (hi1 : (i 1).val = (y 1).val) :
    k1_pay1 x0 w b' x1 y = layerArr h g W b i := by
  obtain ⟨p, q, rfl⟩ : ∃ (p : Fin 4096) (q : Fin 128), y = ix2 p q := ⟨y 0, y 1, eq_ix2 y⟩
  obtain ⟨n, k, rfl⟩ : ∃ (n : Fin 262144) (k : Fin 128), i = ix2 n k := ⟨i 0, i 1, eq_ix2 i⟩
  have hk : k = q := Fin.ext hi1
  subst hk
  rw [payload_at]
  show _ = Cert.Spec.elu ((∑ j : Fin 128, h (ix2 n j) * W (ix2 j k)) + b (ix2 0 k) + g (ix2 n k))
  rw [hx1 p k n hi0, hb k]
  exact congrArg (fun s => Cert.Spec.elu (s + b (ix2 0 k) + g (ix2 n k)))
    (Finset.sum_congr rfl fun j _ => by rw [hx0 p j n hi0, hw j k])

/-- WHAT POINT t WRITES BACK is block t of the layer's image of the arrays as the region finds them. -/
theorem flushed_eq (c : Dev nD) (t : Fin cfg1.N) :
    (dat1 (F := Ideal) V c).flushed 4 t = ((cfg1.win 4).blk t).view.read (Elt Ideal)
      (layerArr (V c main_v26) (V c main_v47) (V c main_v49) (V c main_v52)) := by
  show (cfg1.win 4).cut (grid1.coords t) ((dat1 V c).after 4 t) = _
  rw [after1_4]
  unfold out1_4
  rw [View.canon_unit_zero zero_offsets]
  simp only [View.ld_unit_zero (S := S4096x128) zero_offsets, View.ld_unit_zero (S := S128x128) zero_offsets,
    View.ld_unit_zero (S := S1x128) zero_offsets]
  obtain ⟨-, -, -, -, -, -, -, -, e0, e1⟩ := index_facts t
  funext y
  rw [View.read_apply]
  refine block_value (V c main_v26) (V c main_v47) (V c main_v49) (V c main_v52)
    (iblk1 V c 0 t) (iblk1 V c 1 t) (iblk1 V c 2 t) (iblk1 V c 3 t) t.val
    (fun p j n hn => feature_block V c t p j n hn) (fun p q n hn => gathered_block V c t p q n hn)
    (fun j q => weight_block V c t j q) (fun q => bias_block V c t q) y (((cfg1.win 4).blk t).view.emb y) ?_ ?_
  · show win1_4.index t (0 : Fin 2) * 4096 + 1 * (y 0).val = 4096 * t.val + (y 0).val
    rw [e0]; omega
  · show win1_4.index t (1 : Fin 2) * 128 + 1 * (y 1).val = (y 1).val
    rw [e1]; omega

/-- An index of the output array is in point t's block iff each coordinate is in the block's range on its axis. -/
theorem mem_block (t : Fin cfg1.N) (i : S262144x128.Idx) :
    i ∈ ((cfg1.win 4).blk t).view.set ↔ ∀ a : Fin 2, win1_4.index t a * S4096x128.size a ≤ (i a).val
      ∧ (i a).val < win1_4.index t a * S4096x128.size a + S4096x128.size a := by
  show i ∈ ((View.whole main_v53).slice (win1_4.rect t)).set ↔ _
  rw [View.set_slice_whole, Rect.mem_set_unit]
  exact Iff.rfl

/-- Every row r of the output array is written back by point r / 4096. -/
theorem covered (i : S262144x128.Idx) :
    ∃ t : Fin cfg1.N, (cfg1.win 4).flush t = true ∧ i ∈ ((cfg1.win 4).blk t).view.set := by
  have hi0 : (i 0).val < 262144 := (i 0).isLt
  have hi1 : (i 1).val < 128 := (i 1).isLt
  have hN : cfg1.N = 64 := N_1
  obtain ⟨t, ht⟩ : ∃ t : Fin cfg1.N, t.val = (i 0).val / 4096 := ⟨⟨(i 0).val / 4096, by rw [hN]; omega⟩, rfl⟩
  obtain ⟨-, -, -, -, -, -, -, -, e0, e1⟩ := index_facts t
  refine ⟨t, flush1_4 t, ?_⟩
  rw [mem_block]
  intro a
  match a with
  | ⟨0, _⟩ =>
    show win1_4.index t (0 : Fin 2) * 4096 ≤ (i 0).val ∧ (i 0).val < win1_4.index t (0 : Fin 2) * 4096 + 4096
    rw [e0, ht]; omega
  | ⟨1, _⟩ =>
    show win1_4.index t (1 : Fin 2) * 128 ≤ (i 1).val ∧ (i 1).val < win1_4.index t (1 : Fin 2) * 128 + 128
    rw [e1]; omega

/-- THE OUTPUT ARRAY after the region, whole: the layer's image of the arrays as the region finds them. -/
theorem arrAt_eq (c : Dev nD) :
    (dat1 (F := Ideal) V c).arrAt 4 cfg1.N = layerArr (V c main_v26) (V c main_v47) (V c main_v49) (V c main_v52) :=
  (dat1 (F := Ideal) V c).arrAt_eq_of_cover 4 (layerArr (V c main_v26) (V c main_v47) (V c main_v49) (V c main_v52))
    (fun t _ => flushed_eq V c t) covered

/-- THE OUTPUT ARRAY after the region, at row n and channel k: ELU of (row n of the features) · (column k of the
    weights) + the bias at k + the gathered feature at (n, k). -/
theorem arrAt_out (c : Dev nD) (n : Fin 262144) (k : Fin 128) :
    ((dat1 (F := Ideal) V c).arrAt 4 cfg1.N) (ix2 n k)
      = Cert.Spec.layerAt (V c main_v26) (V c main_v47) (V c main_v49) (fun k' => V c main_v52 (ix2 0 k')) n k :=
  congrFun (arrAt_eq V c) (ix2 n k)

end Region

end Cert.KernelIdeal.Val1

end
-- ==== Proof.KLayer2.lean ====
/-
  The third layer's kernel region, read as mathematics: for ANY contents of the arrays when the region is entered, the
  region leaves in its output array, at row n and channel k,

      ELU( Σ_j h(n, j) · W(j, k) + b(0, k) + g(n, k) ),

  h the feature array, g the gathered array, W the weights, b the one-row bias (`Cert.Spec.layerAt`).

  The road. The body's arithmetic at one index of a block (`payload_at`): the block product into a zero accumulator is
  the sum over the 128 contraction positions (`matmul_at`; the narrowing of the operands is the identity on the
  extended reals), the one-row bias broadcast down the rows reads the bias at the channel (`bias_at`), and "keep s above
  zero, else e^s − 1" is ELU (`elu_word`). Then from blocks to the array: at grid point t the row windows hold rows
  4096·t … 4096·t + 4095 of their arrays and the weight and bias windows their whole arrays (`index_facts`, the block
  reads), so what point t writes back is block t of the layer's image (`flushed_eq`); row r is written back by point
  r / 4096 (`covered`), so the blocks tile the output array and it ends holding the layer's image (`arrAt_eq`,
  `arrAt_out`).
-/
import proofs.«424086_j12352325943915_1_alg».proof.Proof.Gen.KernelIdeal.Frame
import proofs.«424086_j12352325943915_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.KernelIdeal.Val2

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index

The product's dimension numbers contract axis 1 of the left operand with axis 0 of the right one and have no batch
axes: at output index (p, q) and contraction position k the left operand is read at (p, k), the right one at (k, q). -/

theorem lhs_row (i : S4096x128.Idx) (k : dot_S4096x128_S128x128_S4096x128_1_0_0_1_n_n.contr.Idx) :
    (dot_S4096x128_S128x128_S4096x128_1_0_0_1_n_n.lhsIdx i k 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

theorem lhs_contr (i : S4096x128.Idx) (k : dot_S4096x128_S128x128_S4096x128_1_0_0_1_n_n.contr.Idx) :
    (dot_S4096x128_S128x128_S4096x128_1_0_0_1_n_n.lhsIdx i k 1).val = (k ⟨0, by decide⟩).val :=
  dot_S4096x128_S128x128_S4096x128_1_0_0_1_n_n.lhsIdx_val_of_single rfl i k

theorem rhs_contr (i : S4096x128.Idx) (k : dot_S4096x128_S128x128_S4096x128_1_0_0_1_n_n.contr.Idx) :
    (dot_S4096x128_S128x128_S4096x128_1_0_0_1_n_n.rhsIdx i k 0).val = (k ⟨0, by decide⟩).val :=
  dot_S4096x128_S128x128_S4096x128_1_0_0_1_n_n.rhsIdx_val_of_single rfl i k

theorem rhs_col (i : S4096x128.Idx) (k : dot_S4096x128_S128x128_S4096x128_1_0_0_1_n_n.contr.Idx) :
    (dot_S4096x128_S128x128_S4096x128_1_0_0_1_n_n.rhsIdx i k 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The block product into the zero accumulator, at row p and column q: the sum over the 128 contraction positions
    of the left operand's row p times the right operand's column q. -/
theorem matmul_at (a : FVec Ideal S4096x128 .bf16) (w : FVec Ideal S128x128 .bf16) (p : Fin 4096) (q : Fin 128) :
    matmul dot_S4096x128_S128x128_S4096x128_1_0_0_1_n_n none a w (constant (F := Ideal) S4096x128 .f32 0x00000000#32) (ix2 p q)
      = ∑ j : Fin 128, a (ix2 p j) * w (ix2 j q) := by
  simp only [matmul]
  rw [Ideal.matmul_constant_zero_apply,
    ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q)
      ((contrEquiv1 dot_S4096x128_S128x128_S4096x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S4096x128_S128x128_S4096x128_1_0_0_1_n_n.rhsIdx (ix2 p q)
      ((contrEquiv1 dot_S4096x128_S128x128_S4096x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-! ## The body's arithmetic at an index -/

/-- The activation as the body spells it on one value — keep s where it is above the zero word, e^s minus the word of
    one elsewhere — is ELU. -/
theorem elu_word (s : Ideal .f32) :
    Scalar.select (FloatOps.cmpf .ogt s (FloatOps.ofBits .f32 0x00000000#32)) s
      (FloatOps.subf (FloatOps.exp s) (FloatOps.ofBits .f32 0x3F800000#32)) = Cert.Spec.elu s := by
  show Scalar.select (BitVec.ofBool (decide (Ideal.ofBits .f32 0x00000000#32 < s))) s
      (Ideal.exp s - Ideal.ofBits .f32 0x3F800000#32) = if 0 < s then s else Ideal.exp s - 1
  rw [Ideal.ofBits_zero_f32, Ideal.ofBits_one_f32]
  by_cases h : (0 : EReal) < s
  · rw [if_pos h, show BitVec.ofBool (decide ((0 : EReal) < s)) = 1#1 by simp [h]]
    exact select_one _ _
  · rw [if_neg h, show BitVec.ofBool (decide ((0 : EReal) < s)) = 0#1 by simp [h]]
    exact select_zero _ _

/-- The one-row bias broadcast down the rows, at row p and channel q, is the bias at channel q. -/
theorem bias_at (b : Vec Ideal S1x128 .f32) (p : Fin 4096) (q : Fin 128) :
    broadcastTo S4096x128 b broadcasts_S1x128_S4096x128 (ix2 p q) = b (ix2 0 q) :=
  broadcastTo_apply b _ (ix2 p q) (ix2 0 q) (fun a => by match a with | ⟨0, _⟩ => rfl | ⟨1, _⟩ => rfl)

/-- THE BODY AT AN INDEX: from a block x0 of features, the weights w, the one-row bias b and a block x1 of gathered
    features, the stored value at row p, channel q is ELU of (row p of x0) · (column q of w) + b q + x1 (p, q). -/
theorem payload_at (x0 x1 : Vec Ideal S4096x128 .f32) (w : Vec Ideal S128x128 .f32) (b : Vec Ideal S1x128 .f32)
    (p : Fin 4096) (q : Fin 128) :
    k2_pay1 x0 w b x1 (ix2 p q)
      = Cert.Spec.elu ((∑ j : Fin 128, x0 (ix2 p j) * w (ix2 j q)) + b (ix2 0 q) + x1 (ix2 p q)) := by
  unfold k2_pay1
  simp only [shapeCast_self]
  have hs : addf (addf (matmul dot_S4096x128_S128x128_S4096x128_1_0_0_1_n_n none (truncf .bf16 x0 bitsLt_bf16_f32)
        (truncf .bf16 w bitsLt_bf16_f32) (constant (F := Ideal) S4096x128 .f32 0x00000000#32))
        (broadcastTo S4096x128 b broadcasts_S1x128_S4096x128)) x1 (ix2 p q)
      = (∑ j : Fin 128, x0 (ix2 p j) * w (ix2 j q)) + b (ix2 0 q) + x1 (ix2 p q) := by
    rw [addf_apply, addf_apply, matmul_at, bias_at]
    rfl
  generalize addf (addf (matmul dot_S4096x128_S128x128_S4096x128_1_0_0_1_n_n none (truncf .bf16 x0 bitsLt_bf16_f32)
        (truncf .bf16 w bitsLt_bf16_f32) (constant (F := Ideal) S4096x128 .f32 0x00000000#32))
        (broadcastTo S4096x128 b broadcasts_S1x128_S4096x128)) x1 = S at hs ⊢
  rw [← hs]
  exact elu_word (S (ix2 p q))

/-! ## From blocks to the array

At grid point t the feature window, the gathered window and the output window hold rows 4096·t … 4096·t + 4095 of
their arrays; the weight and bias windows hold their whole arrays. -/

section Region

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The layer's image as ONE array: row n, channel k of it is the layer at (n, k). -/
abbrev layerArr (h g : S262144x128.Idx → Ideal .f32) (W : S128x128.Idx → Ideal .f32) (b : S1x128.Idx → Ideal .f32) :
    S262144x128.Idx → Ideal .f32 :=
  fun y => Cert.Spec.layerAt h g W (fun k' => b (ix2 0 k')) (y 0) (y 1)

/-- The windows' block indices over the grid: the row windows move with the point, the weight and bias windows stay. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The feature window's block at point t is rows 4096·t … of the feature array. -/
theorem feature_block (c : Dev nD) (t : Fin cfg2.N) (p : Fin 4096) (q : Fin 128) (n : Fin 262144)
    (hn : n.val = 4096 * t.val + p.val) :
    (iblk2 V c 0 t : Vec Ideal S4096x128 .f32) (ix2 p q) = (V c main_v53 : S262144x128.Idx → Ideal .f32) (ix2 n q) := by
  obtain ⟨e0, e1, -⟩ := index_facts t
  unfold iblk2
  rw [View.read_apply]
  show V c main_v53 _ = V c main_v53 _
  refine congrArg (V c main_v53) (funext fun a => Fin.ext ?_)
  match a with
  | ⟨0, _⟩ => show win2_0.index t (0 : Fin 2) * 4096 + 1 * p.val = n.val; rw [e0, hn]; omega
  | ⟨1, _⟩ => show win2_0.index t (1 : Fin 2) * 128 + 1 * q.val = q.val; rw [e1]; omega

/-- The gathered window's block at point t is rows 4096·t … of the gathered array. -/
theorem gathered_block (c : Dev nD) (t : Fin cfg2.N) (p : Fin 4096) (q : Fin 128) (n : Fin 262144)
    (hn : n.val = 4096 * t.val + p.val) :
    (iblk2 V c 1 t : Vec Ideal S4096x128 .f32) (ix2 p q) = (V c main_v74 : S262144x128.Idx → Ideal .f32) (ix2 n q) := by
  obtain ⟨-, -, e0, e1, -⟩ := index_facts t
  unfold iblk2
  rw [View.read_apply]
  show V c main_v74 _ = V c main_v74 _
  refine congrArg (V c main_v74) (funext fun a => Fin.ext ?_)
  match a with
  | ⟨0, _⟩ => show win2_1.index t (0 : Fin 2) * 4096 + 1 * p.val = n.val; rw [e0, hn]; omega
  | ⟨1, _⟩ => show win2_1.index t (1 : Fin 2) * 128 + 1 * q.val = q.val; rw [e1]; omega

/-- The weight window's block at every point is the weight array. -/
theorem weight_block (c : Dev nD) (t : Fin cfg2.N) (j : Fin 128) (q : Fin 128) :
    (iblk2 V c 2 t : Vec Ideal S128x128 .f32) (ix2 j q) = (V c main_v76 : S128x128.Idx → Ideal .f32) (ix2 j q) := by
  obtain ⟨-, -, -, -, e0, e1, -⟩ := index_facts t
  unfold iblk2
  rw [View.read_apply]
  show V c main_v76 _ = V c main_v76 _
  refine congrArg (V c main_v76) (funext fun a => Fin.ext ?_)
  match a with
  | ⟨0, _⟩ => show win2_2.index t (0 : Fin 2) * 128 + 1 * j.val = j.val; rw [e0]; omega
  | ⟨1, _⟩ => show win2_2.index t (1 : Fin 2) * 128 + 1 * q.val = q.val; rw [e1]; omega

/-- The bias window's block at every point is the one-row bias array. -/
theorem bias_block (c : Dev nD) (t : Fin cfg2.N) (q : Fin 128) :
    (iblk2 V c 3 t : Vec Ideal S1x128 .f32) (ix2 0 q) = (V c main_v79 : S1x128.Idx → Ideal .f32) (ix2 0 q) := by
  obtain ⟨-, -, -, -, -, -, e0, e1, -⟩ := index_facts t
  unfold iblk2
  rw [View.read_apply]
  show V c main_v79 _ = V c main_v79 _
  refine congrArg (V c main_v79) (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

/-- The body on blocks that are rows 4096·T … of the arrays (and the whole weight and bias arrays), at block index
    y, is the layer's image at the array index i that y names: row 4096·T + y 0, channel y 1. -/
theorem block_value (h g : Vec Ideal S262144x128 .f32) (W : Vec Ideal S128x128 .f32) (b : Vec Ideal S1x128 .f32)
    (x0 x1 : Vec Ideal S4096x128 .f32) (w : Vec Ideal S128x128 .f32) (b' : Vec Ideal S1x128 .f32) (T : Nat)
    (hx0 : ∀ (p : Fin 4096) (j : Fin 128) (n : Fin 262144), n.val = 4096 * T + p.val → x0 (ix2 p j) = h (ix2 n j))
    (hx1 : ∀ (p : Fin 4096) (q : Fin 128) (n : Fin 262144), n.val = 4096 * T + p.val → x1 (ix2 p q) = g (ix2 n q))
    (hw : ∀ (j q : Fin 128), w (ix2 j q) = W (ix2 j q)) (hb : ∀ q : Fin 128, b' (ix2 0 q) = b (ix2 0 q))
    (y : S4096x128.Idx) (i : S262144x128.Idx) (hi0 : (i 0).val = 4096 * T + (y 0).val) (hi1 : (i 1).val = (y 1).val) :
    k2_pay1 x0 w b' x1 y = layerArr h g W b i := by
  obtain ⟨p, q, rfl⟩ : ∃ (p : Fin 4096) (q : Fin 128), y = ix2 p q := ⟨y 0, y 1, eq_ix2 y⟩
  obtain ⟨n, k, rfl⟩ : ∃ (n : Fin 262144) (k : Fin 128), i = ix2 n k := ⟨i 0, i 1, eq_ix2 i⟩
  have hk : k = q := Fin.ext hi1
  subst hk
  rw [payload_at]
  show _ = Cert.Spec.elu ((∑ j : Fin 128, h (ix2 n j) * W (ix2 j k)) + b (ix2 0 k) + g (ix2 n k))
  rw [hx1 p k n hi0, hb k]
  exact congrArg (fun s => Cert.Spec.elu (s + b (ix2 0 k) + g (ix2 n k)))
    (Finset.sum_congr rfl fun j _ => by rw [hx0 p j n hi0, hw j k])

/-- WHAT POINT t WRITES BACK is block t of the layer's image of the arrays as the region finds them. -/
theorem flushed_eq (c : Dev nD) (t : Fin cfg2.N) :
    (dat2 (F := Ideal) V c).flushed 4 t = ((cfg2.win 4).blk t).view.read (Elt Ideal)
      (layerArr (V c main_v53) (V c main_v74) (V c main_v76) (V c main_v79)) := by
  show (cfg2.win 4).cut (grid2.coords t) ((dat2 V c).after 4 t) = _
  rw [after2_4]
  unfold out2_4
  rw [View.canon_unit_zero zero_offsets]
  simp only [View.ld_unit_zero (S := S4096x128) zero_offsets, View.ld_unit_zero (S := S128x128) zero_offsets,
    View.ld_unit_zero (S := S1x128) zero_offsets]
  obtain ⟨-, -, -, -, -, -, -, -, e0, e1⟩ := index_facts t
  funext y
  rw [View.read_apply]
  refine block_value (V c main_v53) (V c main_v74) (V c main_v76) (V c main_v79)
    (iblk2 V c 0 t) (iblk2 V c 1 t) (iblk2 V c 2 t) (iblk2 V c 3 t) t.val
    (fun p j n hn => feature_block V c t p j n hn) (fun p q n hn => gathered_block V c t p q n hn)
    (fun j q => weight_block V c t j q) (fun q => bias_block V c t q) y (((cfg2.win 4).blk t).view.emb y) ?_ ?_
  · show win2_4.index t (0 : Fin 2) * 4096 + 1 * (y 0).val = 4096 * t.val + (y 0).val
    rw [e0]; omega
  · show win2_4.index t (1 : Fin 2) * 128 + 1 * (y 1).val = (y 1).val
    rw [e1]; omega

/-- An index of the output array is in point t's block iff each coordinate is in the block's range on its axis. -/
theorem mem_block (t : Fin cfg2.N) (i : S262144x128.Idx) :
    i ∈ ((cfg2.win 4).blk t).view.set ↔ ∀ a : Fin 2, win2_4.index t a * S4096x128.size a ≤ (i a).val
      ∧ (i a).val < win2_4.index t a * S4096x128.size a + S4096x128.size a := by
  show i ∈ ((View.whole main_v80).slice (win2_4.rect t)).set ↔ _
  rw [View.set_slice_whole, Rect.mem_set_unit]
  exact Iff.rfl

/-- Every row r of the output array is written back by point r / 4096. -/
theorem covered (i : S262144x128.Idx) :
    ∃ t : Fin cfg2.N, (cfg2.win 4).flush t = true ∧ i ∈ ((cfg2.win 4).blk t).view.set := by
  have hi0 : (i 0).val < 262144 := (i 0).isLt
  have hi1 : (i 1).val < 128 := (i 1).isLt
  have hN : cfg2.N = 64 := N_2
  obtain ⟨t, ht⟩ : ∃ t : Fin cfg2.N, t.val = (i 0).val / 4096 := ⟨⟨(i 0).val / 4096, by rw [hN]; omega⟩, rfl⟩
  obtain ⟨-, -, -, -, -, -, -, -, e0, e1⟩ := index_facts t
  refine ⟨t, flush2_4 t, ?_⟩
  rw [mem_block]
  intro a
  match a with
  | ⟨0, _⟩ =>
    show win2_4.index t (0 : Fin 2) * 4096 ≤ (i 0).val ∧ (i 0).val < win2_4.index t (0 : Fin 2) * 4096 + 4096
    rw [e0, ht]; omega
  | ⟨1, _⟩ =>
    show win2_4.index t (1 : Fin 2) * 128 ≤ (i 1).val ∧ (i 1).val < win2_4.index t (1 : Fin 2) * 128 + 128
    rw [e1]; omega

/-- THE OUTPUT ARRAY after the region, whole: the layer's image of the arrays as the region finds them. -/
theorem arrAt_eq (c : Dev nD) :
    (dat2 (F := Ideal) V c).arrAt 4 cfg2.N = layerArr (V c main_v53) (V c main_v74) (V c main_v76) (V c main_v79) :=
  (dat2 (F := Ideal) V c).arrAt_eq_of_cover 4 (layerArr (V c main_v53) (V c main_v74) (V c main_v76) (V c main_v79))
    (fun t _ => flushed_eq V c t) covered

/-- THE OUTPUT ARRAY after the region, at row n and channel k: ELU of (row n of the features) · (column k of the
    weights) + the bias at k + the gathered feature at (n, k). -/
theorem arrAt_out (c : Dev nD) (n : Fin 262144) (k : Fin 128) :
    ((dat2 (F := Ideal) V c).arrAt 4 cfg2.N) (ix2 n k)
      = Cert.Spec.layerAt (V c main_v53) (V c main_v74) (V c main_v76) (fun k' => V c main_v79 (ix2 0 k')) n k :=
  congrFun (arrAt_eq V c) (ix2 n k)

end Region

end Cert.KernelIdeal.Val2

end
-- ==== Proof.KHead.lean ====
/-
  The head region at an index, on the extended reals.

  The fourth region of the kernel program walks the 8192 segment means G (8192 × 128) in four row blocks of 2048 rows.
  At grid point t it holds rows 2048·t … 2048·t + 2047 of G, the whole first weight W1 (128 × 256), the first bias row
  b1 (1 × 256), the whole second weight W2 (256 × 10) and the second bias row b2 (1 × 10), and writes rows
  2048·t … 2048·t + 2047 of the 8192 × 10 output:

      out(r, t) = Σ_q max(Σ_j G(r, j) · W1(j, q) + b1(q), 0) · W2(q, t) + b2(t).

  On the extended reals a change of float format is the identity and a block product into a zero accumulator is the
  plain sum over the contracted coordinate, so the body's arithmetic at row p of the block and task q is that formula
  with row p of the block for row r of G. Row p of block t is row 2048·t + p of G; the other four windows hold their
  whole arrays at every point; and row r of the output lies in the block of point r / 2048, so the four write-backs
  tile the array. Hence the output array ends holding the head of whatever the region found in its five input arrays,
  index by index. The two sides are the same sums in the same order, each contraction re-indexed by its one
  coordinate, so the equality holds at infinite entries too.
-/
import proofs.«424086_j12352325943915_1_alg».proof.Proof.Gen.KernelIdeal.Frame
import proofs.«424086_j12352325943915_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val3

open Cert.KernelIdeal Cert.KernelIdeal.Gen Idealize.ShloMosaic Idealize.ShloMosaic.ValueIdx Idealize.ShloMosaic.TcCoe Idealize.SL.Sem
open Idealize.ShloMosaic.Pipeline (Dat)

/-! ## The two block products' operand indices, axis by axis -/

theorem lhs1_0 (j : S2048x256.Idx) (k : dot_S2048x128_S128x256_S2048x256_1_0_0_1_n_n.contr.Idx) :
    (dot_S2048x128_S128x256_S2048x256_1_0_0_1_n_n.lhsIdx j k 0 : ℕ) = j 0 := by
  simp [DotDims.lhsIdx, dot_S2048x128_S128x256_S2048x256_1_0_0_1_n_n]; rfl
theorem lhs1_1 (j : S2048x256.Idx) (k : dot_S2048x128_S128x256_S2048x256_1_0_0_1_n_n.contr.Idx) :
    (dot_S2048x128_S128x256_S2048x256_1_0_0_1_n_n.lhsIdx j k 1 : ℕ) = k ⟨0, by decide⟩ := by
  simp [DotDims.lhsIdx, dot_S2048x128_S128x256_S2048x256_1_0_0_1_n_n]; rfl
theorem rhs1_0 (j : S2048x256.Idx) (k : dot_S2048x128_S128x256_S2048x256_1_0_0_1_n_n.contr.Idx) :
    (dot_S2048x128_S128x256_S2048x256_1_0_0_1_n_n.rhsIdx j k 0 : ℕ) = k ⟨0, by decide⟩ := by
  simp [DotDims.rhsIdx, dot_S2048x128_S128x256_S2048x256_1_0_0_1_n_n]; rfl
theorem rhs1_1 (j : S2048x256.Idx) (k : dot_S2048x128_S128x256_S2048x256_1_0_0_1_n_n.contr.Idx) :
    (dot_S2048x128_S128x256_S2048x256_1_0_0_1_n_n.rhsIdx j k 1 : ℕ) = j 1 := by
  simp [DotDims.rhsIdx, dot_S2048x128_S128x256_S2048x256_1_0_0_1_n_n]; rfl

theorem lhs2_0 (j : S2048x10.Idx) (k : dot_S2048x256_S256x10_S2048x10_1_0_0_1_n_n.contr.Idx) :
    (dot_S2048x256_S256x10_S2048x10_1_0_0_1_n_n.lhsIdx j k 0 : ℕ) = j 0 := by
  simp [DotDims.lhsIdx, dot_S2048x256_S256x10_S2048x10_1_0_0_1_n_n]; rfl
theorem lhs2_1 (j : S2048x10.Idx) (k : dot_S2048x256_S256x10_S2048x10_1_0_0_1_n_n.contr.Idx) :
    (dot_S2048x256_S256x10_S2048x10_1_0_0_1_n_n.lhsIdx j k 1 : ℕ) = k ⟨0, by decide⟩ := by
  simp [DotDims.lhsIdx, dot_S2048x256_S256x10_S2048x10_1_0_0_1_n_n]; rfl
theorem rhs2_0 (j : S2048x10.Idx) (k : dot_S2048x256_S256x10_S2048x10_1_0_0_1_n_n.contr.Idx) :
    (dot_S2048x256_S256x10_S2048x10_1_0_0_1_n_n.rhsIdx j k 0 : ℕ) = k ⟨0, by decide⟩ := by
  simp [DotDims.rhsIdx, dot_S2048x256_S256x10_S2048x10_1_0_0_1_n_n]; rfl
theorem rhs2_1 (j : S2048x10.Idx) (k : dot_S2048x256_S256x10_S2048x10_1_0_0_1_n_n.contr.Idx) :
    (dot_S2048x256_S256x10_S2048x10_1_0_0_1_n_n.rhsIdx j k 1 : ℕ) = j 1 := by
  simp [DotDims.rhsIdx, dot_S2048x256_S256x10_S2048x10_1_0_0_1_n_n]; rfl

/-! ## A block product into a zero accumulator, at an index: the sum over the contracted coordinate -/

theorem matmul1_apply (x : FVec Ideal S2048x128 .bf16) (w : FVec Ideal S128x256 .bf16) (p : Fin 2048) (u : Fin 256) :
    matmul dot_S2048x128_S128x256_S2048x256_1_0_0_1_n_n none x w (constant S2048x256 .f32 0x00000000#32) (ix2 p u)
      = ∑ j : Fin 128, x (ix2 p j) * w (ix2 j u) := by
  simp only [matmul]
  rw [Ideal.matmul_constant_zero_apply]
  rw [← Equiv.sum_comp (contrEquiv1 dot_S2048x128_S128x256_S2048x256_1_0_0_1_n_n 128 rfl rfl).symm]
  refine Finset.sum_congr rfl fun j _ => ?_
  have hl : dot_S2048x128_S128x256_S2048x256_1_0_0_1_n_n.lhsIdx (ix2 p u) ((contrEquiv1 dot_S2048x128_S128x256_S2048x256_1_0_0_1_n_n 128 rfl rfl).symm j) = ix2 p j := by
    funext a; apply Fin.ext
    match a with
    | ⟨0, _⟩ => exact lhs1_0 _ _
    | ⟨1, _⟩ => exact (lhs1_1 _ _).trans (contrEquiv1_symm_val dot_S2048x128_S128x256_S2048x256_1_0_0_1_n_n 128 rfl rfl j)
  have hr : dot_S2048x128_S128x256_S2048x256_1_0_0_1_n_n.rhsIdx (ix2 p u) ((contrEquiv1 dot_S2048x128_S128x256_S2048x256_1_0_0_1_n_n 128 rfl rfl).symm j) = ix2 j u := by
    funext a; apply Fin.ext
    match a with
    | ⟨0, _⟩ => exact (rhs1_0 _ _).trans (contrEquiv1_symm_val dot_S2048x128_S128x256_S2048x256_1_0_0_1_n_n 128 rfl rfl j)
    | ⟨1, _⟩ => exact rhs1_1 _ _
  rw [hl, hr]

theorem matmul2_apply (x : FVec Ideal S2048x256 .bf16) (w : FVec Ideal S256x10 .bf16) (p : Fin 2048) (u : Fin 10) :
    matmul dot_S2048x256_S256x10_S2048x10_1_0_0_1_n_n none x w (constant S2048x10 .f32 0x00000000#32) (ix2 p u)
      = ∑ j : Fin 256, x (ix2 p j) * w (ix2 j u) := by
  simp only [matmul]
  rw [Ideal.matmul_constant_zero_apply]
  rw [← Equiv.sum_comp (contrEquiv1 dot_S2048x256_S256x10_S2048x10_1_0_0_1_n_n 256 rfl rfl).symm]
  refine Finset.sum_congr rfl fun j _ => ?_
  have hl : dot_S2048x256_S256x10_S2048x10_1_0_0_1_n_n.lhsIdx (ix2 p u) ((contrEquiv1 dot_S2048x256_S256x10_S2048x10_1_0_0_1_n_n 256 rfl rfl).symm j) = ix2 p j := by
    funext a; apply Fin.ext
    match a with
    | ⟨0, _⟩ => exact lhs2_0 _ _
    | ⟨1, _⟩ => exact (lhs2_1 _ _).trans (contrEquiv1_symm_val dot_S2048x256_S256x10_S2048x10_1_0_0_1_n_n 256 rfl rfl j)
  have hr : dot_S2048x256_S256x10_S2048x10_1_0_0_1_n_n.rhsIdx (ix2 p u) ((contrEquiv1 dot_S2048x256_S256x10_S2048x10_1_0_0_1_n_n 256 rfl rfl).symm j) = ix2 j u := by
    funext a; apply Fin.ext
    match a with
    | ⟨0, _⟩ => exact (rhs2_0 _ _).trans (contrEquiv1_symm_val dot_S2048x256_S256x10_S2048x10_1_0_0_1_n_n 256 rfl rfl j)
    | ⟨1, _⟩ => exact rhs2_1 _ _
  rw [hl, hr]

/-! ## The body's arithmetic at an index -/

/-- The region's body at row p of its block and task q: relu of (row p of the block times the first weight, plus the
    first bias), times column q of the second weight, plus the second bias. Format changes are the identity on
    the extended reals, and each block product accumulates into zero. -/
theorem pay_apply (x0 : Vec Ideal S2048x128 .f32) (w1 : Vec Ideal S128x256 .f32) (b1 : Vec Ideal S1x256 .f32)
    (w2 : Vec Ideal S256x10 .f32) (b2 : Vec Ideal S1x10 .f32) (p : Fin 2048) (q : Fin 10) :
    k3_pay1 x0 w1 b1 w2 b2 (ix2 p q)
      = (∑ u : Fin 256, max ((∑ j : Fin 128, x0 (ix2 p j) * w1 (ix2 j u)) + b1 (ix2 0 u)) 0 * w2 (ix2 u q)) + b2 (ix2 0 q) := by
  unfold k3_pay1
  simp only [shapeCast_self]
  rw [addf_apply, matmul2_apply, broadcastTo_1b_ab_apply]
  refine congrArg (· + b2 (ix2 0 q)) (Finset.sum_congr rfl fun u _ => ?_)
  rw [truncf_apply, truncf_apply, maximumf_apply, addf_apply, matmul1_apply, broadcastTo_1b_ab_apply, broadcast_apply]
  simp only [truncf_apply]
  rw [show (FloatOps.ofBits FTy.f32 0x00000000#32 : Ideal .f32) = 0 from Ideal.ofBits_zero_f32]

/-! ## From the body's blocks to the output array -/

section Array

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the four grid points: the feature window and the output window sit at row block t, the
    two weights and the two biases at their one block. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the feature block at point t is row 2048·t + p of the segment means. -/
theorem rows_apply (c : Dev nD) (t : Fin cfg3.N) (p : Fin 2048) (j : Fin 128) (r : Fin 8192)
    (hr : r.val = 2048 * t.val + p.val) :
    (iblk3 V c 0 t : Vec Ideal S2048x128 .f32) (ix2 p j) = (V c main_v92 : S8192x128.Idx → Elt Ideal .f32) (ix2 r j) := by
  obtain ⟨e0, e1, -⟩ := index_maps t
  unfold iblk3
  rw [View.read_apply]
  show V c main_v92 _ = V c main_v92 _
  congr 1
  funext a
  apply Fin.ext
  match a with
  | ⟨0, _⟩ => show win3_0.index t (0 : Fin 2) * 2048 + 1 * p.val = r.val; rw [e0, hr]; omega
  | ⟨1, _⟩ => show win3_0.index t (1 : Fin 2) * 128 + 1 * j.val = j.val; rw [e1]; omega

/-- The first weight's window holds the whole array at every point. -/
theorem weight1_whole (c : Dev nD) (t : Fin cfg3.N) :
    (iblk3 V c 1 t : Vec Ideal S128x256 .f32) = (V c main_arg6 : S128x256.Idx → Elt Ideal .f32) := by
  obtain ⟨-, -, e0, e1, -⟩ := index_maps t
  funext y
  unfold iblk3
  rw [View.read_apply]
  show V c main_arg6 _ = V c main_arg6 _
  congr 1
  funext a
  apply Fin.ext
  match a with
  | ⟨0, _⟩ => show win3_1.index t (0 : Fin 2) * 128 + 1 * (y 0).val = (y 0).val; rw [e0]; omega
  | ⟨1, _⟩ => show win3_1.index t (1 : Fin 2) * 256 + 1 * (y 1).val = (y 1).val; rw [e1]; omega

/-- The first bias's window likewise. -/
theorem bias1_whole (c : Dev nD) (t : Fin cfg3.N) :
    (iblk3 V c 2 t : Vec Ideal S1x256 .f32) = (V c main_v93 : S1x256.Idx → Elt Ideal .f32) := by
  obtain ⟨-, -, -, -, e0, e1, -⟩ := index_maps t
  funext y
  unfold iblk3
  rw [View.read_apply]
  show V c main_v93 _ = V c main_v93 _
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 256 + 1 * (y 1).val = (y 1).val; rw [e1]; omega

/-- The second weight's window likewise. -/
theorem weight2_whole (c : Dev nD) (t : Fin cfg3.N) :
    (iblk3 V c 3 t : Vec Ideal S256x10 .f32) = (V c main_arg8 : S256x10.Idx → Elt Ideal .f32) := by
  obtain ⟨-, -, -, -, -, -, e0, e1, -⟩ := index_maps t
  funext y
  unfold iblk3
  rw [View.read_apply]
  show V c main_arg8 _ = V c main_arg8 _
  congr 1
  funext a
  apply Fin.ext
  match a with
  | ⟨0, _⟩ => show win3_3.index t (0 : Fin 2) * 256 + 1 * (y 0).val = (y 0).val; rw [e0]; omega
  | ⟨1, _⟩ => show win3_3.index t (1 : Fin 2) * 10 + 1 * (y 1).val = (y 1).val; rw [e1]; omega

/-- The second bias's window likewise. -/
theorem bias2_whole (c : Dev nD) (t : Fin cfg3.N) :
    (iblk3 V c 4 t : Vec Ideal S1x10 .f32) = (V c main_v94 : S1x10.Idx → Elt Ideal .f32) := by
  obtain ⟨-, -, -, -, -, -, -, -, e0, e1, -⟩ := index_maps t
  funext y
  unfold iblk3
  rw [View.read_apply]
  show V c main_v94 _ = V c main_v94 _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 10 + 1 * (y 1).val = (y 1).val; rw [e1]; omega

/-- The body's result at row p of a block whose rows are rows of G: the head at that row of G. -/
theorem pay_eq_headAt (x0 : Vec Ideal S2048x128 .f32) (w1 : Vec Ideal S128x256 .f32) (b1 : Vec Ideal S1x256 .f32)
    (w2 : Vec Ideal S256x10 .f32) (b2 : Vec Ideal S1x10 .f32) (G : S8192x128.Idx → EReal) (p : Fin 2048) (q : Fin 10)
    (r : Fin 8192) (hx : ∀ j : Fin 128, x0 (ix2 p j) = G (ix2 r j)) :
    k3_pay1 x0 w1 b1 w2 b2 (ix2 p q)
      = Cert.Spec.headAt G w1 (fun u => b1 (ix2 0 u)) w2 (fun t' => b2 (ix2 0 t')) r q := by
  rw [pay_apply]
  unfold Cert.Spec.headAt
  simp only [hx]

/-- What the output array ends holding: the head of the segment means, the two weights and the two bias rows as the
    region finds them, index by index. -/
abbrev headOf (c : Dev nD) : S8192x10.Idx → Elt Ideal .f32 := fun i =>
  Cert.Spec.headAt (V c main_v92) (V c main_arg6) (fun u => V c main_v93 (ix2 0 u)) (V c main_arg8)
    (fun t' => V c main_v94 (ix2 0 t')) (i 0) (i 1)

/-- Point t writes back rows 2048·t … 2048·t + 2047 of the head. -/
theorem flushed_eq (c : Dev nD) (t : Fin cfg3.N) :
    (dat3 V c).flushed 5 t = ((cfg3.win 5).blk t).view.read (Elt Ideal) (headOf V c) := by
  show (cfg3.win 5).cut (grid3.coords t) ((dat3 V c).after 5 t) = _
  rw [after3_5]
  unfold out3_5
  rw [View.canon_unit_zero zero_offsets]
  simp only [View.ld_unit_zero (S := S2048x128) zero_offsets, View.ld_unit_zero (S := S128x256) zero_offsets,
    View.ld_unit_zero (S := S1x256) zero_offsets, View.ld_unit_zero (S := S256x10) zero_offsets,
    View.ld_unit_zero (S := S1x10) zero_offsets]
  rw [weight1_whole, bias1_whole, weight2_whole, bias2_whole]
  obtain ⟨-, -, -, -, -, -, -, -, -, -, e0, e1⟩ := index_maps t
  funext y
  obtain ⟨p, q, rfl⟩ : ∃ (p : Fin 2048) (q : Fin 10), y = ix2 p q := ⟨y 0, y 1, eq_ix2 y⟩
  have ht : t.val < 4 := lt_of_lt_of_eq t.isLt N_3
  show k3_pay1 (iblk3 V c 0 t) (V c main_arg6) (V c main_v93) (V c main_arg8) (V c main_v94) (ix2 p q)
    = headOf V c (((cfg3.win 5).blk t).view.emb (ix2 p q))
  refine (pay_eq_headAt (iblk3 V c 0 t) (V c main_arg6) (V c main_v93) (V c main_arg8) (V c main_v94) (V c main_v92) p q
    ⟨2048 * t.val + p.val, by have := p.isLt; omega⟩ (fun j => rows_apply V c t p j _ rfl)).trans ?_
  show Cert.Spec.headAt _ _ _ _ _ _ _ = Cert.Spec.headAt _ _ _ _ _ _ _
  congr 1
  · apply Fin.ext
    show 2048 * t.val + p.val = win3_5.index t (0 : Fin 2) * 2048 + 1 * p.val
    rw [e0]; omega
  · apply Fin.ext
    show q.val = win3_5.index t (1 : Fin 2) * 10 + 1 * q.val
    rw [e1]; omega

/-- An index of the output array is in point t's block iff each coordinate is in the block's range on its axis. -/
theorem mem_block (t : Fin cfg3.N) (i : S8192x10.Idx) :
    i ∈ ((cfg3.win 5).blk t).view.set ↔ ∀ a : Fin 2, win3_5.index t a * S2048x10.size a ≤ (i a).val
      ∧ (i a).val < win3_5.index t a * S2048x10.size a + S2048x10.size a := by
  show i ∈ ((View.whole main_v95).slice (win3_5.rect t)).set ↔ _
  rw [View.set_slice_whole, Rect.mem_set_unit]
  exact Iff.rfl

/-- Row r of the output array lies in the block of point r / 2048: the four blocks tile the 8192 rows. -/
theorem covered (i : S8192x10.Idx) :
    ∃ t : Fin cfg3.N, (cfg3.win 5).flush t = true ∧ i ∈ ((cfg3.win 5).blk t).view.set := by
  have h0 : (i 0).val < 8192 := (i 0).isLt
  have h1 : (i 1).val < 10 := (i 1).isLt
  have hlt : (i 0).val / 2048 < cfg3.N := by rw [show cfg3.N = 4 from N_3]; omega
  obtain ⟨-, -, -, -, -, -, -, -, -, -, e0, e1⟩ := index_maps ⟨(i 0).val / 2048, hlt⟩
  have e0' : win3_5.index ⟨(i 0).val / 2048, hlt⟩ (0 : Fin 2) = (i 0).val / 2048 := e0
  refine ⟨⟨(i 0).val / 2048, hlt⟩, flush3_5 _, ?_⟩
  rw [mem_block]
  intro a
  match a with
  | ⟨0, _⟩ =>
    show win3_5.index ⟨(i 0).val / 2048, hlt⟩ (0 : Fin 2) * 2048 ≤ (i 0).val
      ∧ (i 0).val < win3_5.index ⟨(i 0).val / 2048, hlt⟩ (0 : Fin 2) * 2048 + 2048
    rw [e0']; omega
  | ⟨1, _⟩ =>
    show win3_5.index ⟨(i 0).val / 2048, hlt⟩ (1 : Fin 2) * 10 ≤ (i 1).val
      ∧ (i 1).val < win3_5.index ⟨(i 0).val / 2048, hlt⟩ (1 : Fin 2) * 10 + 10
    rw [e1]; omega

/-- The output array after the region: the head, whatever the region found in its buffers. -/
theorem arr_eq (c : Dev nD) : (dat3 V c).arrAt 5 cfg3.N = headOf V c :=
  (dat3 V c).arrAt_eq_of_cover 5 (headOf V c) (fun t _ => flushed_eq V c t) covered

/-- The same at an index: segment r, task t. -/
theorem arrAt_out (c : Dev nD) (r : Fin 8192) (t : Fin 10) :
    ((dat3 (F := Ideal) V c).arrAt 5 cfg3.N) (ix2 r t)
      = Cert.Spec.headAt (V c main_v92) (V c main_arg6) (fun q => V c main_v93 (ix2 0 q)) (V c main_arg8)
          (fun t' => V c main_v94 (ix2 0 t')) r t := by
  rw [arr_eq]

end Array

end Cert.KernelIdeal.Val3

end
-- ==== Proof.KTerms.lean ====
/-
  The host-side values of the kernel program, as functions of the arrays they are computed from: the segment mean, the
  per-segment feature, the slices of the stacked weights, and the gather of the per-segment feature back to the rows —
  which this program guards: a row whose (moved-up) segment id is not inside the table reads a fixed fill value.
-/
import proofs.«424086_j12352325943915_1_alg».proof.Proof.Gen.KernelIdeal

noncomputable section

namespace Cert.KernelIdeal.Val

open Cert.KernelIdeal Cert.KernelIdeal.Gen Idealize.ShloMosaic

variable {F : FTy → Type} [FloatOps F]

/-- The segment mean of the rows of h: the exact sum of the rows landing on each segment, over that segment's row
    count raised to at least one. -/
def segMean (h : FVec F S262144x128 .f32) (idx : IVec S262144 32) : FVec F S8192x128 .f32 :=
  Host.divf
    (Host.scatterAdd scatter_S8192x128_S262144x1_S262144x128_1_0_0_1
      (broadcastInDim S8192x128 ![] bcast_S_S8192x128 (constant S_ .f32 0x00000000#32))
      (broadcastInDim S262144x1 ![0] bcast_S262144_S262144x1_0 idx) h)
    (broadcastInDim S8192x128 ![0, 1] bcast_S8192x1_S8192x128_0_1
      (broadcastInDim S8192x1 ![0] bcast_S8192_S8192x1_0
        (maximumf
          (Host.scatterAdd scatter_S8192_S262144x1_S262144_n_0_0_1
            (broadcastInDim S8192 ![] bcast_S_S8192 (constant S_ .f32 0x00000000#32))
            (broadcastInDim S262144x1 ![0] bcast_S262144_S262144x1_0 idx)
            (broadcastInDim S262144 ![] bcast_S_S262144 (constant S_ .f32 0x3F800000#32)))
          (broadcastInDim S8192 ![] bcast_S_S8192 (constant S_ .f32 0x3F800000#32)))))

/-- The per-segment feature: (segment mean of h) · Wm + bv, bv along every row. -/
def segFeat (h : FVec F S262144x128 .f32) (idx : IVec S262144 32) (Wm : FVec F S128x128 .f32) (bv : FVec F S128 .f32) :
    FVec F S8192x128 .f32 :=
  addf (Host.dotGeneral dot_S8192x128_S128x128_S8192x128_1_0_0_1_n_n none (segMean h idx) Wm)
    (broadcastInDim S8192x128 ![0, 1] bcast_S1x128_S8192x128_0_1 (broadcastInDim S1x128 ![1] bcast_S128_S1x128_1 bv))

/-- Matrix i of a stack of three 128×128 matrices. -/
def mat0 (a : FVec F S3x128x128 .f32) : FVec F S128x128 .f32 :=
  shapeCast S128x128 (extractStridedSlice S1x128x128 ![0, 0, 0] a slices_S3x128x128_S1x128x128_0_0_0) shapeCasts_S1x128x128_S128x128
def mat1 (a : FVec F S3x128x128 .f32) : FVec F S128x128 .f32 :=
  shapeCast S128x128 (extractStridedSlice S1x128x128 ![1, 0, 0] a slices_S3x128x128_S1x128x128_1_0_0) shapeCasts_S1x128x128_S128x128
def mat2 (a : FVec F S3x128x128 .f32) : FVec F S128x128 .f32 :=
  shapeCast S128x128 (extractStridedSlice S1x128x128 ![2, 0, 0] a slices_S3x128x128_S1x128x128_2_0_0) shapeCasts_S1x128x128_S128x128
/-- Row i of a stack of three 128-vectors. -/
def vec0 (a : FVec F S3x128 .f32) : FVec F S128 .f32 :=
  shapeCast S128 (extractStridedSlice S1x128 ![0, 0] a slices_S3x128_S1x128_0_0) shapeCasts_S1x128_S128
def vec1 (a : FVec F S3x128 .f32) : FVec F S128 .f32 :=
  shapeCast S128 (extractStridedSlice S1x128 ![1, 0] a slices_S3x128_S1x128_1_0) shapeCasts_S1x128_S128
def vec2 (a : FVec F S3x128 .f32) : FVec F S128 .f32 :=
  shapeCast S128 (extractStridedSlice S1x128 ![2, 0] a slices_S3x128_S1x128_2_0) shapeCasts_S1x128_S128

/-- A row's segment id with a negative id moved up by the number of segments. -/
def normIdx (idx : IVec S262144 32) : IVec S262144 32 :=
  select (cmpi .slt idx (broadcastInDim S262144 ![] bcast_S_S262144 (constantI S_ 32 0#32)))
    (addi idx (broadcastInDim S262144 ![] bcast_S_S262144 (constantI S_ 32 8192#32))) idx

/-- Row n of the result is the row of x named by row n's (moved-up) segment id, clamped into the table. -/
def gath (x : FVec F S8192x128 .f32) (idx : IVec S262144 32) : FVec F S262144x128 .f32 :=
  Host.gather gather_S8192x128_S262144x1_S262144x128_1_0_n_n_0_1_1128 x
    (broadcastInDim S262144x1 ![0] bcast_S262144_S262144x1_0 (normIdx idx))

/-- One bit per row: the moved-up segment id lies inside the table, 0 ≤ id ≤ 8191. -/
def takeMask (idx : IVec S262144 32) : IVec S262144 1 :=
  Host.reduce IntOp.andi
    (andi
      (cmpi .sge (broadcastInDim S262144x1 ![0] bcast_S262144_S262144x1_0 (normIdx idx))
        (broadcastInDim S262144x1 ![] bcast_S_S262144x1 (constantI S_ 32 0#32)))
      (cmpi .sle (broadcastInDim S262144x1 ![0] bcast_S262144_S262144x1_0 (normIdx idx))
        (broadcastInDim S262144x1 ![0, 1] bcast_S1x1_S262144x1_0_1 (broadcastInDim S1x1 ![1] bcast_S1_S1x1_1 (constantI S1 32 8191#32)))))
    (constantI S_ 1 1#1) reducesTo_S262144x1_S262144_d1 h_S_

/-- The guarded gather: the gathered row where the id is inside the table, a fixed fill value elsewhere. -/
def take (x : FVec F S8192x128 .f32) (idx : IVec S262144 32) : FVec F S262144x128 .f32 :=
  select (broadcastInDim S262144x128 ![0] bcast_S262144_S262144x128_0 (takeMask idx)) (gath x idx)
    (broadcastInDim S262144x128 ![] bcast_S_S262144x128 (constant S_ .f32 0x7FC00000#32))

/-- A 128-vector as a 1×128 row, a 256-vector as a 1×256 row, a 10-vector as a 1×10 row. -/
def row128 (v : FVec F S128 .f32) : FVec F S1x128 .f32 := shapeCast S1x128 v shapeCasts_S128_S1x128
def row256 (v : FVec F S256 .f32) : FVec F S1x256 .f32 := shapeCast S1x256 v shapeCasts_S256_S1x256
def row10 (v : FVec F S10 .f32) : FVec F S1x10 .f32 := shapeCast S1x10 v shapeCasts_S10_S1x10

end Cert.KernelIdeal.Val

end
-- ==== Proof.KHost0.lean ====
/-
  The host operations before region 0, read back at the buffers the region takes: from any contents V, the three
  stretches (the segment mean and its affine image; the guarded gather back to the rows; the slices of the stacked
  layer weights) leave the feature array untouched, the guarded gather of the per-segment feature in the second
  operand's buffer, matrix 0 and row 0 of the stacked layer weights in the third and fourth, and every argument as it
  was.
-/
import proofs.«424086_j12352325943915_1_alg».proof.Proof.Gen.KernelIdeal.Launch
import proofs.«424086_j12352325943915_1_alg».proof.Proof.KTerms
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The buffer contents at region 0's entry, from the contents V at the previous boundary. -/
abbrev entry0 (V : Valuation τ sig (Elt F)) : Valuation τ sig (Elt F) := after hostOps0_2 (after hostOps0_1 (after hostOps0 V))

/-- No operation of the named literal list writes the buffer: each operation writes one buffer, a different one. -/
local macro "unwritten" l:ident : tactic =>
  `(tactic| (refine List.forall_iff_forall_mem.mp ?_
             simp only [$l:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- A buffer none of the three stretches writes holds at the region's entry what it held before. -/
theorem entry0_keep (V : Valuation τ sig (Elt F)) (b : DevRef τ sig)
    (hA : ∀ op ∈ (hostOps0 : List (HloOp τ sig (Elt F))), b ∉ op.writes)
    (hB : ∀ op ∈ (hostOps0_1 : List (HloOp τ sig (Elt F))), b ∉ op.writes)
    (hC : ∀ op ∈ (hostOps0_2 : List (HloOp τ sig (Elt F))), b ∉ op.writes) : entry0 V b = V b := by
  show after hostOps0_2 (after hostOps0_1 (after hostOps0 V)) b = V b
  rw [after_of_forall_not_mem _ _ hC, after_of_forall_not_mem _ _ hB, after_of_forall_not_mem _ _ hA]

/-! ### The three stretches, one at a time -/

set_option maxHeartbeats 8000000 in
/-- The first stretch leaves the per-segment feature: the segment mean of the feature array through matrix 0 and
    row 0 of the segment weights. -/
theorem segFeat0 (V : Valuation τ sig (Elt F)) :
    after hostOps0 V (Proc.devRef .tc main_v19)
      = Val.segFeat (V (Proc.devRef .tc main_arg0)) (V (Proc.devRef .tc main_arg1)) (Val.mat0 (V (Proc.devRef .tc main_arg4))) (Val.vec0 (V (Proc.devRef .tc main_arg5))) := by
  dsimp only [hostOps0]
  after_results
  rfl

attribute [local irreducible] Host.gather Host.reduce in
set_option maxHeartbeats 4000000 in
/-- The second stretch leaves the guarded gather of the per-segment feature it finds, by the segment ids. -/
theorem take0 (V : Valuation τ sig (Elt F)) :
    after hostOps0_1 V (Proc.devRef .tc main_v20)
      = Val.take (V (Proc.devRef .tc main_v19)) (V (Proc.devRef .tc main_arg1)) := by
  dsimp only [hostOps0_1]
  simp only [after_cons, after_nil]
  rfl

/-- The third stretch leaves matrix 0 of the layer weights, and row 0 of the layer biases as a 1×128 row. -/
theorem sliceW0 (V : Valuation τ sig (Elt F)) :
    after hostOps0_2 V (Proc.devRef .tc main_v22) = Val.mat0 (V (Proc.devRef .tc main_arg2)) := by
  dsimp only [hostOps0_2]
  after_results
  rfl
theorem sliceb0 (V : Valuation τ sig (Elt F)) :
    after hostOps0_2 V (Proc.devRef .tc main_v25) = Val.row128 (Val.vec0 (V (Proc.devRef .tc main_arg3))) := by
  dsimp only [hostOps0_2]
  after_results
  rfl

/-! ### The contents at the region's entry -/

theorem entry0_h (V : Valuation τ sig (Elt F)) : entry0 V (Proc.devRef .tc main_arg0) = V (Proc.devRef .tc main_arg0) :=
  entry0_keep V (Proc.devRef .tc main_arg0) (by unwritten hostOps0) (by unwritten hostOps0_1) (by unwritten hostOps0_2)
theorem entry0_g (V : Valuation τ sig (Elt F)) :
    entry0 V (Proc.devRef .tc main_v20)
      = Val.take (Val.segFeat (V (Proc.devRef .tc main_arg0)) (V (Proc.devRef .tc main_arg1)) (Val.mat0 (V (Proc.devRef .tc main_arg4))) (Val.vec0 (V (Proc.devRef .tc main_arg5)))) (V (Proc.devRef .tc main_arg1)) := by
  show after hostOps0_2 (after hostOps0_1 (after hostOps0 V)) (Proc.devRef .tc main_v20) = _
  rw [after_of_forall_not_mem (b := Proc.devRef .tc main_v20) _ _ (by unwritten hostOps0_2), take0, segFeat0,
    after_of_forall_not_mem (b := Proc.devRef .tc main_arg1) _ _ (by unwritten hostOps0)]
theorem entry0_W (V : Valuation τ sig (Elt F)) : entry0 V (Proc.devRef .tc main_v22) = Val.mat0 (V (Proc.devRef .tc main_arg2)) := by
  show after hostOps0_2 (after hostOps0_1 (after hostOps0 V)) (Proc.devRef .tc main_v22) = _
  rw [sliceW0, after_of_forall_not_mem (b := Proc.devRef .tc main_arg2) _ _ (by unwritten hostOps0_1),
    after_of_forall_not_mem (b := Proc.devRef .tc main_arg2) _ _ (by unwritten hostOps0)]
theorem entry0_b (V : Valuation τ sig (Elt F)) : entry0 V (Proc.devRef .tc main_v25) = Val.row128 (Val.vec0 (V (Proc.devRef .tc main_arg3))) := by
  show after hostOps0_2 (after hostOps0_1 (after hostOps0 V)) (Proc.devRef .tc main_v25) = _
  rw [sliceb0, after_of_forall_not_mem (b := Proc.devRef .tc main_arg3) _ _ (by unwritten hostOps0_1),
    after_of_forall_not_mem (b := Proc.devRef .tc main_arg3) _ _ (by unwritten hostOps0)]
theorem entry0_arg1 (V : Valuation τ sig (Elt F)) : entry0 V (Proc.devRef .tc main_arg1) = V (Proc.devRef .tc main_arg1) :=
  entry0_keep V (Proc.devRef .tc main_arg1) (by unwritten hostOps0) (by unwritten hostOps0_1) (by unwritten hostOps0_2)
theorem entry0_arg2 (V : Valuation τ sig (Elt F)) : entry0 V (Proc.devRef .tc main_arg2) = V (Proc.devRef .tc main_arg2) :=
  entry0_keep V (Proc.devRef .tc main_arg2) (by unwritten hostOps0) (by unwritten hostOps0_1) (by unwritten hostOps0_2)
theorem entry0_arg3 (V : Valuation τ sig (Elt F)) : entry0 V (Proc.devRef .tc main_arg3) = V (Proc.devRef .tc main_arg3) :=
  entry0_keep V (Proc.devRef .tc main_arg3) (by unwritten hostOps0) (by unwritten hostOps0_1) (by unwritten hostOps0_2)
theorem entry0_arg4 (V : Valuation τ sig (Elt F)) : entry0 V (Proc.devRef .tc main_arg4) = V (Proc.devRef .tc main_arg4) :=
  entry0_keep V (Proc.devRef .tc main_arg4) (by unwritten hostOps0) (by unwritten hostOps0_1) (by unwritten hostOps0_2)
theorem entry0_arg5 (V : Valuation τ sig (Elt F)) : entry0 V (Proc.devRef .tc main_arg5) = V (Proc.devRef .tc main_arg5) :=
  entry0_keep V (Proc.devRef .tc main_arg5) (by unwritten hostOps0) (by unwritten hostOps0_1) (by unwritten hostOps0_2)
theorem entry0_arg6 (V : Valuation τ sig (Elt F)) : entry0 V (Proc.devRef .tc main_arg6) = V (Proc.devRef .tc main_arg6) :=
  entry0_keep V (Proc.devRef .tc main_arg6) (by unwritten hostOps0) (by unwritten hostOps0_1) (by unwritten hostOps0_2)
theorem entry0_arg7 (V : Valuation τ sig (Elt F)) : entry0 V (Proc.devRef .tc main_arg7) = V (Proc.devRef .tc main_arg7) :=
  entry0_keep V (Proc.devRef .tc main_arg7) (by unwritten hostOps0) (by unwritten hostOps0_1) (by unwritten hostOps0_2)
theorem entry0_arg8 (V : Valuation τ sig (Elt F)) : entry0 V (Proc.devRef .tc main_arg8) = V (Proc.devRef .tc main_arg8) :=
  entry0_keep V (Proc.devRef .tc main_arg8) (by unwritten hostOps0) (by unwritten hostOps0_1) (by unwritten hostOps0_2)
theorem entry0_arg9 (V : Valuation τ sig (Elt F)) : entry0 V (Proc.devRef .tc main_arg9) = V (Proc.devRef .tc main_arg9) :=
  entry0_keep V (Proc.devRef .tc main_arg9) (by unwritten hostOps0) (by unwritten hostOps0_1) (by unwritten hostOps0_2)

end Cert.KernelIdeal.Host

end
-- ==== Proof.KHost1.lean ====
/-
  The host operations before region 1, read back at the buffers the region takes: from any contents V, the three
  stretches (the segment mean and its affine image; the guarded gather back to the rows; the slices of the stacked
  layer weights) leave the feature array untouched, the guarded gather of the per-segment feature in the second
  operand's buffer, matrix 1 and row 1 of the stacked layer weights in the third and fourth, and every argument as it
  was.
-/
import proofs.«424086_j12352325943915_1_alg».proof.Proof.Gen.KernelIdeal.Launch
import proofs.«424086_j12352325943915_1_alg».proof.Proof.KTerms
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The buffer contents at region 1's entry, from the contents V at the previous boundary. -/
abbrev entry1 (V : Valuation τ sig (Elt F)) : Valuation τ sig (Elt F) := after hostOps1_2 (after hostOps1_1 (after hostOps1 V))

/-- No operation of the named literal list writes the buffer: each operation writes one buffer, a different one. -/
local macro "unwritten" l:ident : tactic =>
  `(tactic| (refine List.forall_iff_forall_mem.mp ?_
             simp only [$l:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- A buffer none of the three stretches writes holds at the region's entry what it held before. -/
theorem entry1_keep (V : Valuation τ sig (Elt F)) (b : DevRef τ sig)
    (hA : ∀ op ∈ (hostOps1 : List (HloOp τ sig (Elt F))), b ∉ op.writes)
    (hB : ∀ op ∈ (hostOps1_1 : List (HloOp τ sig (Elt F))), b ∉ op.writes)
    (hC : ∀ op ∈ (hostOps1_2 : List (HloOp τ sig (Elt F))), b ∉ op.writes) : entry1 V b = V b := by
  show after hostOps1_2 (after hostOps1_1 (after hostOps1 V)) b = V b
  rw [after_of_forall_not_mem _ _ hC, after_of_forall_not_mem _ _ hB, after_of_forall_not_mem _ _ hA]

/-! ### The three stretches, one at a time -/

set_option maxHeartbeats 8000000 in
/-- The first stretch leaves the per-segment feature: the segment mean of the feature array through matrix 1 and
    row 1 of the segment weights. -/
theorem segFeat1 (V : Valuation τ sig (Elt F)) :
    after hostOps1 V (Proc.devRef .tc main_v46)
      = Val.segFeat (V (Proc.devRef .tc main_v26)) (V (Proc.devRef .tc main_arg1)) (Val.mat1 (V (Proc.devRef .tc main_arg4))) (Val.vec1 (V (Proc.devRef .tc main_arg5))) := by
  dsimp only [hostOps1]
  after_results
  rfl

attribute [local irreducible] Host.gather Host.reduce in
set_option maxHeartbeats 4000000 in
/-- The second stretch leaves the guarded gather of the per-segment feature it finds, by the segment ids. -/
theorem take1 (V : Valuation τ sig (Elt F)) :
    after hostOps1_1 V (Proc.devRef .tc main_v47)
      = Val.take (V (Proc.devRef .tc main_v46)) (V (Proc.devRef .tc main_arg1)) := by
  dsimp only [hostOps1_1]
  simp only [after_cons, after_nil]
  rfl

/-- The third stretch leaves matrix 1 of the layer weights, and row 1 of the layer biases as a 1×128 row. -/
theorem sliceW1 (V : Valuation τ sig (Elt F)) :
    after hostOps1_2 V (Proc.devRef .tc main_v49) = Val.mat1 (V (Proc.devRef .tc main_arg2)) := by
  dsimp only [hostOps1_2]
  after_results
  rfl
theorem sliceb1 (V : Valuation τ sig (Elt F)) :
    after hostOps1_2 V (Proc.devRef .tc main_v52) = Val.row128 (Val.vec1 (V (Proc.devRef .tc main_arg3))) := by
  dsimp only [hostOps1_2]
  after_results
  rfl

/-! ### The contents at the region's entry -/

theorem entry1_h (V : Valuation τ sig (Elt F)) : entry1 V (Proc.devRef .tc main_v26) = V (Proc.devRef .tc main_v26) :=
  entry1_keep V (Proc.devRef .tc main_v26) (by unwritten hostOps1) (by unwritten hostOps1_1) (by unwritten hostOps1_2)
theorem entry1_g (V : Valuation τ sig (Elt F)) :
    entry1 V (Proc.devRef .tc main_v47)
      = Val.take (Val.segFeat (V (Proc.devRef .tc main_v26)) (V (Proc.devRef .tc main_arg1)) (Val.mat1 (V (Proc.devRef .tc main_arg4))) (Val.vec1 (V (Proc.devRef .tc main_arg5)))) (V (Proc.devRef .tc main_arg1)) := by
  show after hostOps1_2 (after hostOps1_1 (after hostOps1 V)) (Proc.devRef .tc main_v47) = _
  rw [after_of_forall_not_mem (b := Proc.devRef .tc main_v47) _ _ (by unwritten hostOps1_2), take1, segFeat1,
    after_of_forall_not_mem (b := Proc.devRef .tc main_arg1) _ _ (by unwritten hostOps1)]
theorem entry1_W (V : Valuation τ sig (Elt F)) : entry1 V (Proc.devRef .tc main_v49) = Val.mat1 (V (Proc.devRef .tc main_arg2)) := by
  show after hostOps1_2 (after hostOps1_1 (after hostOps1 V)) (Proc.devRef .tc main_v49) = _
  rw [sliceW1, after_of_forall_not_mem (b := Proc.devRef .tc main_arg2) _ _ (by unwritten hostOps1_1),
    after_of_forall_not_mem (b := Proc.devRef .tc main_arg2) _ _ (by unwritten hostOps1)]
theorem entry1_b (V : Valuation τ sig (Elt F)) : entry1 V (Proc.devRef .tc main_v52) = Val.row128 (Val.vec1 (V (Proc.devRef .tc main_arg3))) := by
  show after hostOps1_2 (after hostOps1_1 (after hostOps1 V)) (Proc.devRef .tc main_v52) = _
  rw [sliceb1, after_of_forall_not_mem (b := Proc.devRef .tc main_arg3) _ _ (by unwritten hostOps1_1),
    after_of_forall_not_mem (b := Proc.devRef .tc main_arg3) _ _ (by unwritten hostOps1)]
theorem entry1_arg1 (V : Valuation τ sig (Elt F)) : entry1 V (Proc.devRef .tc main_arg1) = V (Proc.devRef .tc main_arg1) :=
  entry1_keep V (Proc.devRef .tc main_arg1) (by unwritten hostOps1) (by unwritten hostOps1_1) (by unwritten hostOps1_2)
theorem entry1_arg2 (V : Valuation τ sig (Elt F)) : entry1 V (Proc.devRef .tc main_arg2) = V (Proc.devRef .tc main_arg2) :=
  entry1_keep V (Proc.devRef .tc main_arg2) (by unwritten hostOps1) (by unwritten hostOps1_1) (by unwritten hostOps1_2)
theorem entry1_arg3 (V : Valuation τ sig (Elt F)) : entry1 V (Proc.devRef .tc main_arg3) = V (Proc.devRef .tc main_arg3) :=
  entry1_keep V (Proc.devRef .tc main_arg3) (by unwritten hostOps1) (by unwritten hostOps1_1) (by unwritten hostOps1_2)
theorem entry1_arg4 (V : Valuation τ sig (Elt F)) : entry1 V (Proc.devRef .tc main_arg4) = V (Proc.devRef .tc main_arg4) :=
  entry1_keep V (Proc.devRef .tc main_arg4) (by unwritten hostOps1) (by unwritten hostOps1_1) (by unwritten hostOps1_2)
theorem entry1_arg5 (V : Valuation τ sig (Elt F)) : entry1 V (Proc.devRef .tc main_arg5) = V (Proc.devRef .tc main_arg5) :=
  entry1_keep V (Proc.devRef .tc main_arg5) (by unwritten hostOps1) (by unwritten hostOps1_1) (by unwritten hostOps1_2)
theorem entry1_arg6 (V : Valuation τ sig (Elt F)) : entry1 V (Proc.devRef .tc main_arg6) = V (Proc.devRef .tc main_arg6) :=
  entry1_keep V (Proc.devRef .tc main_arg6) (by unwritten hostOps1) (by unwritten hostOps1_1) (by unwritten hostOps1_2)
theorem entry1_arg7 (V : Valuation τ sig (Elt F)) : entry1 V (Proc.devRef .tc main_arg7) = V (Proc.devRef .tc main_arg7) :=
  entry1_keep V (Proc.devRef .tc main_arg7) (by unwritten hostOps1) (by unwritten hostOps1_1) (by unwritten hostOps1_2)
theorem entry1_arg8 (V : Valuation τ sig (Elt F)) : entry1 V (Proc.devRef .tc main_arg8) = V (Proc.devRef .tc main_arg8) :=
  entry1_keep V (Proc.devRef .tc main_arg8) (by unwritten hostOps1) (by unwritten hostOps1_1) (by unwritten hostOps1_2)
theorem entry1_arg9 (V : Valuation τ sig (Elt F)) : entry1 V (Proc.devRef .tc main_arg9) = V (Proc.devRef .tc main_arg9) :=
  entry1_keep V (Proc.devRef .tc main_arg9) (by unwritten hostOps1) (by unwritten hostOps1_1) (by unwritten hostOps1_2)

end Cert.KernelIdeal.Host

end
-- ==== Proof.KHost2.lean ====
/-
  The host operations before region 2, read back at the buffers the region takes: from any contents V, the three
  stretches (the segment mean and its affine image; the guarded gather back to the rows; the slices of the stacked
  layer weights) leave the feature array untouched, the guarded gather of the per-segment feature in the second
  operand's buffer, matrix 2 and row 2 of the stacked layer weights in the third and fourth, and every argument as it
  was.
-/
import proofs.«424086_j12352325943915_1_alg».proof.Proof.Gen.KernelIdeal.Launch
import proofs.«424086_j12352325943915_1_alg».proof.Proof.KTerms
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The buffer contents at region 2's entry, from the contents V at the previous boundary. -/
abbrev entry2 (V : Valuation τ sig (Elt F)) : Valuation τ sig (Elt F) := after hostOps2_2 (after hostOps2_1 (after hostOps2 V))

/-- No operation of the named literal list writes the buffer: each operation writes one buffer, a different one. -/
local macro "unwritten" l:ident : tactic =>
  `(tactic| (refine List.forall_iff_forall_mem.mp ?_
             simp only [$l:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- A buffer none of the three stretches writes holds at the region's entry what it held before. -/
theorem entry2_keep (V : Valuation τ sig (Elt F)) (b : DevRef τ sig)
    (hA : ∀ op ∈ (hostOps2 : List (HloOp τ sig (Elt F))), b ∉ op.writes)
    (hB : ∀ op ∈ (hostOps2_1 : List (HloOp τ sig (Elt F))), b ∉ op.writes)
    (hC : ∀ op ∈ (hostOps2_2 : List (HloOp τ sig (Elt F))), b ∉ op.writes) : entry2 V b = V b := by
  show after hostOps2_2 (after hostOps2_1 (after hostOps2 V)) b = V b
  rw [after_of_forall_not_mem _ _ hC, after_of_forall_not_mem _ _ hB, after_of_forall_not_mem _ _ hA]

/-! ### The three stretches, one at a time -/

set_option maxHeartbeats 8000000 in
/-- The first stretch leaves the per-segment feature: the segment mean of the feature array through matrix 2 and
    row 2 of the segment weights. -/
theorem segFeat2 (V : Valuation τ sig (Elt F)) :
    after hostOps2 V (Proc.devRef .tc main_v73)
      = Val.segFeat (V (Proc.devRef .tc main_v53)) (V (Proc.devRef .tc main_arg1)) (Val.mat2 (V (Proc.devRef .tc main_arg4))) (Val.vec2 (V (Proc.devRef .tc main_arg5))) := by
  dsimp only [hostOps2]
  after_results
  rfl

attribute [local irreducible] Host.gather Host.reduce in
set_option maxHeartbeats 4000000 in
/-- The second stretch leaves the guarded gather of the per-segment feature it finds, by the segment ids. -/
theorem take2 (V : Valuation τ sig (Elt F)) :
    after hostOps2_1 V (Proc.devRef .tc main_v74)
      = Val.take (V (Proc.devRef .tc main_v73)) (V (Proc.devRef .tc main_arg1)) := by
  dsimp only [hostOps2_1]
  simp only [after_cons, after_nil]
  rfl

/-- The third stretch leaves matrix 2 of the layer weights, and row 2 of the layer biases as a 1×128 row. -/
theorem sliceW2 (V : Valuation τ sig (Elt F)) :
    after hostOps2_2 V (Proc.devRef .tc main_v76) = Val.mat2 (V (Proc.devRef .tc main_arg2)) := by
  dsimp only [hostOps2_2]
  after_results
  rfl
theorem sliceb2 (V : Valuation τ sig (Elt F)) :
    after hostOps2_2 V (Proc.devRef .tc main_v79) = Val.row128 (Val.vec2 (V (Proc.devRef .tc main_arg3))) := by
  dsimp only [hostOps2_2]
  after_results
  rfl

/-! ### The contents at the region's entry -/

theorem entry2_h (V : Valuation τ sig (Elt F)) : entry2 V (Proc.devRef .tc main_v53) = V (Proc.devRef .tc main_v53) :=
  entry2_keep V (Proc.devRef .tc main_v53) (by unwritten hostOps2) (by unwritten hostOps2_1) (by unwritten hostOps2_2)
theorem entry2_g (V : Valuation τ sig (Elt F)) :
    entry2 V (Proc.devRef .tc main_v74)
      = Val.take (Val.segFeat (V (Proc.devRef .tc main_v53)) (V (Proc.devRef .tc main_arg1)) (Val.mat2 (V (Proc.devRef .tc main_arg4))) (Val.vec2 (V (Proc.devRef .tc main_arg5)))) (V (Proc.devRef .tc main_arg1)) := by
  show after hostOps2_2 (after hostOps2_1 (after hostOps2 V)) (Proc.devRef .tc main_v74) = _
  rw [after_of_forall_not_mem (b := Proc.devRef .tc main_v74) _ _ (by unwritten hostOps2_2), take2, segFeat2,
    after_of_forall_not_mem (b := Proc.devRef .tc main_arg1) _ _ (by unwritten hostOps2)]
theorem entry2_W (V : Valuation τ sig (Elt F)) : entry2 V (Proc.devRef .tc main_v76) = Val.mat2 (V (Proc.devRef .tc main_arg2)) := by
  show after hostOps2_2 (after hostOps2_1 (after hostOps2 V)) (Proc.devRef .tc main_v76) = _
  rw [sliceW2, after_of_forall_not_mem (b := Proc.devRef .tc main_arg2) _ _ (by unwritten hostOps2_1),
    after_of_forall_not_mem (b := Proc.devRef .tc main_arg2) _ _ (by unwritten hostOps2)]
theorem entry2_b (V : Valuation τ sig (Elt F)) : entry2 V (Proc.devRef .tc main_v79) = Val.row128 (Val.vec2 (V (Proc.devRef .tc main_arg3))) := by
  show after hostOps2_2 (after hostOps2_1 (after hostOps2 V)) (Proc.devRef .tc main_v79) = _
  rw [sliceb2, after_of_forall_not_mem (b := Proc.devRef .tc main_arg3) _ _ (by unwritten hostOps2_1),
    after_of_forall_not_mem (b := Proc.devRef .tc main_arg3) _ _ (by unwritten hostOps2)]
theorem entry2_arg1 (V : Valuation τ sig (Elt F)) : entry2 V (Proc.devRef .tc main_arg1) = V (Proc.devRef .tc main_arg1) :=
  entry2_keep V (Proc.devRef .tc main_arg1) (by unwritten hostOps2) (by unwritten hostOps2_1) (by unwritten hostOps2_2)
theorem entry2_arg2 (V : Valuation τ sig (Elt F)) : entry2 V (Proc.devRef .tc main_arg2) = V (Proc.devRef .tc main_arg2) :=
  entry2_keep V (Proc.devRef .tc main_arg2) (by unwritten hostOps2) (by unwritten hostOps2_1) (by unwritten hostOps2_2)
theorem entry2_arg3 (V : Valuation τ sig (Elt F)) : entry2 V (Proc.devRef .tc main_arg3) = V (Proc.devRef .tc main_arg3) :=
  entry2_keep V (Proc.devRef .tc main_arg3) (by unwritten hostOps2) (by unwritten hostOps2_1) (by unwritten hostOps2_2)
theorem entry2_arg4 (V : Valuation τ sig (Elt F)) : entry2 V (Proc.devRef .tc main_arg4) = V (Proc.devRef .tc main_arg4) :=
  entry2_keep V (Proc.devRef .tc main_arg4) (by unwritten hostOps2) (by unwritten hostOps2_1) (by unwritten hostOps2_2)
theorem entry2_arg5 (V : Valuation τ sig (Elt F)) : entry2 V (Proc.devRef .tc main_arg5) = V (Proc.devRef .tc main_arg5) :=
  entry2_keep V (Proc.devRef .tc main_arg5) (by unwritten hostOps2) (by unwritten hostOps2_1) (by unwritten hostOps2_2)
theorem entry2_arg6 (V : Valuation τ sig (Elt F)) : entry2 V (Proc.devRef .tc main_arg6) = V (Proc.devRef .tc main_arg6) :=
  entry2_keep V (Proc.devRef .tc main_arg6) (by unwritten hostOps2) (by unwritten hostOps2_1) (by unwritten hostOps2_2)
theorem entry2_arg7 (V : Valuation τ sig (Elt F)) : entry2 V (Proc.devRef .tc main_arg7) = V (Proc.devRef .tc main_arg7) :=
  entry2_keep V (Proc.devRef .tc main_arg7) (by unwritten hostOps2) (by unwritten hostOps2_1) (by unwritten hostOps2_2)
theorem entry2_arg8 (V : Valuation τ sig (Elt F)) : entry2 V (Proc.devRef .tc main_arg8) = V (Proc.devRef .tc main_arg8) :=
  entry2_keep V (Proc.devRef .tc main_arg8) (by unwritten hostOps2) (by unwritten hostOps2_1) (by unwritten hostOps2_2)
theorem entry2_arg9 (V : Valuation τ sig (Elt F)) : entry2 V (Proc.devRef .tc main_arg9) = V (Proc.devRef .tc main_arg9) :=
  entry2_keep V (Proc.devRef .tc main_arg9) (by unwritten hostOps2) (by unwritten hostOps2_1) (by unwritten hostOps2_2)

end Cert.KernelIdeal.Host

end
-- ==== Proof.KHost3.lean ====
/-
  What the host operations before the head region compute, read back at the buffers the head takes: from any contents
  V of the buffers, that stretch leaves the segment mean of the last feature array in the head's first operand's
  buffer, the two head biases as one-row arrays in the buffers of its third and fifth operands, and the head's two
  weight arguments as they were.
-/
import proofs.«424086_j12352325943915_1_alg».proof.Proof.Gen.KernelIdeal.Launch
import proofs.«424086_j12352325943915_1_alg».proof.Proof.KTerms
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The buffer contents at the head region's entry. -/
abbrev entry3 (V : Valuation τ sig (Elt F)) : Valuation τ sig (Elt F) := after hostOps3 V

set_option maxHeartbeats 8000000 in
/-- The head's first operand: the rows of the last feature array summed per segment (from a zero array), over each
    segment's row count (ones summed per segment) raised to at least one. -/
theorem entry3_G (V : Valuation τ sig (Elt F)) :
    entry3 V (Proc.devRef .tc main_v92) = Val.segMean (V (Proc.devRef .tc main_v80)) (V (Proc.devRef .tc main_arg1)) := by
  dsimp only [entry3, hostOps3]
  after_results
  rfl

set_option maxHeartbeats 8000000 in
/-- The first head bias, a 256-vector, as a 1×256 row. -/
theorem entry3_b1 (V : Valuation τ sig (Elt F)) : entry3 V (Proc.devRef .tc main_v93) = Val.row256 (V (Proc.devRef .tc main_arg7)) := by
  dsimp only [entry3, hostOps3]
  after_results
  rfl

set_option maxHeartbeats 8000000 in
/-- The second head bias, a 10-vector, as a 1×10 row. -/
theorem entry3_b2 (V : Valuation τ sig (Elt F)) : entry3 V (Proc.devRef .tc main_v94) = Val.row10 (V (Proc.devRef .tc main_arg9)) := by
  dsimp only [entry3, hostOps3]
  after_results
  rfl

set_option maxHeartbeats 8000000 in
/-- No operation of the stretch writes the first head weight's buffer. -/
theorem entry3_arg6 (V : Valuation τ sig (Elt F)) : entry3 V (Proc.devRef .tc main_arg6) = V (Proc.devRef .tc main_arg6) := by
  dsimp only [entry3, hostOps3]
  after_results

set_option maxHeartbeats 8000000 in
/-- No operation of the stretch writes the second head weight's buffer. -/
theorem entry3_arg8 (V : Valuation τ sig (Elt F)) : entry3 V (Proc.devRef .tc main_arg8) = V (Proc.devRef .tc main_arg8) := by
  dsimp only [entry3, hostOps3]
  after_results

end Cert.KernelIdeal.Host

end
-- ==== Proof.KHost.lean ====
/-
  What the host operations between the kernel regions compute, read back at the buffers the next region takes: from
  any contents V of the buffers, the stretch before region i leaves the previous feature array untouched, the guarded
  gather of the per-segment feature in the second operand's buffer, matrix i and row i of the stacked layer weights in
  the third and fourth, and every argument as it was; the stretch before the head leaves the segment mean of the last
  feature array and the two head biases as rows.
-/
import proofs.«424086_j12352325943915_1_alg».proof.Proof.KHost0
import proofs.«424086_j12352325943915_1_alg».proof.Proof.KHost1
import proofs.«424086_j12352325943915_1_alg».proof.Proof.KHost2
import proofs.«424086_j12352325943915_1_alg».proof.Proof.KHost3
-- ==== Proof.KOut.lean ====
/-
  The kernel program's result as a function of its ten arguments, at the extended reals: three layers, each row by row
  (ELU of the row of h times the weight matrix, plus the bias, plus the guarded gather of the per-segment feature), then
  the head on the segment means.
-/
import proofs.«424086_j12352325943915_1_alg».proof.Proof.KTerms
import proofs.«424086_j12352325943915_1_alg».proof.Proof.Spec

noncomputable section

namespace Cert.KernelIdeal.Val

open Cert.KernelIdeal Cert.KernelIdeal.Gen Idealize.ShloMosaic Idealize.ShloMosaic.ValueIdx

/-- One layer of the kernel program, as a whole array. -/
def layerK (h : FVec Ideal S262144x128 .f32) (idx : IVec S262144 32) (Wfc : FVec Ideal S128x128 .f32) (bfc : FVec Ideal S128 .f32)
    (Wsum : FVec Ideal S128x128 .f32) (bsum : FVec Ideal S128 .f32) : FVec Ideal S262144x128 .f32 :=
  fun y => Cert.Spec.layerAt h (take (segFeat h idx Wsum bsum) idx) Wfc (fun k => row128 bfc (ix2 0 k))
    ⟨(y 0).val, idx2_lt0 y⟩ ⟨(y 1).val, idx2_lt1 y⟩

/-- The head of the kernel program, as a whole array. -/
def headK (G : FVec Ideal S8192x128 .f32) (W1 : FVec Ideal S128x256 .f32) (b1 : FVec Ideal S256 .f32)
    (W2 : FVec Ideal S256x10 .f32) (b2 : FVec Ideal S10 .f32) : FVec Ideal S8192x10 .f32 :=
  fun y => Cert.Spec.headAt G W1 (fun q => row256 b1 (ix2 0 q)) W2 (fun t => row10 b2 (ix2 0 t))
    ⟨(y 0).val, idx2_lt0 y⟩ ⟨(y 1).val, idx2_lt1 y⟩

/-- The feature array after layers 1, 2, 3. -/
def h1 (a0 : FVec Ideal S262144x128 .f32) (a1 : IVec S262144 32) (a2 : FVec Ideal S3x128x128 .f32) (a3 : FVec Ideal S3x128 .f32)
    (a4 : FVec Ideal S3x128x128 .f32) (a5 : FVec Ideal S3x128 .f32) : FVec Ideal S262144x128 .f32 :=
  layerK a0 a1 (mat0 a2) (vec0 a3) (mat0 a4) (vec0 a5)
def h2 (a0 : FVec Ideal S262144x128 .f32) (a1 : IVec S262144 32) (a2 : FVec Ideal S3x128x128 .f32) (a3 : FVec Ideal S3x128 .f32)
    (a4 : FVec Ideal S3x128x128 .f32) (a5 : FVec Ideal S3x128 .f32) : FVec Ideal S262144x128 .f32 :=
  layerK (h1 a0 a1 a2 a3 a4 a5) a1 (mat1 a2) (vec1 a3) (mat1 a4) (vec1 a5)
def h3 (a0 : FVec Ideal S262144x128 .f32) (a1 : IVec S262144 32) (a2 : FVec Ideal S3x128x128 .f32) (a3 : FVec Ideal S3x128 .f32)
    (a4 : FVec Ideal S3x128x128 .f32) (a5 : FVec Ideal S3x128 .f32) : FVec Ideal S262144x128 .f32 :=
  layerK (h2 a0 a1 a2 a3 a4 a5) a1 (mat2 a2) (vec2 a3) (mat2 a4) (vec2 a5)

/-- The kernel program's result from its ten arguments. -/
def out (a0 : FVec Ideal S262144x128 .f32) (a1 : IVec S262144 32) (a2 : FVec Ideal S3x128x128 .f32) (a3 : FVec Ideal S3x128 .f32)
    (a4 : FVec Ideal S3x128x128 .f32) (a5 : FVec Ideal S3x128 .f32) (a6 : FVec Ideal S128x256 .f32) (a7 : FVec Ideal S256 .f32)
    (a8 : FVec Ideal S256x10 .f32) (a9 : FVec Ideal S10 .f32) : FVec Ideal S8192x10 .f32 :=
  headK (segMean (h3 a0 a1 a2 a3 a4 a5) a1) a6 a7 a8 a9

end Cert.KernelIdeal.Val

end
-- ==== Proof.KValue.lean ====
/-
  The kernel program's run read as mathematics, boundary by boundary: the result buffer at the last boundary is the
  kernel program's result function (three layers, then the head on the segment means) of what the ten arguments held
  at launch.

  The run's buffer contents are a fold from the launch memory through the host stretches and the four regions. Two
  facts are carried along it. First, no host stretch and no layer's region writes any of the nine arguments besides
  the features, so each of them holds at every boundary what it held at launch. Second, the feature buffer of the
  boundary after layer k's region holds the k-th layer of the launch features: the stretch before the region leaves the
  previous feature array as it was, puts the guarded gather of the per-segment feature in the second operand's buffer
  and matrix k and row k of the stacked layer weights in the third and fourth; the region's value lemma (taken as a
  hypothesis here, for any entry contents) reads the output array at row n and channel k as one layer of those four;
  and an array over rows and channels is determined by its values at the indices built from their coordinates. The
  head goes the same way from the segment means of the third layer.
-/
import proofs.«424086_j12352325943915_1_alg».proof.Proof.Gen.KernelIdeal.Frame
import proofs.«424086_j12352325943915_1_alg».proof.Proof.KHost
import proofs.«424086_j12352325943915_1_alg».proof.Proof.KOut
import Idealize.ShloMosaic.Lib.ValueIdx

noncomputable section

namespace Cert.KernelIdeal.Chain

open Cert.KernelIdeal Cert.KernelIdeal.Gen Idealize.ShloMosaic Idealize.ShloMosaic.TcCoe Idealize.SL.Sem
open Idealize.ShloMosaic.ValueIdx

/-! ## The regions' value lemmas, as hypotheses

For ANY contents V of the buffers when a region is entered, the region leaves in its output array, index by index, one
layer (or the head) of the arrays it takes. -/

/-- Layer 0's region: its output array at row n, channel k is one layer of (features, gathered, weights, bias row). -/
def L0 : Prop :=
  ∀ (V : (c : Dev nD) → (b : Ref sig .tc) → Buf (Elt Ideal) ((c : Thread nD τ).loc b)) (c : Dev nD) (n : Fin 262144) (k : Fin 128),
    ((Gen.dat0 (F := Ideal) V c).arrAt 4 cfg0.N) (ix2 n k)
      = Cert.Spec.layerAt (V c main_arg0) (V c main_v20) (V c main_v22) (fun k' => V c main_v25 (ix2 0 k')) n k

/-- Layer 1's region. -/
def L1 : Prop :=
  ∀ (V : (c : Dev nD) → (b : Ref sig .tc) → Buf (Elt Ideal) ((c : Thread nD τ).loc b)) (c : Dev nD) (n : Fin 262144) (k : Fin 128),
    ((Gen.dat1 (F := Ideal) V c).arrAt 4 cfg1.N) (ix2 n k)
      = Cert.Spec.layerAt (V c main_v26) (V c main_v47) (V c main_v49) (fun k' => V c main_v52 (ix2 0 k')) n k

/-- Layer 2's region. -/
def L2 : Prop :=
  ∀ (V : (c : Dev nD) → (b : Ref sig .tc) → Buf (Elt Ideal) ((c : Thread nD τ).loc b)) (c : Dev nD) (n : Fin 262144) (k : Fin 128),
    ((Gen.dat2 (F := Ideal) V c).arrAt 4 cfg2.N) (ix2 n k)
      = Cert.Spec.layerAt (V c main_v53) (V c main_v74) (V c main_v76) (fun k' => V c main_v79 (ix2 0 k')) n k

/-- The head's region: its output array at segment r, task t is the head of (segment means, first weights, first
    bias row, second weights, second bias row). -/
def H3 : Prop :=
  ∀ (V : (c : Dev nD) → (b : Ref sig .tc) → Buf (Elt Ideal) ((c : Thread nD τ).loc b)) (c : Dev nD) (r : Fin 8192) (t : Fin 10),
    ((Gen.dat3 (F := Ideal) V c).arrAt 5 cfg3.N) (ix2 r t)
      = Cert.Spec.headAt (V c main_v92) (V c main_arg6) (fun q => V c main_v93 (ix2 0 q)) (V c main_arg8)
          (fun t' => V c main_v94 (ix2 0 t')) r t

/-! ## Arrays from their values at the indices built from coordinates -/

/-- An array over rows and channels that reads, at every row n and channel k, as one layer of (h, g, W, b) is the
    kernel program's layer of the values those four arrays hold. -/
theorem layer_of (A h g : FVec Ideal S262144x128 .f32) (W : FVec Ideal S128x128 .f32) (b : FVec Ideal S1x128 .f32)
    (x : FVec Ideal S262144x128 .f32) (idx : IVec S262144 32) (Wfc : FVec Ideal S128x128 .f32) (bfc : FVec Ideal S128 .f32)
    (Wsum : FVec Ideal S128x128 .f32) (bsum : FVec Ideal S128 .f32)
    (hA : ∀ (n : Fin 262144) (k : Fin 128), A (ix2 n k) = Cert.Spec.layerAt h g W (fun k' => b (ix2 0 k')) n k)
    (eh : h = x) (eg : g = Val.take (Val.segFeat x idx Wsum bsum) idx) (eW : W = Wfc) (eb : b = Val.row128 bfc) :
    A = Val.layerK x idx Wfc bfc Wsum bsum := by
  subst eh eg eW eb
  funext y
  obtain ⟨n, k, rfl⟩ : ∃ (n : Fin 262144) (k : Fin 128), y = ix2 n k := ⟨_, _, eq_ix2 y⟩
  exact hA n k

/-- An array over segments and tasks that reads, at every segment r and task t, as the head of (G, W1, b1, W2, b2) is
    the kernel program's head of the values those five arrays hold. -/
theorem head_of (A : FVec Ideal S8192x10 .f32) (G : FVec Ideal S8192x128 .f32) (W1 : FVec Ideal S128x256 .f32)
    (b1 : FVec Ideal S1x256 .f32) (W2 : FVec Ideal S256x10 .f32) (b2 : FVec Ideal S1x10 .f32)
    (G' : FVec Ideal S8192x128 .f32) (x6 : FVec Ideal S128x256 .f32) (x7 : FVec Ideal S256 .f32)
    (x8 : FVec Ideal S256x10 .f32) (x9 : FVec Ideal S10 .f32)
    (hA : ∀ (r : Fin 8192) (t : Fin 10), A (ix2 r t)
      = Cert.Spec.headAt G W1 (fun q => b1 (ix2 0 q)) W2 (fun t' => b2 (ix2 0 t')) r t)
    (eG : G = G') (eW1 : W1 = x6) (eb1 : b1 = Val.row256 x7) (eW2 : W2 = x8) (eb2 : b2 = Val.row10 x9) :
    A = Val.headK G' x6 x7 x8 x9 := by
  subst eG eW1 eb1 eW2 eb2
  funext y
  obtain ⟨r, t, rfl⟩ : ∃ (r : Fin 8192) (t : Fin 10), y = ix2 r t := ⟨_, _, eq_ix2 y⟩
  exact hA r t

/-! ## The arguments through the host stretches and the regions -/

/-- In the contents V the nine arguments besides the features hold x1 … x9. -/
structure Args (V : Valuation τ sig (Elt Ideal)) (x1 : IVec S262144 32) (x2 : FVec Ideal S3x128x128 .f32)
    (x3 : FVec Ideal S3x128 .f32) (x4 : FVec Ideal S3x128x128 .f32) (x5 : FVec Ideal S3x128 .f32)
    (x6 : FVec Ideal S128x256 .f32) (x7 : FVec Ideal S256 .f32) (x8 : FVec Ideal S256x10 .f32) (x9 : FVec Ideal S10 .f32) :
    Prop where
  e1 : V (Proc.devRef .tc main_arg1) = x1
  e2 : V (Proc.devRef .tc main_arg2) = x2
  e3 : V (Proc.devRef .tc main_arg3) = x3
  e4 : V (Proc.devRef .tc main_arg4) = x4
  e5 : V (Proc.devRef .tc main_arg5) = x5
  e6 : V (Proc.devRef .tc main_arg6) = x6
  e7 : V (Proc.devRef .tc main_arg7) = x7
  e8 : V (Proc.devRef .tc main_arg8) = x8
  e9 : V (Proc.devRef .tc main_arg9) = x9

section Generic

variable {V : Valuation τ sig (Elt Ideal)} {x0 : FVec Ideal S262144x128 .f32} {x1 : IVec S262144 32}
  {x2 : FVec Ideal S3x128x128 .f32} {x3 : FVec Ideal S3x128 .f32} {x4 : FVec Ideal S3x128x128 .f32}
  {x5 : FVec Ideal S3x128 .f32} {x6 : FVec Ideal S128x256 .f32} {x7 : FVec Ideal S256 .f32}
  {x8 : FVec Ideal S256x10 .f32} {x9 : FVec Ideal S10 .f32}

/-- The host stretch before each layer's region writes no argument. -/
theorem Args.entry0 (h : Args V x1 x2 x3 x4 x5 x6 x7 x8 x9) : Args (Host.entry0 V) x1 x2 x3 x4 x5 x6 x7 x8 x9 :=
  ⟨(Host.entry0_arg1 V).trans h.e1, (Host.entry0_arg2 V).trans h.e2, (Host.entry0_arg3 V).trans h.e3,
    (Host.entry0_arg4 V).trans h.e4, (Host.entry0_arg5 V).trans h.e5, (Host.entry0_arg6 V).trans h.e6,
    (Host.entry0_arg7 V).trans h.e7, (Host.entry0_arg8 V).trans h.e8, (Host.entry0_arg9 V).trans h.e9⟩
theorem Args.entry1 (h : Args V x1 x2 x3 x4 x5 x6 x7 x8 x9) : Args (Host.entry1 V) x1 x2 x3 x4 x5 x6 x7 x8 x9 :=
  ⟨(Host.entry1_arg1 V).trans h.e1, (Host.entry1_arg2 V).trans h.e2, (Host.entry1_arg3 V).trans h.e3,
    (Host.entry1_arg4 V).trans h.e4, (Host.entry1_arg5 V).trans h.e5, (Host.entry1_arg6 V).trans h.e6,
    (Host.entry1_arg7 V).trans h.e7, (Host.entry1_arg8 V).trans h.e8, (Host.entry1_arg9 V).trans h.e9⟩
theorem Args.entry2 (h : Args V x1 x2 x3 x4 x5 x6 x7 x8 x9) : Args (Host.entry2 V) x1 x2 x3 x4 x5 x6 x7 x8 x9 :=
  ⟨(Host.entry2_arg1 V).trans h.e1, (Host.entry2_arg2 V).trans h.e2, (Host.entry2_arg3 V).trans h.e3,
    (Host.entry2_arg4 V).trans h.e4, (Host.entry2_arg5 V).trans h.e5, (Host.entry2_arg6 V).trans h.e6,
    (Host.entry2_arg7 V).trans h.e7, (Host.entry2_arg8 V).trans h.e8, (Host.entry2_arg9 V).trans h.e9⟩

/-- The four arrays layer 0's region takes, at its entry, from the contents V at the boundary before. -/
theorem inputs0 (e0 : V (Proc.devRef .tc main_arg0) = x0) (h : Args V x1 x2 x3 x4 x5 x6 x7 x8 x9) :
    Host.entry0 V (Proc.devRef .tc main_arg0) = x0
    ∧ Host.entry0 V (Proc.devRef .tc main_v20) = Val.take (Val.segFeat x0 x1 (Val.mat0 x4) (Val.vec0 x5)) x1
    ∧ Host.entry0 V (Proc.devRef .tc main_v22) = Val.mat0 x2
    ∧ Host.entry0 V (Proc.devRef .tc main_v25) = Val.row128 (Val.vec0 x3) := by
  obtain ⟨e1, e2, e3, e4, e5, -, -, -, -⟩ := h
  subst e0 e1 e2 e3 e4 e5
  exact ⟨Host.entry0_h V, Host.entry0_g V, Host.entry0_W V, Host.entry0_b V⟩
theorem inputs1 (e0 : V (Proc.devRef .tc main_v26) = x0) (h : Args V x1 x2 x3 x4 x5 x6 x7 x8 x9) :
    Host.entry1 V (Proc.devRef .tc main_v26) = x0
    ∧ Host.entry1 V (Proc.devRef .tc main_v47) = Val.take (Val.segFeat x0 x1 (Val.mat1 x4) (Val.vec1 x5)) x1
    ∧ Host.entry1 V (Proc.devRef .tc main_v49) = Val.mat1 x2
    ∧ Host.entry1 V (Proc.devRef .tc main_v52) = Val.row128 (Val.vec1 x3) := by
  obtain ⟨e1, e2, e3, e4, e5, -, -, -, -⟩ := h
  subst e0 e1 e2 e3 e4 e5
  exact ⟨Host.entry1_h V, Host.entry1_g V, Host.entry1_W V, Host.entry1_b V⟩
theorem inputs2 (e0 : V (Proc.devRef .tc main_v53) = x0) (h : Args V x1 x2 x3 x4 x5 x6 x7 x8 x9) :
    Host.entry2 V (Proc.devRef .tc main_v53) = x0
    ∧ Host.entry2 V (Proc.devRef .tc main_v74) = Val.take (Val.segFeat x0 x1 (Val.mat2 x4) (Val.vec2 x5)) x1
    ∧ Host.entry2 V (Proc.devRef .tc main_v76) = Val.mat2 x2
    ∧ Host.entry2 V (Proc.devRef .tc main_v79) = Val.row128 (Val.vec2 x3) := by
  obtain ⟨e1, e2, e3, e4, e5, -, -, -, -⟩ := h
  subst e0 e1 e2 e3 e4 e5
  exact ⟨Host.entry2_h V, Host.entry2_g V, Host.entry2_W V, Host.entry2_b V⟩
/-- The five arrays the head's region takes, at its entry. -/
theorem inputs3 (e0 : V (Proc.devRef .tc main_v80) = x0) (h : Args V x1 x2 x3 x4 x5 x6 x7 x8 x9) :
    Host.entry3 V (Proc.devRef .tc main_v92) = Val.segMean x0 x1
    ∧ Host.entry3 V (Proc.devRef .tc main_arg6) = x6
    ∧ Host.entry3 V (Proc.devRef .tc main_v93) = Val.row256 x7
    ∧ Host.entry3 V (Proc.devRef .tc main_arg8) = x8
    ∧ Host.entry3 V (Proc.devRef .tc main_v94) = Val.row10 x9 := by
  obtain ⟨e1, -, -, -, -, e6, e7, e8, e9⟩ := h
  subst e0 e1 e6 e7 e8 e9
  exact ⟨Host.entry3_G V, Host.entry3_arg6 V, Host.entry3_b1 V, Host.entry3_arg8 V, Host.entry3_b2 V⟩

end Generic

/-! ## The run, boundary by boundary -/

section Run

variable (m : (ℓ : Loc nD τ sig) → Buf (Elt Ideal) ℓ) (ρ : Dev nD → PrngReg) (c : Dev nD)
variable {x0 : FVec Ideal S262144x128 .f32} {x1 : IVec S262144 32}
  {x2 : FVec Ideal S3x128x128 .f32} {x3 : FVec Ideal S3x128 .f32} {x4 : FVec Ideal S3x128x128 .f32}
  {x5 : FVec Ideal S3x128 .f32} {x6 : FVec Ideal S128x256 .f32} {x7 : FVec Ideal S256 .f32}
  {x8 : FVec Ideal S256x10 .f32} {x9 : FVec Ideal S10 .f32}

/-- A layer's region writes its output array only: every argument leaves it as it entered. -/
theorem Args.exit0 (h : Args (Gen.W3 (F := Ideal) m ρ c) x1 x2 x3 x4 x5 x6 x7 x8 x9) :
    Args (Gen.W4 (F := Ideal) m ρ c) x1 x2 x3 x4 x5 x6 x7 x8 x9 :=
  ⟨(Gen.W4_of_ne m ρ c main_arg1 (by decide)).trans h.e1, (Gen.W4_of_ne m ρ c main_arg2 (by decide)).trans h.e2,
    (Gen.W4_of_ne m ρ c main_arg3 (by decide)).trans h.e3, (Gen.W4_of_ne m ρ c main_arg4 (by decide)).trans h.e4,
    (Gen.W4_of_ne m ρ c main_arg5 (by decide)).trans h.e5, (Gen.W4_of_ne m ρ c main_arg6 (by decide)).trans h.e6,
    (Gen.W4_of_ne m ρ c main_arg7 (by decide)).trans h.e7, (Gen.W4_of_ne m ρ c main_arg8 (by decide)).trans h.e8,
    (Gen.W4_of_ne m ρ c main_arg9 (by decide)).trans h.e9⟩
theorem Args.exit1 (h : Args (Gen.W7 (F := Ideal) m ρ c) x1 x2 x3 x4 x5 x6 x7 x8 x9) :
    Args (Gen.W8 (F := Ideal) m ρ c) x1 x2 x3 x4 x5 x6 x7 x8 x9 :=
  ⟨(Gen.W8_of_ne m ρ c main_arg1 (by decide)).trans h.e1, (Gen.W8_of_ne m ρ c main_arg2 (by decide)).trans h.e2,
    (Gen.W8_of_ne m ρ c main_arg3 (by decide)).trans h.e3, (Gen.W8_of_ne m ρ c main_arg4 (by decide)).trans h.e4,
    (Gen.W8_of_ne m ρ c main_arg5 (by decide)).trans h.e5, (Gen.W8_of_ne m ρ c main_arg6 (by decide)).trans h.e6,
    (Gen.W8_of_ne m ρ c main_arg7 (by decide)).trans h.e7, (Gen.W8_of_ne m ρ c main_arg8 (by decide)).trans h.e8,
    (Gen.W8_of_ne m ρ c main_arg9 (by decide)).trans h.e9⟩
theorem Args.exit2 (h : Args (Gen.W11 (F := Ideal) m ρ c) x1 x2 x3 x4 x5 x6 x7 x8 x9) :
    Args (Gen.W12 (F := Ideal) m ρ c) x1 x2 x3 x4 x5 x6 x7 x8 x9 :=
  ⟨(Gen.W12_of_ne m ρ c main_arg1 (by decide)).trans h.e1, (Gen.W12_of_ne m ρ c main_arg2 (by decide)).trans h.e2,
    (Gen.W12_of_ne m ρ c main_arg3 (by decide)).trans h.e3, (Gen.W12_of_ne m ρ c main_arg4 (by decide)).trans h.e4,
    (Gen.W12_of_ne m ρ c main_arg5 (by decide)).trans h.e5, (Gen.W12_of_ne m ρ c main_arg6 (by decide)).trans h.e6,
    (Gen.W12_of_ne m ρ c main_arg7 (by decide)).trans h.e7, (Gen.W12_of_ne m ρ c main_arg8 (by decide)).trans h.e8,
    (Gen.W12_of_ne m ρ c main_arg9 (by decide)).trans h.e9⟩

/-- After layer 0's region its output array holds the kernel program's first layer of what the feature argument and
    the layer arguments held at the launch boundary. -/
theorem feat1 (hL0 : L0) (e0 : Gen.W0 (F := Ideal) m ρ c (Proc.devRef .tc main_arg0) = x0)
    (h : Args (Gen.W0 (F := Ideal) m ρ c) x1 x2 x3 x4 x5 x6 x7 x8 x9) :
    (Gen.W4 (F := Ideal) m ρ c (Proc.devRef .tc main_v26) : FVec Ideal S262144x128 .f32) = Val.h1 x0 x1 x2 x3 x4 x5 := by
  obtain ⟨ih, ig, iW, ib⟩ := inputs0 e0 h
  exact layer_of (Gen.W4 (F := Ideal) m ρ c (Proc.devRef .tc main_v26)) (Gen.W3 (F := Ideal) m ρ c (Proc.devRef .tc main_arg0))
    (Gen.W3 (F := Ideal) m ρ c (Proc.devRef .tc main_v20)) (Gen.W3 (F := Ideal) m ρ c (Proc.devRef .tc main_v22))
    (Gen.W3 (F := Ideal) m ρ c (Proc.devRef .tc main_v25)) x0 x1 (Val.mat0 x2) (Val.vec0 x3) (Val.mat0 x4) (Val.vec0 x5)
    (fun n k => (congrFun (Gen.W4_arr m ρ c 4) (ix2 n k)).trans (hL0 (Gen.V3 m ρ) c n k)) ih ig iW ib

/-- The arguments at the boundary after layer 0's region. -/
theorem args4 (h : Args (Gen.W0 (F := Ideal) m ρ c) x1 x2 x3 x4 x5 x6 x7 x8 x9) :
    Args (Gen.W4 (F := Ideal) m ρ c) x1 x2 x3 x4 x5 x6 x7 x8 x9 :=
  Args.exit0 m ρ c (Args.entry0 h)

/-- After layer 1's region its output array holds the second layer. -/
theorem feat2 (hL0 : L0) (hL1 : L1) (e0 : Gen.W0 (F := Ideal) m ρ c (Proc.devRef .tc main_arg0) = x0)
    (h : Args (Gen.W0 (F := Ideal) m ρ c) x1 x2 x3 x4 x5 x6 x7 x8 x9) :
    (Gen.W8 (F := Ideal) m ρ c (Proc.devRef .tc main_v53) : FVec Ideal S262144x128 .f32) = Val.h2 x0 x1 x2 x3 x4 x5 := by
  obtain ⟨ih, ig, iW, ib⟩ := inputs1 (feat1 m ρ c hL0 e0 h) (args4 m ρ c h)
  exact layer_of (Gen.W8 (F := Ideal) m ρ c (Proc.devRef .tc main_v53)) (Gen.W7 (F := Ideal) m ρ c (Proc.devRef .tc main_v26))
    (Gen.W7 (F := Ideal) m ρ c (Proc.devRef .tc main_v47)) (Gen.W7 (F := Ideal) m ρ c (Proc.devRef .tc main_v49))
    (Gen.W7 (F := Ideal) m ρ c (Proc.devRef .tc main_v52)) (Val.h1 x0 x1 x2 x3 x4 x5) x1 (Val.mat1 x2) (Val.vec1 x3) (Val.mat1 x4)
    (Val.vec1 x5)
    (fun n k => (congrFun (Gen.W8_arr m ρ c 4) (ix2 n k)).trans (hL1 (Gen.V7 m ρ) c n k)) ih ig iW ib

/-- The arguments at the boundary after layer 1's region. -/
theorem args8 (h : Args (Gen.W0 (F := Ideal) m ρ c) x1 x2 x3 x4 x5 x6 x7 x8 x9) :
    Args (Gen.W8 (F := Ideal) m ρ c) x1 x2 x3 x4 x5 x6 x7 x8 x9 :=
  Args.exit1 m ρ c (Args.entry1 (args4 m ρ c h))

/-- After layer 2's region its output array holds the third layer. -/
theorem feat3 (hL0 : L0) (hL1 : L1) (hL2 : L2) (e0 : Gen.W0 (F := Ideal) m ρ c (Proc.devRef .tc main_arg0) = x0)
    (h : Args (Gen.W0 (F := Ideal) m ρ c) x1 x2 x3 x4 x5 x6 x7 x8 x9) :
    (Gen.W12 (F := Ideal) m ρ c (Proc.devRef .tc main_v80) : FVec Ideal S262144x128 .f32) = Val.h3 x0 x1 x2 x3 x4 x5 := by
  obtain ⟨ih, ig, iW, ib⟩ := inputs2 (feat2 m ρ c hL0 hL1 e0 h) (args8 m ρ c h)
  exact layer_of (Gen.W12 (F := Ideal) m ρ c (Proc.devRef .tc main_v80)) (Gen.W11 (F := Ideal) m ρ c (Proc.devRef .tc main_v53))
    (Gen.W11 (F := Ideal) m ρ c (Proc.devRef .tc main_v74)) (Gen.W11 (F := Ideal) m ρ c (Proc.devRef .tc main_v76))
    (Gen.W11 (F := Ideal) m ρ c (Proc.devRef .tc main_v79)) (Val.h2 x0 x1 x2 x3 x4 x5) x1 (Val.mat2 x2) (Val.vec2 x3) (Val.mat2 x4)
    (Val.vec2 x5)
    (fun n k => (congrFun (Gen.W12_arr m ρ c 4) (ix2 n k)).trans (hL2 (Gen.V11 m ρ) c n k)) ih ig iW ib

/-- The arguments at the boundary after layer 2's region. -/
theorem args12 (h : Args (Gen.W0 (F := Ideal) m ρ c) x1 x2 x3 x4 x5 x6 x7 x8 x9) :
    Args (Gen.W12 (F := Ideal) m ρ c) x1 x2 x3 x4 x5 x6 x7 x8 x9 :=
  Args.exit2 m ρ c (Args.entry2 (args8 m ρ c h))

/-- After the head's region the result array holds the head of the segment means of the third layer. -/
theorem result_of (hL0 : L0) (hL1 : L1) (hL2 : L2) (hH : H3)
    (e0 : Gen.W0 (F := Ideal) m ρ c (Proc.devRef .tc main_arg0) = x0)
    (h : Args (Gen.W0 (F := Ideal) m ρ c) x1 x2 x3 x4 x5 x6 x7 x8 x9) :
    (Gen.W14 (F := Ideal) m ρ c (Proc.devRef .tc main_v95) : FVec Ideal S8192x10 .f32)
      = Val.out x0 x1 x2 x3 x4 x5 x6 x7 x8 x9 := by
  obtain ⟨iG, iW1, ib1, iW2, ib2⟩ := inputs3 (feat3 m ρ c hL0 hL1 hL2 e0 h) (args12 m ρ c h)
  exact head_of (Gen.W14 (F := Ideal) m ρ c (Proc.devRef .tc main_v95)) (Gen.W13 (F := Ideal) m ρ c (Proc.devRef .tc main_v92))
    (Gen.W13 (F := Ideal) m ρ c (Proc.devRef .tc main_arg6)) (Gen.W13 (F := Ideal) m ρ c (Proc.devRef .tc main_v93))
    (Gen.W13 (F := Ideal) m ρ c (Proc.devRef .tc main_arg8)) (Gen.W13 (F := Ideal) m ρ c (Proc.devRef .tc main_v94))
    (Val.segMean (Val.h3 x0 x1 x2 x3 x4 x5) x1) x6 x7 x8 x9
    (fun r t => (congrFun (Gen.W14_arr m ρ c 5) (ix2 r t)).trans (hH (Gen.V13 m ρ) c r t)) iG iW1 ib1 iW2 ib2

/-- THE RESULT BUFFER at the last boundary: the kernel program's result function of what the ten arguments held at
    launch. -/
theorem W14_result (hL0 : L0) (hL1 : L1) (hL2 : L2) (hH : H3) (m : (ℓ : Loc nD τ sig) → Buf (Elt Ideal) ℓ)
    (ρ : Dev nD → PrngReg) (c : Dev nD) :
    (Gen.W14 (F := Ideal) m ρ c (Proc.devRef .tc main_v95) : FVec Ideal S8192x10 .f32)
      = Val.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  result_of m ρ c hL0 hL1 hL2 hH rfl ⟨rfl, rfl, rfl, rfl, rfl, rfl, rfl, rfl, rfl⟩

end Run

end Cert.KernelIdeal.Chain

end
-- ==== Proof.RefRun.lean ====
/-
  The reference program's @main as a straight line of host operations, and its run.

  @main is 155 statements in three windows; four of them call a module-local function (@elu three times — itself
  calling @_where and @_where_0 — and @relu once). A call executes the callee's statements on the operands, each value
  of the callee in the buffer the call's record names for it, so @main is ONE list of 198 host operations: its own
  statements in order, each call replaced by the callee's statements over that call's record. The list is cut at the
  mathematics' stage boundaries: one list per layer (ending at the layer's activation, the buffers %36, %73, %110)
  and one for the head (the segment mean of the last activation, the two dense maps with the rectifier between them;
  the program's result is %131).

  `main_eq`: @main is `seq ops`. `run_main`: from any memory with zero counters every weakly fair execution of @main
  terminates with every buffer at the fold `after ops` of the operations' results over the launch contents; with
  `after_append` the fold is the four stages' folds composed, which is how the stages are read back one at a time.
-/
import proofs.«424086_j12352325943915_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The four stages

Layer `i` (i = 0, 1, 2): the dense map of the rows `h·W_fc[i] + b_fc[i]`; the segment sums of `h` and of ones by
scatter-add, the counts clamped below by one, their quotient the segment mean; its dense map `·W_sum[i] + b_sum[i]`;
the segment index wrapped if negative and the mean's row gathered at it; the sum of the two; then @elu's fifteen
statements: `x > 0` twice over a broadcast zero, @_where selecting `0` where `x > 0` and `x` elsewhere, `expm1` of that
times a broadcast one, and @_where_0 selecting `x` where `x > 0` and that product elsewhere. -/

/-- Layer 0: @main's statements %0 … %35 and the first @elu, 57 operations; the layer's activation is `main_v36`. -/
abbrev opsL0 : List (HloOp τ sig (Elt F)) :=
  [ unary main_arg2 main_v0 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v0 main_v1 rfl shapeCasts_S1x128x128_S128x128,
    binary main_arg0 main_v1 main_v2 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg3 main_v3 ((extractStridedSlice S1x128 ![0, 0] · slices_S3x128_S1x128_0_0) : (⟨S3x128, .f32⟩ : BufTy).Contents (Elt F) → (⟨S1x128, .f32⟩ : BufTy).Contents (Elt F)),
    reshape main_v3 main_v4 rfl shapeCasts_S1x128_S128,
    unary main_v4 main_v5 (broadcastInDim S1x128 ![1] bcast_S128_S1x128_1 : (⟨S128, .f32⟩ : BufTy).Contents (Elt F) → (⟨S1x128, .f32⟩ : BufTy).Contents (Elt F)),
    unary main_v5 main_v6 (broadcastInDim S262144x128 ![0, 1] bcast_S1x128_S262144x128_0_1 : (⟨S1x128, .f32⟩ : BufTy).Contents (Elt F) → (⟨S262144x128, .f32⟩ : BufTy).Contents (Elt F)),
    binary main_v2 main_v6 main_v7 (addf : (⟨S262144x128, .f32⟩ : BufTy).Contents (Elt F) → (⟨S262144x128, .f32⟩ : BufTy).Contents (Elt F) → (⟨S262144x128, .f32⟩ : BufTy).Contents (Elt F)),
    nullary main_cst (constant S_ .f32 0x00000000#32),
    unary main_cst main_v8 (broadcastInDim S8192x128 ![] bcast_S_S8192x128 : (⟨S_, .f32⟩ : BufTy).Contents (Elt F) → (⟨S8192x128, .f32⟩ : BufTy).Contents (Elt F)),
    unary main_arg1 main_v9 (broadcastInDim S262144x1 ![0] bcast_S262144_S262144x1_0 : (⟨S262144, .i32⟩ : BufTy).Contents (Elt F) → (⟨S262144x1, .i32⟩ : BufTy).Contents (Elt F)),
    ternary main_v8 main_v9 main_arg0 main_v10 ((fun x i u => Host.scatterAdd scatter_S8192x128_S262144x1_S262144x128_1_0_0_1 x i u) : (⟨S8192x128, .f32⟩ : BufTy).Contents (Elt F) → (⟨S262144x1, .i32⟩ : BufTy).Contents (Elt F) → (⟨S262144x128, .f32⟩ : BufTy).Contents (Elt F) → (⟨S8192x128, .f32⟩ : BufTy).Contents (Elt F)),
    nullary main_cst_0 (constant S_ .f32 0x3F800000#32),
    unary main_cst_0 main_v11 (broadcastInDim S262144 ![] bcast_S_S262144 : (⟨S_, .f32⟩ : BufTy).Contents (Elt F) → (⟨S262144, .f32⟩ : BufTy).Contents (Elt F)),
    nullary main_cst_1 (constant S_ .f32 0x00000000#32),
    unary main_cst_1 main_v12 (broadcastInDim S8192 ![] bcast_S_S8192 : (⟨S_, .f32⟩ : BufTy).Contents (Elt F) → (⟨S8192, .f32⟩ : BufTy).Contents (Elt F)),
    unary main_arg1 main_v13 (broadcastInDim S262144x1 ![0] bcast_S262144_S262144x1_0 : (⟨S262144, .i32⟩ : BufTy).Contents (Elt F) → (⟨S262144x1, .i32⟩ : BufTy).Contents (Elt F)),
    ternary main_v12 main_v13 main_v11 main_v14 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    nullary main_cst_2 (constant S_ .f32 0x3F800000#32),
    unary main_cst_2 main_v15 (broadcastInDim S8192 ![] bcast_S_S8192 : (⟨S_, .f32⟩ : BufTy).Contents (Elt F) → (⟨S8192, .f32⟩ : BufTy).Contents (Elt F)),
    binary main_v14 main_v15 main_v16 (maximumf : (⟨S8192, .f32⟩ : BufTy).Contents (Elt F) → (⟨S8192, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v17 main_v18 (broadcastInDim S8192x128 ![0, 1] bcast_S8192x1_S8192x128_0_1 : (⟨S8192x1, .f32⟩ : BufTy).Contents (Elt F) → (⟨S8192x128, .f32⟩ : BufTy).Contents (Elt F)),
    binary main_v10 main_v18 main_v19 (Host.divf : (⟨S8192x128, .f32⟩ : BufTy).Contents (Elt F) → (⟨S8192x128, .f32⟩ : BufTy).Contents (Elt F) → (⟨S8192x128, .f32⟩ : BufTy).Contents (Elt F)),
    unary main_arg4 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v20 main_v21 rfl shapeCasts_S1x128x128_S128x128,
    binary main_v19 main_v21 main_v22 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg5 main_v23 ((extractStridedSlice S1x128 ![0, 0] · slices_S3x128_S1x128_0_0) : (⟨S3x128, .f32⟩ : BufTy).Contents (Elt F) → (⟨S1x128, .f32⟩ : BufTy).Contents (Elt F)),
    reshape main_v23 main_v24 rfl shapeCasts_S1x128_S128,
    unary main_v24 main_v25 (broadcastInDim S1x128 ![1] bcast_S128_S1x128_1 : (⟨S128, .f32⟩ : BufTy).Contents (Elt F) → (⟨S1x128, .f32⟩ : BufTy).Contents (Elt F)),
    unary main_v25 main_v26 (broadcastInDim S8192x128 ![0, 1] bcast_S1x128_S8192x128_0_1 : (⟨S1x128, .f32⟩ : BufTy).Contents (Elt F) → (⟨S8192x128, .f32⟩ : BufTy).Contents (Elt F)),
    binary main_v22 main_v26 main_v27 (addf : (⟨S8192x128, .f32⟩ : BufTy).Contents (Elt F) → (⟨S8192x128, .f32⟩ : BufTy).Contents (Elt F) → (⟨S8192x128, .f32⟩ : BufTy).Contents (Elt F)),
    nullary main_c (constantI S_ 32 0#32),
    unary main_c main_v28 (broadcastInDim S262144 ![] bcast_S_S262144 : (⟨S_, .i32⟩ : BufTy).Contents (Elt F) → (⟨S262144, .i32⟩ : BufTy).Contents (Elt F)),
    binary main_arg1 main_v28 main_v29 (cmpi .slt : (⟨S262144, .i32⟩ : BufTy).Contents (Elt F) → (⟨S262144, .i32⟩ : BufTy).Contents (Elt F) → (⟨S262144, .i1⟩ : BufTy).Contents (Elt F)),
    nullary main_c_3 (constantI S_ 32 8192#32),
    unary main_c_3 main_v30 (broadcastInDim S262144 ![] bcast_S_S262144 : (⟨S_, .i32⟩ : BufTy).Contents (Elt F) → (⟨S262144, .i32⟩ : BufTy).Contents (Elt F)),
    binary main_arg1 main_v30 main_v31 (addi : (⟨S262144, .i32⟩ : BufTy).Contents (Elt F) → (⟨S262144, .i32⟩ : BufTy).Contents (Elt F) → (⟨S262144, .i32⟩ : BufTy).Contents (Elt F)),
    ternary main_v29 main_v31 main_arg1 main_v32 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v32 main_v33 (broadcastInDim S262144x1 ![0] bcast_S262144_S262144x1_0 : (⟨S262144, .i32⟩ : BufTy).Contents (Elt F) → (⟨S262144x1, .i32⟩ : BufTy).Contents (Elt F)),
    binary main_v27 main_v33 main_v34 ((fun x i => Host.gather gather_S8192x128_S262144x1_S262144x128_1_0_n_n_0_1_1128 x i) : (⟨S8192x128, .f32⟩ : BufTy).Contents (Elt F) → (⟨S262144x1, .i32⟩ : BufTy).Contents (Elt F) → (⟨S262144x128, .f32⟩ : BufTy).Contents (Elt F)),
    binary main_v7 main_v34 main_v35 (addf : (⟨S262144x128, .f32⟩ : BufTy).Contents (Elt F) → (⟨S262144x128, .f32⟩ : BufTy).Contents (Elt F) → (⟨S262144x128, .f32⟩ : BufTy).Contents (Elt F)),
    TRef.nullary main_call0.cst (constant S_ .f32 0x00000000#32),
    TRef.unary main_call0.cst main_call0.v0 (broadcastInDim S262144x128 ![] bcast_S_S262144x128),
    TRef.binary (.of main_v35 : TRef sig ⟨S262144x128, .f32⟩) main_call0.v0 main_call0.v1 (cmpf .ogt),
    TRef.nullary main_call0.cst_0 (constant S_ .f32 0x00000000#32),
    TRef.unary main_call0.cst_0 main_call0.v2 (broadcastInDim S262144x128 ![] bcast_S_S262144x128),
    TRef.binary (.of main_v35 : TRef sig ⟨S262144x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S262144x128 ![] bcast_S_S262144x128),
    TRef.ternary main_call0.v3 main_call0.call0.v1 (.of main_v35 : TRef sig ⟨S262144x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S262144x128 ![] bcast_S_S262144x128),
    TRef.binary main_call0.v6 main_call0.v5 main_call0.v7 mulf,
    TRef.ternary main_call0.v1 (.of main_v35 : TRef sig ⟨S262144x128, .f32⟩) main_call0.v7 main_call0.call1.v0 select ]

/-- Each operation touches TensorCore references only. -/
theorem opsL0_sub : (opsL0 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- Layer 1: @main's statements %37 … %72 and the second @elu, 57 operations; the layer's activation is `main_v73`. -/
abbrev opsL1 : List (HloOp τ sig (Elt F)) :=
  [ unary main_arg2 main_v37 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v37 main_v38 rfl shapeCasts_S1x128x128_S128x128,
    binary main_v36 main_v38 main_v39 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg3 main_v40 ((extractStridedSlice S1x128 ![1, 0] · slices_S3x128_S1x128_1_0) : (⟨S3x128, .f32⟩ : BufTy).Contents (Elt F) → (⟨S1x128, .f32⟩ : BufTy).Contents (Elt F)),
    reshape main_v40 main_v41 rfl shapeCasts_S1x128_S128,
    unary main_v41 main_v42 (broadcastInDim S1x128 ![1] bcast_S128_S1x128_1 : (⟨S128, .f32⟩ : BufTy).Contents (Elt F) → (⟨S1x128, .f32⟩ : BufTy).Contents (Elt F)),
    unary main_v42 main_v43 (broadcastInDim S262144x128 ![0, 1] bcast_S1x128_S262144x128_0_1 : (⟨S1x128, .f32⟩ : BufTy).Contents (Elt F) → (⟨S262144x128, .f32⟩ : BufTy).Contents (Elt F)),
    binary main_v39 main_v43 main_v44 (addf : (⟨S262144x128, .f32⟩ : BufTy).Contents (Elt F) → (⟨S262144x128, .f32⟩ : BufTy).Contents (Elt F) → (⟨S262144x128, .f32⟩ : BufTy).Contents (Elt F)),
    nullary main_cst_4 (constant S_ .f32 0x00000000#32),
    unary main_cst_4 main_v45 (broadcastInDim S8192x128 ![] bcast_S_S8192x128 : (⟨S_, .f32⟩ : BufTy).Contents (Elt F) → (⟨S8192x128, .f32⟩ : BufTy).Contents (Elt F)),
    unary main_arg1 main_v46 (broadcastInDim S262144x1 ![0] bcast_S262144_S262144x1_0 : (⟨S262144, .i32⟩ : BufTy).Contents (Elt F) → (⟨S262144x1, .i32⟩ : BufTy).Contents (Elt F)),
    ternary main_v45 main_v46 main_v36 main_v47 ((fun x i u => Host.scatterAdd scatter_S8192x128_S262144x1_S262144x128_1_0_0_1 x i u) : (⟨S8192x128, .f32⟩ : BufTy).Contents (Elt F) → (⟨S262144x1, .i32⟩ : BufTy).Contents (Elt F) → (⟨S262144x128, .f32⟩ : BufTy).Contents (Elt F) → (⟨S8192x128, .f32⟩ : BufTy).Contents (Elt F)),
    nullary main_cst_5 (constant S_ .f32 0x3F800000#32),
    unary main_cst_5 main_v48 (broadcastInDim S262144 ![] bcast_S_S262144 : (⟨S_, .f32⟩ : BufTy).Contents (Elt F) → (⟨S262144, .f32⟩ : BufTy).Contents (Elt F)),
    nullary main_cst_6 (constant S_ .f32 0x00000000#32),
    unary main_cst_6 main_v49 (broadcastInDim S8192 ![] bcast_S_S8192 : (⟨S_, .f32⟩ : BufTy).Contents (Elt F) → (⟨S8192, .f32⟩ : BufTy).Contents (Elt F)),
    unary main_arg1 main_v50 (broadcastInDim S262144x1 ![0] bcast_S262144_S262144x1_0 : (⟨S262144, .i32⟩ : BufTy).Contents (Elt F) → (⟨S262144x1, .i32⟩ : BufTy).Contents (Elt F)),
    ternary main_v49 main_v50 main_v48 main_v51 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    nullary main_cst_7 (constant S_ .f32 0x3F800000#32),
    unary main_cst_7 main_v52 (broadcastInDim S8192 ![] bcast_S_S8192 : (⟨S_, .f32⟩ : BufTy).Contents (Elt F) → (⟨S8192, .f32⟩ : BufTy).Contents (Elt F)),
    binary main_v51 main_v52 main_v53 (maximumf : (⟨S8192, .f32⟩ : BufTy).Contents (Elt F) → (⟨S8192, .f32⟩ : BufTy).Contents (Elt F) → (⟨S8192, .f32⟩ : BufTy).Contents (Elt F)),
    unary main_v53 main_v54 (broadcastInDim S8192x1 ![0] bcast_S8192_S8192x1_0 : (⟨S8192, .f32⟩ : BufTy).Contents (Elt F) → (⟨S8192x1, .f32⟩ : BufTy).Contents (Elt F)),
    unary main_v54 main_v55 (broadcastInDim S8192x128 ![0, 1] bcast_S8192x1_S8192x128_0_1 : (⟨S8192x1, .f32⟩ : BufTy).Contents (Elt F) → (⟨S8192x128, .f32⟩ : BufTy).Contents (Elt F)),
    binary main_v47 main_v55 main_v56 (Host.divf : (⟨S8192x128, .f32⟩ : BufTy).Contents (Elt F) → (⟨S8192x128, .f32⟩ : BufTy).Contents (Elt F) → (⟨S8192x128, .f32⟩ : BufTy).Contents (Elt F)),
    unary main_arg4 main_v57 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v57 main_v58 rfl shapeCasts_S1x128x128_S128x128,
    binary main_v56 main_v58 main_v59 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg5 main_v60 ((extractStridedSlice S1x128 ![1, 0] · slices_S3x128_S1x128_1_0) : (⟨S3x128, .f32⟩ : BufTy).Contents (Elt F) → (⟨S1x128, .f32⟩ : BufTy).Contents (Elt F)),
    reshape main_v60 main_v61 rfl shapeCasts_S1x128_S128,
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S8192x128 ![0, 1] bcast_S1x128_S8192x128_0_1 : (⟨S1x128, .f32⟩ : BufTy).Contents (Elt F) → (⟨S8192x128, .f32⟩ : BufTy).Contents (Elt F)),
    binary main_v59 main_v63 main_v64 (addf : (⟨S8192x128, .f32⟩ : BufTy).Contents (Elt F) → (⟨S8192x128, .f32⟩ : BufTy).Contents (Elt F) → (⟨S8192x128, .f32⟩ : BufTy).Contents (Elt F)),
    nullary main_c_8 (constantI S_ 32 0#32),
    unary main_c_8 main_v65 (broadcastInDim S262144 ![] bcast_S_S262144 : (⟨S_, .i32⟩ : BufTy).Contents (Elt F) → (⟨S262144, .i32⟩ : BufTy).Contents (Elt F)),
    binary main_arg1 main_v65 main_v66 (cmpi .slt : (⟨S262144, .i32⟩ : BufTy).Contents (Elt F) → (⟨S262144, .i32⟩ : BufTy).Contents (Elt F) → (⟨S262144, .i1⟩ : BufTy).Contents (Elt F)),
    nullary main_c_9 (constantI S_ 32 8192#32),
    unary main_c_9 main_v67 (broadcastInDim S262144 ![] bcast_S_S262144 : (⟨S_, .i32⟩ : BufTy).Contents (Elt F) → (⟨S262144, .i32⟩ : BufTy).Contents (Elt F)),
    binary main_arg1 main_v67 main_v68 (addi : (⟨S262144, .i32⟩ : BufTy).Contents (Elt F) → (⟨S262144, .i32⟩ : BufTy).Contents (Elt F) → (⟨S262144, .i32⟩ : BufTy).Contents (Elt F)),
    ternary main_v66 main_v68 main_arg1 main_v69 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v69 main_v70 (broadcastInDim S262144x1 ![0] bcast_S262144_S262144x1_0 : (⟨S262144, .i32⟩ : BufTy).Contents (Elt F) → (⟨S262144x1, .i32⟩ : BufTy).Contents (Elt F)),
    binary main_v64 main_v70 main_v71 ((fun x i => Host.gather gather_S8192x128_S262144x1_S262144x128_1_0_n_n_0_1_1128 x i) : (⟨S8192x128, .f32⟩ : BufTy).Contents (Elt F) → (⟨S262144x1, .i32⟩ : BufTy).Contents (Elt F) → (⟨S262144x128, .f32⟩ : BufTy).Contents (Elt F)),
    binary main_v44 main_v71 main_v72 (addf : (⟨S262144x128, .f32⟩ : BufTy).Contents (Elt F) → (⟨S262144x128, .f32⟩ : BufTy).Contents (Elt F) → (⟨S262144x128, .f32⟩ : BufTy).Contents (Elt F)),
    TRef.nullary main_call1.cst (constant S_ .f32 0x00000000#32),
    TRef.unary main_call1.cst main_call1.v0 (broadcastInDim S262144x128 ![] bcast_S_S262144x128),
    TRef.binary (.of main_v72 : TRef sig ⟨S262144x128, .f32⟩) main_call1.v0 main_call1.v1 (cmpf .ogt),
    TRef.nullary main_call1.cst_0 (constant S_ .f32 0x00000000#32),
    TRef.unary main_call1.cst_0 main_call1.v2 (broadcastInDim S262144x128 ![] bcast_S_S262144x128),
    TRef.binary (.of main_v72 : TRef sig ⟨S262144x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S262144x128 ![] bcast_S_S262144x128),
    TRef.ternary main_call1.v3 main_call1.call0.v1 (.of main_v72 : TRef sig ⟨S262144x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S262144x128 ![] bcast_S_S262144x128),
    TRef.binary main_call1.v6 main_call1.v5 main_call1.v7 mulf,
    TRef.ternary main_call1.v1 (.of main_v72 : TRef sig ⟨S262144x128, .f32⟩) main_call1.v7 main_call1.call1.v0 select ]

/-- Each operation touches TensorCore references only. -/
theorem opsL1_sub : (opsL1 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- Layer 2: @main's statements %74 … %109 and the third @elu, 57 operations; the layer's activation is `main_v110`. -/
abbrev opsL2 : List (HloOp τ sig (Elt F)) :=
  [ unary main_arg2 main_v74 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v74 main_v75 rfl shapeCasts_S1x128x128_S128x128,
    binary main_v73 main_v75 main_v76 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg3 main_v77 ((extractStridedSlice S1x128 ![2, 0] · slices_S3x128_S1x128_2_0) : (⟨S3x128, .f32⟩ : BufTy).Contents (Elt F) → (⟨S1x128, .f32⟩ : BufTy).Contents (Elt F)),
    reshape main_v77 main_v78 rfl shapeCasts_S1x128_S128,
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S262144x128 ![0, 1] bcast_S1x128_S262144x128_0_1 : (⟨S1x128, .f32⟩ : BufTy).Contents (Elt F) → (⟨S262144x128, .f32⟩ : BufTy).Contents (Elt F)),
    binary main_v76 main_v80 main_v81 (addf : (⟨S262144x128, .f32⟩ : BufTy).Contents (Elt F) → (⟨S262144x128, .f32⟩ : BufTy).Contents (Elt F) → (⟨S262144x128, .f32⟩ : BufTy).Contents (Elt F)),
    nullary main_cst_10 (constant S_ .f32 0x00000000#32),
    unary main_cst_10 main_v82 (broadcastInDim S8192x128 ![] bcast_S_S8192x128 : (⟨S_, .f32⟩ : BufTy).Contents (Elt F) → (⟨S8192x128, .f32⟩ : BufTy).Contents (Elt F)),
    unary main_arg1 main_v83 (broadcastInDim S262144x1 ![0] bcast_S262144_S262144x1_0 : (⟨S262144, .i32⟩ : BufTy).Contents (Elt F) → (⟨S262144x1, .i32⟩ : BufTy).Contents (Elt F)),
    ternary main_v82 main_v83 main_v73 main_v84 ((fun x i u => Host.scatterAdd scatter_S8192x128_S262144x1_S262144x128_1_0_0_1 x i u) : (⟨S8192x128, .f32⟩ : BufTy).Contents (Elt F) → (⟨S262144x1, .i32⟩ : BufTy).Contents (Elt F) → (⟨S262144x128, .f32⟩ : BufTy).Contents (Elt F) → (⟨S8192x128, .f32⟩ : BufTy).Contents (Elt F)),
    nullary main_cst_11 (constant S_ .f32 0x3F800000#32),
    unary main_cst_11 main_v85 (broadcastInDim S262144 ![] bcast_S_S262144 : (⟨S_, .f32⟩ : BufTy).Contents (Elt F) → (⟨S262144, .f32⟩ : BufTy).Contents (Elt F)),
    nullary main_cst_12 (constant S_ .f32 0x00000000#32),
    unary main_cst_12 main_v86 (broadcastInDim S8192 ![] bcast_S_S8192 : (⟨S_, .f32⟩ : BufTy).Contents (Elt F) → (⟨S8192, .f32⟩ : BufTy).Contents (Elt F)),
    unary main_arg1 main_v87 (broadcastInDim S262144x1 ![0] bcast_S262144_S262144x1_0 : (⟨S262144, .i32⟩ : BufTy).Contents (Elt F) → (⟨S262144x1, .i32⟩ : BufTy).Contents (Elt F)),
    ternary main_v86 main_v87 main_v85 main_v88 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    nullary main_cst_13 (constant S_ .f32 0x3F800000#32),
    unary main_cst_13 main_v89 (broadcastInDim S8192 ![] bcast_S_S8192 : (⟨S_, .f32⟩ : BufTy).Contents (Elt F) → (⟨S8192, .f32⟩ : BufTy).Contents (Elt F)),
    binary main_v88 main_v89 main_v90 (maximumf : (⟨S8192, .f32⟩ : BufTy).Contents (Elt F) → (⟨S8192, .f32⟩ : BufTy).Contents (Elt F) → (⟨S8192, .f32⟩ : BufTy).Contents (Elt F)),
    unary main_v90 main_v91 (broadcastInDim S8192x1 ![0] bcast_S8192_S8192x1_0 : (⟨S8192, .f32⟩ : BufTy).Contents (Elt F) → (⟨S8192x1, .f32⟩ : BufTy).Contents (Elt F)),
    unary main_v91 main_v92 (broadcastInDim S8192x128 ![0, 1] bcast_S8192x1_S8192x128_0_1 : (⟨S8192x1, .f32⟩ : BufTy).Contents (Elt F) → (⟨S8192x128, .f32⟩ : BufTy).Contents (Elt F)),
    binary main_v84 main_v92 main_v93 (Host.divf : (⟨S8192x128, .f32⟩ : BufTy).Contents (Elt F) → (⟨S8192x128, .f32⟩ : BufTy).Contents (Elt F) → (⟨S8192x128, .f32⟩ : BufTy).Contents (Elt F)),
    unary main_arg4 main_v94 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v94 main_v95 rfl shapeCasts_S1x128x128_S128x128,
    binary main_v93 main_v95 main_v96 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg5 main_v97 ((extractStridedSlice S1x128 ![2, 0] · slices_S3x128_S1x128_2_0) : (⟨S3x128, .f32⟩ : BufTy).Contents (Elt F) → (⟨S1x128, .f32⟩ : BufTy).Contents (Elt F)),
    reshape main_v97 main_v98 rfl shapeCasts_S1x128_S128,
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S8192x128 ![0, 1] bcast_S1x128_S8192x128_0_1 : (⟨S1x128, .f32⟩ : BufTy).Contents (Elt F) → (⟨S8192x128, .f32⟩ : BufTy).Contents (Elt F)),
    binary main_v96 main_v100 main_v101 (addf : (⟨S8192x128, .f32⟩ : BufTy).Contents (Elt F) → (⟨S8192x128, .f32⟩ : BufTy).Contents (Elt F) → (⟨S8192x128, .f32⟩ : BufTy).Contents (Elt F)),
    nullary main_c_14 (constantI S_ 32 0#32),
    unary main_c_14 main_v102 (broadcastInDim S262144 ![] bcast_S_S262144 : (⟨S_, .i32⟩ : BufTy).Contents (Elt F) → (⟨S262144, .i32⟩ : BufTy).Contents (Elt F)),
    binary main_arg1 main_v102 main_v103 (cmpi .slt : (⟨S262144, .i32⟩ : BufTy).Contents (Elt F) → (⟨S262144, .i32⟩ : BufTy).Contents (Elt F) → (⟨S262144, .i1⟩ : BufTy).Contents (Elt F)),
    nullary main_c_15 (constantI S_ 32 8192#32),
    unary main_c_15 main_v104 (broadcastInDim S262144 ![] bcast_S_S262144 : (⟨S_, .i32⟩ : BufTy).Contents (Elt F) → (⟨S262144, .i32⟩ : BufTy).Contents (Elt F)),
    binary main_arg1 main_v104 main_v105 (addi : (⟨S262144, .i32⟩ : BufTy).Contents (Elt F) → (⟨S262144, .i32⟩ : BufTy).Contents (Elt F) → (⟨S262144, .i32⟩ : BufTy).Contents (Elt F)),
    ternary main_v103 main_v105 main_arg1 main_v106 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v106 main_v107 (broadcastInDim S262144x1 ![0] bcast_S262144_S262144x1_0 : (⟨S262144, .i32⟩ : BufTy).Contents (Elt F) → (⟨S262144x1, .i32⟩ : BufTy).Contents (Elt F)),
    binary main_v101 main_v107 main_v108 ((fun x i => Host.gather gather_S8192x128_S262144x1_S262144x128_1_0_n_n_0_1_1128 x i) : (⟨S8192x128, .f32⟩ : BufTy).Contents (Elt F) → (⟨S262144x1, .i32⟩ : BufTy).Contents (Elt F) → (⟨S262144x128, .f32⟩ : BufTy).Contents (Elt F)),
    binary main_v81 main_v108 main_v109 (addf : (⟨S262144x128, .f32⟩ : BufTy).Contents (Elt F) → (⟨S262144x128, .f32⟩ : BufTy).Contents (Elt F) → (⟨S262144x128, .f32⟩ : BufTy).Contents (Elt F)),
    TRef.nullary main_call2.cst (constant S_ .f32 0x00000000#32),
    TRef.unary main_call2.cst main_call2.v0 (broadcastInDim S262144x128 ![] bcast_S_S262144x128),
    TRef.binary (.of main_v109 : TRef sig ⟨S262144x128, .f32⟩) main_call2.v0 main_call2.v1 (cmpf .ogt),
    TRef.nullary main_call2.cst_0 (constant S_ .f32 0x00000000#32),
    TRef.unary main_call2.cst_0 main_call2.v2 (broadcastInDim S262144x128 ![] bcast_S_S262144x128),
    TRef.binary (.of main_v109 : TRef sig ⟨S262144x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S262144x128 ![] bcast_S_S262144x128),
    TRef.ternary main_call2.v3 main_call2.call0.v1 (.of main_v109 : TRef sig ⟨S262144x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S262144x128 ![] bcast_S_S262144x128),
    TRef.binary main_call2.v6 main_call2.v5 main_call2.v7 mulf,
    TRef.ternary main_call2.v1 (.of main_v109 : TRef sig ⟨S262144x128, .f32⟩) main_call2.v7 main_call2.call1.v0 select ]

/-- Each operation touches TensorCore references only. -/
theorem opsL2_sub : (opsL2 : List (HloOp τ sig (Elt F))).Forall fun op => op.bufs ⊆ tcRefs τ sig :=
  ⟨unary_bufs_sub .., reshape_bufs_sub .., binary_bufs_sub .., unary_bufs_sub .., reshape_bufs_sub .., unary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- The head: the segment mean of the last activation, `·W_f1 + b_f1`, @relu's three statements (the maximum with a
    broadcast zero), `·W_f2 + b_f2`: 27 operations; the program's result is `main_v131`. -/
abbrev opsH : List (HloOp τ sig (Elt F)) :=
  [ nullary main_cst_16 (constant S_ .f32 0x00000000#32),
    unary main_cst_16 main_v111 (broadcastInDim S8192x128 ![] bcast_S_S8192x128 : (⟨S_, .f32⟩ : BufTy).Contents (Elt F) → (⟨S8192x128, .f32⟩ : BufTy).Contents (Elt F)),
    unary main_arg1 main_v112 (broadcastInDim S262144x1 ![0] bcast_S262144_S262144x1_0 : (⟨S262144, .i32⟩ : BufTy).Contents (Elt F) → (⟨S262144x1, .i32⟩ : BufTy).Contents (Elt F)),
    ternary main_v111 main_v112 main_v110 main_v113 ((fun x i u => Host.scatterAdd scatter_S8192x128_S262144x1_S262144x128_1_0_0_1 x i u) : (⟨S8192x128, .f32⟩ : BufTy).Contents (Elt F) → (⟨S262144x1, .i32⟩ : BufTy).Contents (Elt F) → (⟨S262144x128, .f32⟩ : BufTy).Contents (Elt F) → (⟨S8192x128, .f32⟩ : BufTy).Contents (Elt F)),
    nullary main_cst_17 (constant S_ .f32 0x3F800000#32),
    unary main_cst_17 main_v114 (broadcastInDim S262144 ![] bcast_S_S262144 : (⟨S_, .f32⟩ : BufTy).Contents (Elt F) → (⟨S262144, .f32⟩ : BufTy).Contents (Elt F)),
    nullary main_cst_18 (constant S_ .f32 0x00000000#32),
    unary main_cst_18 main_v115 (broadcastInDim S8192 ![] bcast_S_S8192 : (⟨S_, .f32⟩ : BufTy).Contents (Elt F) → (⟨S8192, .f32⟩ : BufTy).Contents (Elt F)),
    unary main_arg1 main_v116 (broadcastInDim S262144x1 ![0] bcast_S262144_S262144x1_0 : (⟨S262144, .i32⟩ : BufTy).Contents (Elt F) → (⟨S262144x1, .i32⟩ : BufTy).Contents (Elt F)),
    ternary main_v115 main_v116 main_v114 main_v117 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    nullary main_cst_19 (constant S_ .f32 0x3F800000#32),
    unary main_cst_19 main_v118 (broadcastInDim S8192 ![] bcast_S_S8192 : (⟨S_, .f32⟩ : BufTy).Contents (Elt F) → (⟨S8192, .f32⟩ : BufTy).Contents (Elt F)),
    binary main_v117 main_v118 main_v119 (maximumf : (⟨S8192, .f32⟩ : BufTy).Contents (Elt F) → (⟨S8192, .f32⟩ : BufTy).Contents (Elt F) → (⟨S8192, .f32⟩ : BufTy).Contents (Elt F)),
    unary main_v119 main_v120 (broadcastInDim S8192x1 ![0] bcast_S8192_S8192x1_0 : (⟨S8192, .f32⟩ : BufTy).Contents (Elt F) → (⟨S8192x1, .f32⟩ : BufTy).Contents (Elt F)),
    unary main_v120 main_v121 (broadcastInDim S8192x128 ![0, 1] bcast_S8192x1_S8192x128_0_1 : (⟨S8192x1, .f32⟩ : BufTy).Contents (Elt F) → (⟨S8192x128, .f32⟩ : BufTy).Contents (Elt F)),
    binary main_v113 main_v121 main_v122 (Host.divf : (⟨S8192x128, .f32⟩ : BufTy).Contents (Elt F) → (⟨S8192x128, .f32⟩ : BufTy).Contents (Elt F) → (⟨S8192x128, .f32⟩ : BufTy).Contents (Elt F)),
    binary main_v122 main_arg6 main_v123 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    unary main_arg7 main_v124 (broadcastInDim S1x256 ![1] bcast_S256_S1x256_1 : (⟨S256, .f32⟩ : BufTy).Contents (Elt F) → (⟨S1x256, .f32⟩ : BufTy).Contents (Elt F)),
    unary main_v124 main_v125 (broadcastInDim S8192x256 ![0, 1] bcast_S1x256_S8192x256_0_1 : (⟨S1x256, .f32⟩ : BufTy).Contents (Elt F) → (⟨S8192x256, .f32⟩ : BufTy).Contents (Elt F)),
    binary main_v123 main_v125 main_v126 (addf : (⟨S8192x256, .f32⟩ : BufTy).Contents (Elt F) → (⟨S8192x256, .f32⟩ : BufTy).Contents (Elt F) → (⟨S8192x256, .f32⟩ : BufTy).Contents (Elt F)),
    TRef.nullary main_call3.cst (constant S_ .f32 0x00000000#32),
    TRef.unary main_call3.cst main_call3.v0 (broadcastInDim S8192x256 ![] bcast_S_S8192x256),
    TRef.binary (.of main_v126 : TRef sig ⟨S8192x256, .f32⟩) main_call3.v0 main_call3.v1 maximumf,
    binary main_v127 main_arg8 main_v128 ((fun l r => Host.dotGeneral dot_S8192x256_S256x10_S8192x10_1_0_0_1_n_n none l r) : (⟨S8192x256, .f32⟩ : BufTy).Contents (Elt F) → (⟨S256x10, .f32⟩ : BufTy).Contents (Elt F) → (⟨S8192x10, .f32⟩ : BufTy).Contents (Elt F)),
    unary main_arg9 main_v129 (broadcastInDim S1x10 ![1] bcast_S10_S1x10_1 : (⟨S10, .f32⟩ : BufTy).Contents (Elt F) → (⟨S1x10, .f32⟩ : BufTy).Contents (Elt F)),
    unary main_v129 main_v130 (broadcastInDim S8192x10 ![0, 1] bcast_S1x10_S8192x10_0_1 : (⟨S1x10, .f32⟩ : BufTy).Contents (Elt F) → (⟨S8192x10, .f32⟩ : BufTy).Contents (Elt F)),
    binary main_v128 main_v130 main_v131 (addf : (⟨S8192x10, .f32⟩ : BufTy).Contents (Elt F) → (⟨S8192x10, .f32⟩ : BufTy).Contents (Elt F) → (⟨S8192x10, .f32⟩ : BufTy).Contents (Elt F)) ]

/-- Each operation touches TensorCore references only. -/
theorem opsH_sub : (opsH : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub ..⟩

/-- @main's 198 operations, in order: the three layers, then the head. -/
abbrev ops : List (HloOp τ sig (Elt F)) := opsL0 ++ opsL1 ++ opsL2 ++ opsH

/-- The fold over a concatenation is the folds composed. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 4096 in
set_option maxHeartbeats 4000000 in
/-- @main is that straight line: the windows in order, the functions' definitions unfolded at their calls, are one
    chain of `hlo` steps once sequencing is reassociated. -/
theorem main_eq (c : Dev nD) : main (F := F) c = seq ops := by
  simp only [main, main_part0, main_part1, main_part2, fn_elu.body, fn_where.body, fn_where_0.body, fn_relu.body, seq,
    List.cons_append, List.nil_append, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- `List.Forall` over a concatenation, from its two halves. -/
theorem forall_append {α : Type} {p : α → Prop} : ∀ {l₁ l₂ : List α}, l₁.Forall p → l₂.Forall p → (l₁ ++ l₂).Forall p := by
  intro l₁ l₂ h₁ h₂
  rw [List.forall_iff_forall_mem] at h₁ h₂ ⊢
  intro x hx
  rcases List.mem_append.mp hx with h | h
  · exact h₁ x h
  · exact h₂ x h

/-- Each of the 198 touches TensorCore references only. -/
theorem ops_sub : (ops : List (HloOp τ sig (Elt F))).Forall fun op => op.bufs ⊆ tcRefs τ sig :=
  forall_append (forall_append (forall_append opsL0_sub opsL1_sub) opsL2_sub) opsH_sub

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RTerms.lean ====
/-
  The values of the reference program, as functions of the arrays they are computed from: the segment mean, the
  per-segment feature, the slices of the stacked weights, the (clamping) gather back to the rows, ELU as this program
  spells it, one whole layer, and the head.
-/
import proofs.«424086_j12352325943915_1_alg».proof.Proof.Gen.ReferenceIdeal

noncomputable section

namespace Cert.ReferenceIdeal.Val

open Cert.ReferenceIdeal Cert.ReferenceIdeal.Gen Idealize.ShloMosaic

variable {F : FTy → Type} [FloatOps F]

/-- The segment mean of the rows of h: the exact sum of the rows landing on each segment, over that segment's row
    count raised to at least one. -/
def segMean (h : FVec F S262144x128 .f32) (idx : IVec S262144 32) : FVec F S8192x128 .f32 :=
  Host.divf
    (Host.scatterAdd scatter_S8192x128_S262144x1_S262144x128_1_0_0_1
      (broadcastInDim S8192x128 ![] bcast_S_S8192x128 (constant S_ .f32 0x00000000#32))
      (broadcastInDim S262144x1 ![0] bcast_S262144_S262144x1_0 idx) h)
    (broadcastInDim S8192x128 ![0, 1] bcast_S8192x1_S8192x128_0_1
      (broadcastInDim S8192x1 ![0] bcast_S8192_S8192x1_0
        (maximumf
          (Host.scatterAdd scatter_S8192_S262144x1_S262144_n_0_0_1
            (broadcastInDim S8192 ![] bcast_S_S8192 (constant S_ .f32 0x00000000#32))
            (broadcastInDim S262144x1 ![0] bcast_S262144_S262144x1_0 idx)
            (broadcastInDim S262144 ![] bcast_S_S262144 (constant S_ .f32 0x3F800000#32)))
          (broadcastInDim S8192 ![] bcast_S_S8192 (constant S_ .f32 0x3F800000#32)))))

/-- The per-segment feature: (segment mean of h) · Wm + bv, bv along every row. -/
def segFeat (h : FVec F S262144x128 .f32) (idx : IVec S262144 32) (Wm : FVec F S128x128 .f32) (bv : FVec F S128 .f32) :
    FVec F S8192x128 .f32 :=
  addf (Host.dotGeneral dot_S8192x128_S128x128_S8192x128_1_0_0_1_n_n none (segMean h idx) Wm)
    (broadcastInDim S8192x128 ![0, 1] bcast_S1x128_S8192x128_0_1 (broadcastInDim S1x128 ![1] bcast_S128_S1x128_1 bv))

/-- Matrix i of a stack of three 128×128 matrices. -/
def mat0 (a : FVec F S3x128x128 .f32) : FVec F S128x128 .f32 :=
  shapeCast S128x128 (extractStridedSlice S1x128x128 ![0, 0, 0] a slices_S3x128x128_S1x128x128_0_0_0) shapeCasts_S1x128x128_S128x128
def mat1 (a : FVec F S3x128x128 .f32) : FVec F S128x128 .f32 :=
  shapeCast S128x128 (extractStridedSlice S1x128x128 ![1, 0, 0] a slices_S3x128x128_S1x128x128_1_0_0) shapeCasts_S1x128x128_S128x128
def mat2 (a : FVec F S3x128x128 .f32) : FVec F S128x128 .f32 :=
  shapeCast S128x128 (extractStridedSlice S1x128x128 ![2, 0, 0] a slices_S3x128x128_S1x128x128_2_0_0) shapeCasts_S1x128x128_S128x128
/-- Row i of a stack of three 128-vectors. -/
def vec0 (a : FVec F S3x128 .f32) : FVec F S128 .f32 :=
  shapeCast S128 (extractStridedSlice S1x128 ![0, 0] a slices_S3x128_S1x128_0_0) shapeCasts_S1x128_S128
def vec1 (a : FVec F S3x128 .f32) : FVec F S128 .f32 :=
  shapeCast S128 (extractStridedSlice S1x128 ![1, 0] a slices_S3x128_S1x128_1_0) shapeCasts_S1x128_S128
def vec2 (a : FVec F S3x128 .f32) : FVec F S128 .f32 :=
  shapeCast S128 (extractStridedSlice S1x128 ![2, 0] a slices_S3x128_S1x128_2_0) shapeCasts_S1x128_S128

/-- A row's segment id with a negative id moved up by the number of segments. -/
def normIdx (idx : IVec S262144 32) : IVec S262144 32 :=
  select (cmpi .slt idx (broadcastInDim S262144 ![] bcast_S_S262144 (constantI S_ 32 0#32)))
    (addi idx (broadcastInDim S262144 ![] bcast_S_S262144 (constantI S_ 32 8192#32))) idx

/-- Row n of the result is the row of x named by row n's (moved-up) segment id, clamped into the table. -/
def gath (x : FVec F S8192x128 .f32) (idx : IVec S262144 32) : FVec F S262144x128 .f32 :=
  Host.gather gather_S8192x128_S262144x1_S262144x128_1_0_n_n_0_1_1128 x
    (broadcastInDim S262144x1 ![0] bcast_S262144_S262144x1_0 (normIdx idx))

/-- ELU as the reference spells it: x where x > 0, else 1 · expm1 of (0 where x > 0, else x). -/
def eluV (x : FVec F S262144x128 .f32) : FVec F S262144x128 .f32 :=
  select (cmpf .ogt x (broadcastInDim S262144x128 ![] bcast_S_S262144x128 (constant S_ .f32 0x00000000#32))) x
    (mulf (broadcastInDim S262144x128 ![] bcast_S_S262144x128 (constant S_ .f32 0x3F800000#32))
      (Host.expm1
        (select (cmpf .ogt x (broadcastInDim S262144x128 ![] bcast_S_S262144x128 (constant S_ .f32 0x00000000#32)))
          (broadcastInDim S262144x128 ![] bcast_S_S262144x128 (id (constant S_ .f32 0x00000000#32))) x)))

/-- One layer: ELU(h · Wfc + bfc + the per-segment feature gathered back to the rows). -/
def layer (h : FVec F S262144x128 .f32) (idx : IVec S262144 32) (Wfc : FVec F S128x128 .f32) (bfc : FVec F S128 .f32)
    (Wsum : FVec F S128x128 .f32) (bsum : FVec F S128 .f32) : FVec F S262144x128 .f32 :=
  eluV (addf
    (addf (Host.dotGeneral dot_S262144x128_S128x128_S262144x128_1_0_0_1_n_n none h Wfc)
      (broadcastInDim S262144x128 ![0, 1] bcast_S1x128_S262144x128_0_1 (broadcastInDim S1x128 ![1] bcast_S128_S1x128_1 bfc)))
    (gath (segFeat h idx Wsum bsum) idx))

/-- The head on the segment means G: relu(G · W1 + b1) · W2 + b2. -/
def head (G : FVec F S8192x128 .f32) (W1 : FVec F S128x256 .f32) (b1 : FVec F S256 .f32) (W2 : FVec F S256x10 .f32)
    (b2 : FVec F S10 .f32) : FVec F S8192x10 .f32 :=
  addf
    (Host.dotGeneral dot_S8192x256_S256x10_S8192x10_1_0_0_1_n_n none
      (maximumf
        (addf (Host.dotGeneral dot_S8192x128_S128x256_S8192x256_1_0_0_1_n_n none G W1)
          (broadcastInDim S8192x256 ![0, 1] bcast_S1x256_S8192x256_0_1 (broadcastInDim S1x256 ![1] bcast_S256_S1x256_1 b1)))
        (broadcastInDim S8192x256 ![] bcast_S_S8192x256 (constant S_ .f32 0x00000000#32)))
      W2)
    (broadcastInDim S8192x10 ![0, 1] bcast_S1x10_S8192x10_0_1 (broadcastInDim S1x10 ![1] bcast_S10_S1x10_1 b2))

/-- The whole program's result from its ten arguments. -/
def out (a0 : FVec F S262144x128 .f32) (a1 : IVec S262144 32) (a2 : FVec F S3x128x128 .f32) (a3 : FVec F S3x128 .f32)
    (a4 : FVec F S3x128x128 .f32) (a5 : FVec F S3x128 .f32) (a6 : FVec F S128x256 .f32) (a7 : FVec F S256 .f32)
    (a8 : FVec F S256x10 .f32) (a9 : FVec F S10 .f32) : FVec F S8192x10 .f32 :=
  head (segMean
    (layer (layer (layer a0 a1 (mat0 a2) (vec0 a3) (mat0 a4) (vec0 a5)) a1 (mat1 a2) (vec1 a3) (mat1 a4) (vec1 a5))
      a1 (mat2 a2) (vec2 a3) (mat2 a4) (vec2 a5)) a1) a6 a7 a8 a9

end Cert.ReferenceIdeal.Val

end
-- ==== Proof.RefValue.lean ====
/-
  What the reference program's four stages compute, and its result as one function of its ten arguments.

  Each stage list of the reference's run is read back at its result buffer: a layer's list leaves in the layer's
  activation buffer the layer function of the previous activation, the segment ids and the layer's slices of the stacked
  weights; the head's list leaves in the result buffer the head function of the last activation's segment mean. A stage
  writes only its own values' buffers, so every other buffer — the arguments, the earlier activations — is as it was.
  Composed along the run (the fold over a concatenation is the folds composed), the program's result is
  `Val.out` of the ten arguments and the arguments end as launched.
-/
import proofs.«424086_j12352325943915_1_alg».proof.Proof.RefRun
import proofs.«424086_j12352325943915_1_alg».proof.Proof.RTerms

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

local notation "D" => Proc.devRef (τ := τ) (sig := sig) Proc.tc

/-! ## What a stage leaves alone

A stage's operations each write one buffer; a reference that is none of those keeps its contents through the stage. -/

/-- An operation writing the one buffer `y`, a member of the list `W`, writes inside `W`. -/
theorem writes_sub {W : List (Ref sig .tc)} {op : HloOp τ sig (Elt F)} (y : Ref sig .tc)
    (hw : op.writes = {D y}) (hy : y ∈ W) : op.writes ⊆ (W.map (Proc.devRef (τ := τ) .tc)).toFinset := by
  rw [hw, Finset.singleton_subset_iff, List.mem_toFinset]
  exact List.mem_map.mpr ⟨y, hy, rfl⟩

/-- The references opsL0 writes, in order. -/
abbrev wL0 : List (Ref sig .tc) :=
  [ main_v0, main_v1, main_v2, main_v3, main_v4, main_v5, main_v6, main_v7,
    main_cst, main_v8, main_v9, main_v10, main_cst_0, main_v11, main_cst_1, main_v12,
    main_v13, main_v14, main_cst_2, main_v15, main_v16, main_v17, main_v18, main_v19,
    main_v20, main_v21, main_v22, main_v23, main_v24, main_v25, main_v26, main_v27,
    main_c, main_v28, main_v29, main_c_3, main_v30, main_v31, main_v32, main_v33,
    main_v34, main_v35, main_call0.cst.ref, main_call0.v0.ref, main_call0.v1.ref, main_call0.cst_0.ref, main_call0.v2.ref, main_call0.v3.ref,
    main_call0.cst_1.ref, main_call0.call0.v0.ref, main_call0.call0.v1.ref, main_call0.call0.v2.ref, main_call0.v5.ref, main_call0.cst_2.ref, main_call0.v6.ref, main_call0.v7.ref,
    main_call0.call1.v0.ref ]

theorem opsL0_writes : (opsL0 : List (HloOp τ sig (Elt F))).Forall fun op => op.writes ⊆ (wL0.map (Proc.devRef (τ := τ) .tc)).toFinset :=
  ⟨writes_sub main_v0 rfl (by decide), writes_sub main_v1 rfl (by decide), writes_sub main_v2 rfl (by decide),
    writes_sub main_v3 rfl (by decide), writes_sub main_v4 rfl (by decide), writes_sub main_v5 rfl (by decide),
    writes_sub main_v6 rfl (by decide), writes_sub main_v7 rfl (by decide), writes_sub main_cst rfl (by decide),
    writes_sub main_v8 rfl (by decide), writes_sub main_v9 rfl (by decide), writes_sub main_v10 rfl (by decide),
    writes_sub main_cst_0 rfl (by decide), writes_sub main_v11 rfl (by decide), writes_sub main_cst_1 rfl (by decide),
    writes_sub main_v12 rfl (by decide), writes_sub main_v13 rfl (by decide), writes_sub main_v14 rfl (by decide),
    writes_sub main_cst_2 rfl (by decide), writes_sub main_v15 rfl (by decide), writes_sub main_v16 rfl (by decide),
    writes_sub main_v17 rfl (by decide), writes_sub main_v18 rfl (by decide), writes_sub main_v19 rfl (by decide),
    writes_sub main_v20 rfl (by decide), writes_sub main_v21 rfl (by decide), writes_sub main_v22 rfl (by decide),
    writes_sub main_v23 rfl (by decide), writes_sub main_v24 rfl (by decide), writes_sub main_v25 rfl (by decide),
    writes_sub main_v26 rfl (by decide), writes_sub main_v27 rfl (by decide), writes_sub main_c rfl (by decide),
    writes_sub main_v28 rfl (by decide), writes_sub main_v29 rfl (by decide), writes_sub main_c_3 rfl (by decide),
    writes_sub main_v30 rfl (by decide), writes_sub main_v31 rfl (by decide), writes_sub main_v32 rfl (by decide),
    writes_sub main_v33 rfl (by decide), writes_sub main_v34 rfl (by decide), writes_sub main_v35 rfl (by decide),
    writes_sub main_call0.cst.ref rfl (by decide), writes_sub main_call0.v0.ref rfl (by decide), writes_sub main_call0.v1.ref rfl (by decide),
    writes_sub main_call0.cst_0.ref rfl (by decide), writes_sub main_call0.v2.ref rfl (by decide), writes_sub main_call0.v3.ref rfl (by decide),
    writes_sub main_call0.cst_1.ref rfl (by decide), writes_sub main_call0.call0.v0.ref rfl (by decide), writes_sub main_call0.call0.v1.ref rfl (by decide),
    writes_sub main_call0.call0.v2.ref rfl (by decide), writes_sub main_call0.v5.ref rfl (by decide), writes_sub main_call0.cst_2.ref rfl (by decide),
    writes_sub main_call0.v6.ref rfl (by decide), writes_sub main_call0.v7.ref rfl (by decide), writes_sub main_call0.call1.v0.ref rfl (by decide)⟩

/-- The references opsL1 writes, in order. -/
abbrev wL1 : List (Ref sig .tc) :=
  [ main_v37, main_v38, main_v39, main_v40, main_v41, main_v42, main_v43, main_v44,
    main_cst_4, main_v45, main_v46, main_v47, main_cst_5, main_v48, main_cst_6, main_v49,
    main_v50, main_v51, main_cst_7, main_v52, main_v53, main_v54, main_v55, main_v56,
    main_v57, main_v58, main_v59, main_v60, main_v61, main_v62, main_v63, main_v64,
    main_c_8, main_v65, main_v66, main_c_9, main_v67, main_v68, main_v69, main_v70,
    main_v71, main_v72, main_call1.cst.ref, main_call1.v0.ref, main_call1.v1.ref, main_call1.cst_0.ref, main_call1.v2.ref, main_call1.v3.ref,
    main_call1.cst_1.ref, main_call1.call0.v0.ref, main_call1.call0.v1.ref, main_call1.call0.v2.ref, main_call1.v5.ref, main_call1.cst_2.ref, main_call1.v6.ref, main_call1.v7.ref,
    main_call1.call1.v0.ref ]

theorem opsL1_writes : (opsL1 : List (HloOp τ sig (Elt F))).Forall fun op => op.writes ⊆ (wL1.map (Proc.devRef (τ := τ) .tc)).toFinset :=
  ⟨writes_sub main_v37 rfl (by decide), writes_sub main_v38 rfl (by decide), writes_sub main_v39 rfl (by decide),
    writes_sub main_v40 rfl (by decide), writes_sub main_v41 rfl (by decide), writes_sub main_v42 rfl (by decide),
    writes_sub main_v43 rfl (by decide), writes_sub main_v44 rfl (by decide), writes_sub main_cst_4 rfl (by decide),
    writes_sub main_v45 rfl (by decide), writes_sub main_v46 rfl (by decide), writes_sub main_v47 rfl (by decide),
    writes_sub main_cst_5 rfl (by decide), writes_sub main_v48 rfl (by decide), writes_sub main_cst_6 rfl (by decide),
    writes_sub main_v49 rfl (by decide), writes_sub main_v50 rfl (by decide), writes_sub main_v51 rfl (by decide),
    writes_sub main_cst_7 rfl (by decide), writes_sub main_v52 rfl (by decide), writes_sub main_v53 rfl (by decide),
    writes_sub main_v54 rfl (by decide), writes_sub main_v55 rfl (by decide), writes_sub main_v56 rfl (by decide),
    writes_sub main_v57 rfl (by decide), writes_sub main_v58 rfl (by decide), writes_sub main_v59 rfl (by decide),
    writes_sub main_v60 rfl (by decide), writes_sub main_v61 rfl (by decide), writes_sub main_v62 rfl (by decide),
    writes_sub main_v63 rfl (by decide), writes_sub main_v64 rfl (by decide), writes_sub main_c_8 rfl (by decide),
    writes_sub main_v65 rfl (by decide), writes_sub main_v66 rfl (by decide), writes_sub main_c_9 rfl (by decide),
    writes_sub main_v67 rfl (by decide), writes_sub main_v68 rfl (by decide), writes_sub main_v69 rfl (by decide),
    writes_sub main_v70 rfl (by decide), writes_sub main_v71 rfl (by decide), writes_sub main_v72 rfl (by decide),
    writes_sub main_call1.cst.ref rfl (by decide), writes_sub main_call1.v0.ref rfl (by decide), writes_sub main_call1.v1.ref rfl (by decide),
    writes_sub main_call1.cst_0.ref rfl (by decide), writes_sub main_call1.v2.ref rfl (by decide), writes_sub main_call1.v3.ref rfl (by decide),
    writes_sub main_call1.cst_1.ref rfl (by decide), writes_sub main_call1.call0.v0.ref rfl (by decide), writes_sub main_call1.call0.v1.ref rfl (by decide),
    writes_sub main_call1.call0.v2.ref rfl (by decide), writes_sub main_call1.v5.ref rfl (by decide), writes_sub main_call1.cst_2.ref rfl (by decide),
    writes_sub main_call1.v6.ref rfl (by decide), writes_sub main_call1.v7.ref rfl (by decide), writes_sub main_call1.call1.v0.ref rfl (by decide)⟩

/-- The references opsL2 writes, in order. -/
abbrev wL2 : List (Ref sig .tc) :=
  [ main_v74, main_v75, main_v76, main_v77, main_v78, main_v79, main_v80, main_v81,
    main_cst_10, main_v82, main_v83, main_v84, main_cst_11, main_v85, main_cst_12, main_v86,
    main_v87, main_v88, main_cst_13, main_v89, main_v90, main_v91, main_v92, main_v93,
    main_v94, main_v95, main_v96, main_v97, main_v98, main_v99, main_v100, main_v101,
    main_c_14, main_v102, main_v103, main_c_15, main_v104, main_v105, main_v106, main_v107,
    main_v108, main_v109, main_call2.cst.ref, main_call2.v0.ref, main_call2.v1.ref, main_call2.cst_0.ref, main_call2.v2.ref, main_call2.v3.ref,
    main_call2.cst_1.ref, main_call2.call0.v0.ref, main_call2.call0.v1.ref, main_call2.call0.v2.ref, main_call2.v5.ref, main_call2.cst_2.ref, main_call2.v6.ref, main_call2.v7.ref,
    main_call2.call1.v0.ref ]

theorem opsL2_writes : (opsL2 : List (HloOp τ sig (Elt F))).Forall fun op => op.writes ⊆ (wL2.map (Proc.devRef (τ := τ) .tc)).toFinset :=
  ⟨writes_sub main_v74 rfl (by decide), writes_sub main_v75 rfl (by decide), writes_sub main_v76 rfl (by decide),
    writes_sub main_v77 rfl (by decide), writes_sub main_v78 rfl (by decide), writes_sub main_v79 rfl (by decide),
    writes_sub main_v80 rfl (by decide), writes_sub main_v81 rfl (by decide), writes_sub main_cst_10 rfl (by decide),
    writes_sub main_v82 rfl (by decide), writes_sub main_v83 rfl (by decide), writes_sub main_v84 rfl (by decide),
    writes_sub main_cst_11 rfl (by decide), writes_sub main_v85 rfl (by decide), writes_sub main_cst_12 rfl (by decide),
    writes_sub main_v86 rfl (by decide), writes_sub main_v87 rfl (by decide), writes_sub main_v88 rfl (by decide),
    writes_sub main_cst_13 rfl (by decide), writes_sub main_v89 rfl (by decide), writes_sub main_v90 rfl (by decide),
    writes_sub main_v91 rfl (by decide), writes_sub main_v92 rfl (by decide), writes_sub main_v93 rfl (by decide),
    writes_sub main_v94 rfl (by decide), writes_sub main_v95 rfl (by decide), writes_sub main_v96 rfl (by decide),
    writes_sub main_v97 rfl (by decide), writes_sub main_v98 rfl (by decide), writes_sub main_v99 rfl (by decide),
    writes_sub main_v100 rfl (by decide), writes_sub main_v101 rfl (by decide), writes_sub main_c_14 rfl (by decide),
    writes_sub main_v102 rfl (by decide), writes_sub main_v103 rfl (by decide), writes_sub main_c_15 rfl (by decide),
    writes_sub main_v104 rfl (by decide), writes_sub main_v105 rfl (by decide), writes_sub main_v106 rfl (by decide),
    writes_sub main_v107 rfl (by decide), writes_sub main_v108 rfl (by decide), writes_sub main_v109 rfl (by decide),
    writes_sub main_call2.cst.ref rfl (by decide), writes_sub main_call2.v0.ref rfl (by decide), writes_sub main_call2.v1.ref rfl (by decide),
    writes_sub main_call2.cst_0.ref rfl (by decide), writes_sub main_call2.v2.ref rfl (by decide), writes_sub main_call2.v3.ref rfl (by decide),
    writes_sub main_call2.cst_1.ref rfl (by decide), writes_sub main_call2.call0.v0.ref rfl (by decide), writes_sub main_call2.call0.v1.ref rfl (by decide),
    writes_sub main_call2.call0.v2.ref rfl (by decide), writes_sub main_call2.v5.ref rfl (by decide), writes_sub main_call2.cst_2.ref rfl (by decide),
    writes_sub main_call2.v6.ref rfl (by decide), writes_sub main_call2.v7.ref rfl (by decide), writes_sub main_call2.call1.v0.ref rfl (by decide)⟩

/-- The references opsH writes, in order. -/
abbrev wH : List (Ref sig .tc) :=
  [ main_cst_16, main_v111, main_v112, main_v113, main_cst_17, main_v114, main_cst_18, main_v115,
    main_v116, main_v117, main_cst_19, main_v118, main_v119, main_v120, main_v121, main_v122,
    main_v123, main_v124, main_v125, main_v126, main_call3.cst.ref, main_call3.v0.ref, main_call3.v1.ref, main_v128,
    main_v129, main_v130, main_v131 ]

theorem opsH_writes : (opsH : List (HloOp τ sig (Elt F))).Forall fun op => op.writes ⊆ (wH.map (Proc.devRef (τ := τ) .tc)).toFinset :=
  ⟨writes_sub main_cst_16 rfl (by decide), writes_sub main_v111 rfl (by decide), writes_sub main_v112 rfl (by decide),
    writes_sub main_v113 rfl (by decide), writes_sub main_cst_17 rfl (by decide), writes_sub main_v114 rfl (by decide),
    writes_sub main_cst_18 rfl (by decide), writes_sub main_v115 rfl (by decide), writes_sub main_v116 rfl (by decide),
    writes_sub main_v117 rfl (by decide), writes_sub main_cst_19 rfl (by decide), writes_sub main_v118 rfl (by decide),
    writes_sub main_v119 rfl (by decide), writes_sub main_v120 rfl (by decide), writes_sub main_v121 rfl (by decide),
    writes_sub main_v122 rfl (by decide), writes_sub main_v123 rfl (by decide), writes_sub main_v124 rfl (by decide),
    writes_sub main_v125 rfl (by decide), writes_sub main_v126 rfl (by decide), writes_sub main_call3.cst.ref rfl (by decide),
    writes_sub main_call3.v0.ref rfl (by decide), writes_sub main_call3.v1.ref rfl (by decide), writes_sub main_v128 rfl (by decide),
    writes_sub main_v129 rfl (by decide), writes_sub main_v130 rfl (by decide), writes_sub main_v131 rfl (by decide)⟩

/-- A reference layer 0 does not write keeps its contents through it. -/
theorem keepL0 (V : Valuation τ sig (Elt F)) (r : Ref sig .tc) (hr : r ∉ wL0) : after opsL0 V (D r) = V (D r) :=
  after_of_writes_sub opsL0 V opsL0_writes hr
/-- A reference layer 1 does not write keeps its contents through it. -/
theorem keepL1 (V : Valuation τ sig (Elt F)) (r : Ref sig .tc) (hr : r ∉ wL1) : after opsL1 V (D r) = V (D r) :=
  after_of_writes_sub opsL1 V opsL1_writes hr
/-- A reference layer 2 does not write keeps its contents through it. -/
theorem keepL2 (V : Valuation τ sig (Elt F)) (r : Ref sig .tc) (hr : r ∉ wL2) : after opsL2 V (D r) = V (D r) :=
  after_of_writes_sub opsL2 V opsL2_writes hr
/-- A reference the head does not write keeps its contents through it. -/
theorem keepH (V : Valuation τ sig (Elt F)) (r : Ref sig .tc) (hr : r ∉ wH) : after opsH V (D r) = V (D r) :=
  after_of_writes_sub opsH V opsH_writes hr

/-! ## The stages at their result buffers

The fold unrolled, each operation's result at its own buffer is its function's value and at any other reference what
was there; what is left at the stage's result buffer is the composed term of the buffers the stage reads, which is the
stage's function by unfolding its definition. -/

set_option maxRecDepth 16384 in
set_option maxHeartbeats 4000000 in
/-- Layer 0 leaves in `main_v36` the layer function of the input features, the segment ids and the first slices. -/
theorem stageL0 (V : Valuation τ sig (Elt F)) :
    after opsL0 V (D main_v36) = Val.layer (V (D main_arg0)) (V (D main_arg1)) (Val.mat0 (V (D main_arg2))) (Val.vec0 (V (D main_arg3)))
      (Val.mat0 (V (D main_arg4))) (Val.vec0 (V (D main_arg5))) := by
  after_results_simp
  rfl

set_option maxRecDepth 16384 in
set_option maxHeartbeats 4000000 in
/-- Layer 1 leaves in `main_v73` the layer function of layer 0's activation, the segment ids and the second slices. -/
theorem stageL1 (V : Valuation τ sig (Elt F)) :
    after opsL1 V (D main_v73) = Val.layer (V (D main_v36)) (V (D main_arg1)) (Val.mat1 (V (D main_arg2))) (Val.vec1 (V (D main_arg3)))
      (Val.mat1 (V (D main_arg4))) (Val.vec1 (V (D main_arg5))) := by
  after_results_simp
  rfl

set_option maxRecDepth 16384 in
set_option maxHeartbeats 4000000 in
/-- Layer 2 leaves in `main_v110` the layer function of layer 1's activation, the segment ids and the third slices. -/
theorem stageL2 (V : Valuation τ sig (Elt F)) :
    after opsL2 V (D main_v110) = Val.layer (V (D main_v73)) (V (D main_arg1)) (Val.mat2 (V (D main_arg2))) (Val.vec2 (V (D main_arg3)))
      (Val.mat2 (V (D main_arg4))) (Val.vec2 (V (D main_arg5))) := by
  after_results_simp
  rfl

set_option maxRecDepth 16384 in
set_option maxHeartbeats 4000000 in
/-- The head leaves in `main_v131` the head function of the segment mean of layer 2's activation. -/
theorem stageH (V : Valuation τ sig (Elt F)) :
    after opsH V (D main_v131) = Val.head (Val.segMean (V (D main_v110)) (V (D main_arg1))) (V (D main_arg6)) (V (D main_arg7))
      (V (D main_arg8)) (V (D main_arg9)) := by
  after_results_simp
  rfl

/-! ## The whole run -/

/-- The run's fold is the four stages' folds composed. -/
theorem after_ops (V : Valuation τ sig (Elt F)) : after ops V = after opsH (after opsL2 (after opsL1 (after opsL0 V))) := by
  show after (((opsL0 ++ opsL1) ++ opsL2) ++ opsH) V = _
  rw [after_append, after_append, after_append]

/-- A reference no stage writes keeps its contents through the whole run. -/
theorem keep (V : Valuation τ sig (Elt F)) (r : Ref sig .tc) (h0 : r ∉ wL0) (h1 : r ∉ wL1) (h2 : r ∉ wL2) (h3 : r ∉ wH) :
    after ops V (D r) = V (D r) := by
  rw [after_ops, keepH _ r h3, keepL2 _ r h2, keepL1 _ r h1, keepL0 _ r h0]

/-- The program's result is `Val.out` of its ten arguments: the head of the segment mean of the third layer of the
    second of the first, every stage reading the arguments as launched. -/
theorem result_eq (V : Valuation τ sig (Elt F)) :
    after ops V (D main_v131) = Val.out (V (D main_arg0)) (V (D main_arg1)) (V (D main_arg2)) (V (D main_arg3)) (V (D main_arg4))
      (V (D main_arg5)) (V (D main_arg6)) (V (D main_arg7)) (V (D main_arg8)) (V (D main_arg9)) := by
  rw [after_ops, stageH, stageL2, stageL1, stageL0]
  rw [keepL2 _ main_arg1 (by decide), keepL2 _ main_arg6 (by decide), keepL2 _ main_arg7 (by decide), keepL2 _ main_arg8 (by decide),
    keepL2 _ main_arg9 (by decide),
    keepL1 _ main_arg1 (by decide), keepL1 _ main_arg2 (by decide), keepL1 _ main_arg3 (by decide), keepL1 _ main_arg4 (by decide),
    keepL1 _ main_arg5 (by decide), keepL1 _ main_arg6 (by decide), keepL1 _ main_arg7 (by decide), keepL1 _ main_arg8 (by decide),
    keepL1 _ main_arg9 (by decide),
    keepL0 _ main_arg1 (by decide), keepL0 _ main_arg2 (by decide), keepL0 _ main_arg3 (by decide), keepL0 _ main_arg4 (by decide),
    keepL0 _ main_arg5 (by decide), keepL0 _ main_arg6 (by decide), keepL0 _ main_arg7 (by decide), keepL0 _ main_arg8 (by decide),
    keepL0 _ main_arg9 (by decide)]
  rfl

/-- At the compiled mesh, for any float values, from any memory with zero counters: every weakly fair execution of
    @main terminates with the result buffer at `Val.out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v131) = Val.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v131).trans (result_eq _),
      (h c main_arg0).trans (keep _ main_arg0 (by decide) (by decide) (by decide) (by decide)),
      (h c main_arg1).trans (keep _ main_arg1 (by decide) (by decide) (by decide) (by decide)),
      (h c main_arg2).trans (keep _ main_arg2 (by decide) (by decide) (by decide) (by decide)),
      (h c main_arg3).trans (keep _ main_arg3 (by decide) (by decide) (by decide) (by decide)),
      (h c main_arg4).trans (keep _ main_arg4 (by decide) (by decide) (by decide) (by decide)),
      (h c main_arg5).trans (keep _ main_arg5 (by decide) (by decide) (by decide) (by decide)),
      (h c main_arg6).trans (keep _ main_arg6 (by decide) (by decide) (by decide) (by decide)),
      (h c main_arg7).trans (keep _ main_arg7 (by decide) (by decide) (by decide) (by decide)),
      (h c main_arg8).trans (keep _ main_arg8 (by decide) (by decide) (by decide) (by decide)),
      (h c main_arg9).trans (keep _ main_arg9 (by decide) (by decide) (by decide) (by decide))⟩)
    (run_main m ρ)

end Cert.ReferenceIdeal.Run

end
-- ==== Proof.Live.lean ====
/-
  Live rows. A row is live when its segment id, read signed, names one of the 8192 segments. On a live row the guarded
  gather is the plain gather; the segment sum only ever adds live rows, so two feature arrays that agree on the live
  rows have the same segment mean and the same per-segment feature.
-/
import proofs.«424086_j12352325943915_1_alg».proof.Proof.KTerms
import proofs.«424086_j12352325943915_1_alg».proof.Proof.Spec
import Idealize.ShloMosaic.Lib.ValueIdx
import Idealize.ShloMosaic.Lib.ValueLayout
import Idealize.ShloMosaic.Lib.Pipeline.Value
import Idealize.ShloMosaic.PureOps.Reduce

noncomputable section

namespace Cert.KernelIdeal.Val

open Cert.KernelIdeal Cert.KernelIdeal.Gen Idealize.ShloMosaic Idealize.ShloMosaic.ValueIdx

/-! ## A vector as a one-row matrix -/

theorem row128_apply (v : FVec Ideal S128 .f32) (k : Fin 128) : row128 v (ix2 0 k) = v (ix1 k) :=
  shapeCast_a_1a_apply v _ 0 k

theorem row256_apply (v : FVec Ideal S256 .f32) (q : Fin 256) : row256 v (ix2 0 q) = v (ix1 q) :=
  shapeCast_a_1a_apply v _ 0 q

theorem row10_apply (v : FVec Ideal S10 .f32) (t : Fin 10) : row10 v (ix2 0 t) = v (ix1 t) :=
  shapeCast_a_1a_apply v _ 0 t

/-! ## Signed compares of a 32-bit word against 0 and 8191 -/

theorem cmpi_slt_zero {a : BitVec 32} (h : 0 ≤ a.toInt) : IntOp.cmpi .slt a 0#32 = 0#1 := by
  have z : (0#32).toInt = 0 := by decide
  have hs : a.slt 0#32 = false := by
    unfold BitVec.slt
    exact decide_eq_false (by rw [z]; omega)
  show BitVec.ofBool (a.slt 0#32) = 0#1
  rw [hs]; rfl

theorem cmpi_sge_zero {a : BitVec 32} (h : 0 ≤ a.toInt) : IntOp.cmpi .sge a 0#32 = 1#1 := by
  have z : (0#32).toInt = 0 := by decide
  have hs : (0#32).sle a = true := by
    unfold BitVec.sle
    exact decide_eq_true (by rw [z]; exact h)
  show BitVec.ofBool ((0#32).sle a) = 1#1
  rw [hs]; rfl

theorem cmpi_sle_8191 {a : BitVec 32} (h : a.toInt < 8192) : IntOp.cmpi .sle a 8191#32 = 1#1 := by
  have z : (8191#32).toInt = 8191 := by decide
  have hs : a.sle 8191#32 = true := by
    unfold BitVec.sle
    exact decide_eq_true (by rw [z]; omega)
  show BitVec.ofBool (a.sle 8191#32) = 1#1
  rw [hs]; rfl

/-! ## The moved-up id of a live row -/

/-- The id column [N × 1] of an id vector reads, at (n, 0), the vector at n. -/
theorem idCol_apply (v : IVec S262144 32) (j : S262144x1.Idx) :
    broadcastInDim S262144x1 ![0] bcast_S262144_S262144x1_0 v j = v (ix1 ⟨(j 0).val, idx2_lt0 j⟩) :=
  broadcastInDim_apply _ _ _ _ _ (fun a => by
    match a with
    | ⟨0, _⟩ => rfl)

/-- A live row's id is not negative, so moving negative ids up leaves it. -/
theorem normIdx_live (idx : IVec S262144 32) (n : Fin 262144) (hn : Cert.Spec.Live idx n) :
    normIdx idx (ix1 n) = idx (ix1 n) := by
  unfold normIdx
  rw [select_apply]
  have h0 : cmpi .slt idx (broadcastInDim S262144 ![] bcast_S_S262144 (constantI S_ 32 0#32)) (ix1 n) = 0#1 :=
    cmpi_slt_zero hn.1
  rw [h0, select_zero]

/-- The [N × 1] column reduces along its one-element axis to the [N] vector. -/
theorem reduces_idCol : S262144x1.Reduces [1] S262144 := by decide

/-- On a live row both range tests pass, and the and-reduction over the one-element axis from 1 is 1. -/
theorem takeMask_live (idx : IVec S262144 32) (n : Fin 262144) (hn : Cert.Spec.Live idx n) :
    takeMask idx (ix1 n) = 1#1 := by
  have hJ : ∀ J : S262144x1.Idx, (J 0).val = n.val →
      andi
        (cmpi .sge (broadcastInDim S262144x1 ![0] bcast_S262144_S262144x1_0 (normIdx idx))
          (broadcastInDim S262144x1 ![] bcast_S_S262144x1 (constantI S_ 32 0#32)))
        (cmpi .sle (broadcastInDim S262144x1 ![0] bcast_S262144_S262144x1_0 (normIdx idx))
          (broadcastInDim S262144x1 ![0, 1] bcast_S1x1_S262144x1_0_1 (broadcastInDim S1x1 ![1] bcast_S1_S1x1_1 (constantI S1 32 8191#32)))) J = 1#1 := by
    intro J hJ0
    show IntOp.andi
      (IntOp.cmpi .sge (broadcastInDim S262144x1 ![0] bcast_S262144_S262144x1_0 (normIdx idx) J) (0#32))
      (IntOp.cmpi .sle (broadcastInDim S262144x1 ![0] bcast_S262144_S262144x1_0 (normIdx idx) J) (8191#32)) = 1#1
    rw [idCol_apply, show (ix1 ⟨(J 0).val, idx2_lt0 J⟩ : S262144.Idx) = ix1 n from congrArg ix1 (Fin.ext hJ0),
      normIdx_live idx n hn, cmpi_sge_zero hn.1, cmpi_sle_8191 hn.2]
    rfl
  unfold takeMask
  rw [Host.reduce_eq_fold_single IntOp.andi _ _ reducesTo_S262144x1_S262144_d1 reduces_idCol h_S_ (ix1 n)]
  have hu : (Finset.univ : Finset (Fin (S262144x1.size 1))) = {(⟨0, Nat.one_pos⟩ : Fin (S262144x1.size 1))} := by decide
  rw [hu, Finset.fold_singleton, Function.comp_apply, hJ _ rfl]
  rfl

/-- On a live row the guarded gather is the plain gather. -/
theorem take_live (x : FVec Ideal S8192x128 .f32) (idx : IVec S262144 32) (n : Fin 262144) (k : Fin 128)
    (hn : Cert.Spec.Live idx n) : take x idx (ix2 n k) = gath x idx (ix2 n k) := by
  unfold take
  rw [select_apply]
  have hm : broadcastInDim S262144x128 ![0] bcast_S262144_S262144x128_0 (takeMask idx) (ix2 n k) = 1#1 := by
    rw [broadcastInDim_apply _ _ _ (ix2 n k) (ix1 n) (fun a => by
      match a with
      | ⟨0, _⟩ => rfl)]
    exact takeMask_live idx n hn
  rw [hm, select_one]

/-! ## The segment sum only adds live rows -/

/-- An update of the 2-D segment sum lands inside the table only when its row is live: on the table's first axis the
    landing coordinate is the row's id read signed (not clamped) plus window coordinate 0. -/
theorem lands_live (idx : IVec S262144 32) (j : S262144x128.Idx)
    (hj : (scatter_S8192x128_S262144x1_S262144x128_1_0_0_1.resultIdx? j
      (broadcastInDim S262144x1 ![0] bcast_S262144_S262144x1_0 idx)).isSome) :
    Cert.Spec.Live idx ⟨(j 0).val, idx2_lt0 j⟩ := by
  unfold ScatterDims.resultIdx? at hj
  split at hj
  · rename_i h
    have h0 := h 0
    have hw : scatter_S8192x128_S262144x1_S262144x128_1_0_0_1.window j 0 = 0 := by
      unfold ScatterDims.window
      exact dif_neg (by decide)
    have hs : scatter_S8192x128_S262144x1_S262144x128_1_0_0_1.start j
        (broadcastInDim S262144x1 ![0] bcast_S262144_S262144x1_0 idx) 0 = (idx (ix1 ⟨(j 0).val, idx2_lt0 j⟩)).toInt := by
      unfold ScatterDims.start
      rw [dif_pos (by decide), idCol_apply]
      refine congrArg (fun m => (idx (ix1 m)).toInt) (Fin.ext ?_)
      dsimp only
      unfold ScatterDims.siIdx
      rw [dif_neg (by decide)]
      unfold ScatterDims.siCoord
      simp only [Fin.val_cast]
      exact congrArg (fun x => (j x).val) (by decide)
    rw [hw, hs] at h0
    obtain ⟨ha, hb⟩ := h0
    change _ < ((8192 : Nat) : Int) at hb
    unfold Cert.Spec.Live
    constructor <;> omega
  · exact absurd hj (by simp)

/-- Two feature arrays that agree on the live rows have the same segment mean: the segment sum adds live rows only, and
    the row counts do not read the features. -/
theorem segMean_congr (idx : IVec S262144 32) (h h' : FVec Ideal S262144x128 .f32) (hh : Cert.Spec.AgreeLive idx h h') :
    segMean h idx = segMean h' idx := by
  have key : ∀ z : FVec Ideal S8192x128 .f32,
      Host.scatterAdd scatter_S8192x128_S262144x1_S262144x128_1_0_0_1 z
        (broadcastInDim S262144x1 ![0] bcast_S262144_S262144x1_0 idx) h
      = Host.scatterAdd scatter_S8192x128_S262144x1_S262144x128_1_0_0_1 z
        (broadcastInDim S262144x1 ![0] bcast_S262144_S262144x1_0 idx) h' := by
    intro z
    refine Cert.Spec.scatterAdd_congr _ z _ h h' (fun j hj => ?_)
    have hl := lands_live idx j hj
    have e := hh ⟨(j 0).val, idx2_lt0 j⟩ hl (j 1)
    rw [eq_ix2 j]
    exact e
  unfold segMean
  rw [key]

/-- Hence the same per-segment feature. -/
theorem segFeat_congr (idx : IVec S262144 32) (h h' : FVec Ideal S262144x128 .f32) (hh : Cert.Spec.AgreeLive idx h h')
    (Wm : FVec Ideal S128x128 .f32) (bv : FVec Ideal S128 .f32) : segFeat h idx Wm bv = segFeat h' idx Wm bv := by
  unfold segFeat
  rw [segMean_congr idx h h' hh]

end Cert.KernelIdeal.Val

end
-- ==== Proof.RefIndex.lean ====
/-
  The reference program's layer and head, read one element at a time over the extended reals: a host dot_general is the
  plain sum over the contracted coordinate, a bias broadcast along the rows reads the bias at the column, the reference's
  spelling of ELU is ELU, and relu is the maximum with zero.
-/
import proofs.«424086_j12352325943915_1_alg».proof.Proof.RTerms
import proofs.«424086_j12352325943915_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.Val

open Cert.ReferenceIdeal Cert.ReferenceIdeal.Gen Idealize.ShloMosaic Idealize.ShloMosaic.ValueIdx

/-! ## The rows' product: [262144,128] · [128,128] -/

theorem lhs_fc_0 (i : S262144x128.Idx) (q : dot_S262144x128_S128x128_S262144x128_1_0_0_1_n_n.contr.Idx) :
    (dot_S262144x128_S128x128_S262144x128_1_0_0_1_n_n.lhsIdx i q 0).val = (i 0).val := by
  unfold DotDims.lhsIdx
  rw [dif_neg (show ¬(0 : Fin S262144x128.rank) ∈ dot_S262144x128_S128x128_S262144x128_1_0_0_1_n_n.lhsBatch by decide),
    dif_pos (show (0 : Fin S262144x128.rank) ∈ dot_S262144x128_S128x128_S262144x128_1_0_0_1_n_n.lhsNonContracting by decide)]
  rfl
theorem lhs_fc_1 (i : S262144x128.Idx) (q : dot_S262144x128_S128x128_S262144x128_1_0_0_1_n_n.contr.Idx) :
    (dot_S262144x128_S128x128_S262144x128_1_0_0_1_n_n.lhsIdx i q 1).val = (q ⟨0, by decide⟩).val :=
  dot_S262144x128_S128x128_S262144x128_1_0_0_1_n_n.lhsIdx_val_of_single rfl i q
theorem rhs_fc_0 (i : S262144x128.Idx) (q : dot_S262144x128_S128x128_S262144x128_1_0_0_1_n_n.contr.Idx) :
    (dot_S262144x128_S128x128_S262144x128_1_0_0_1_n_n.rhsIdx i q 0).val = (q ⟨0, by decide⟩).val :=
  dot_S262144x128_S128x128_S262144x128_1_0_0_1_n_n.rhsIdx_val_of_single rfl i q
theorem rhs_fc_1 (i : S262144x128.Idx) (q : dot_S262144x128_S128x128_S262144x128_1_0_0_1_n_n.contr.Idx) :
    (dot_S262144x128_S128x128_S262144x128_1_0_0_1_n_n.rhsIdx i q 1).val = (i 1).val := by
  unfold DotDims.rhsIdx
  rw [dif_neg (show ¬(1 : Fin S128x128.rank) ∈ dot_S262144x128_S128x128_S262144x128_1_0_0_1_n_n.rhsBatch by decide),
    dif_pos (show (1 : Fin S128x128.rank) ∈ dot_S262144x128_S128x128_S262144x128_1_0_0_1_n_n.rhsNonContracting by decide)]
  rfl

/-- Row r of h times column c of W: the sum over the 128 shared coordinates. -/
theorem dot_fc_apply (h : FVec Ideal S262144x128 .f32) (W : FVec Ideal S128x128 .f32) (r : Fin 262144) (c : Fin 128) :
    Host.dotGeneral dot_S262144x128_S128x128_S262144x128_1_0_0_1_n_n none h W (ix2 r c)
      = ∑ j : Fin 128, h (ix2 r j) * W (ix2 j c) := by
  simp only [Host.dotGeneral]
  rw [Ideal.dotGeneral_apply,
    ← Equiv.sum_comp (contrEquiv1 dot_S262144x128_S128x128_S262144x128_1_0_0_1_n_n 128 rfl rfl).symm]
  refine Finset.sum_congr rfl fun j _ => ?_
  have hk := contrEquiv1_symm_val dot_S262144x128_S128x128_S262144x128_1_0_0_1_n_n 128 rfl rfl j
  have el : dot_S262144x128_S128x128_S262144x128_1_0_0_1_n_n.lhsIdx (ix2 r c)
      ((contrEquiv1 dot_S262144x128_S128x128_S262144x128_1_0_0_1_n_n 128 rfl rfl).symm j) = ix2 r j :=
    funext fun a => Fin.ext (by
      match a with
      | ⟨0, _⟩ => exact lhs_fc_0 _ _
      | ⟨1, _⟩ => exact (lhs_fc_1 _ _).trans hk)
  have er : dot_S262144x128_S128x128_S262144x128_1_0_0_1_n_n.rhsIdx (ix2 r c)
      ((contrEquiv1 dot_S262144x128_S128x128_S262144x128_1_0_0_1_n_n 128 rfl rfl).symm j) = ix2 j c :=
    funext fun a => Fin.ext (by
      match a with
      | ⟨0, _⟩ => exact (rhs_fc_0 _ _).trans hk
      | ⟨1, _⟩ => exact rhs_fc_1 _ _)
  rw [el, er]

/-! ## The head's first product: [8192,128] · [128,256] -/

theorem lhs_f1_0 (i : S8192x256.Idx) (q : dot_S8192x128_S128x256_S8192x256_1_0_0_1_n_n.contr.Idx) :
    (dot_S8192x128_S128x256_S8192x256_1_0_0_1_n_n.lhsIdx i q 0).val = (i 0).val := by
  unfold DotDims.lhsIdx
  rw [dif_neg (show ¬(0 : Fin S8192x128.rank) ∈ dot_S8192x128_S128x256_S8192x256_1_0_0_1_n_n.lhsBatch by decide),
    dif_pos (show (0 : Fin S8192x128.rank) ∈ dot_S8192x128_S128x256_S8192x256_1_0_0_1_n_n.lhsNonContracting by decide)]
  rfl
theorem lhs_f1_1 (i : S8192x256.Idx) (q : dot_S8192x128_S128x256_S8192x256_1_0_0_1_n_n.contr.Idx) :
    (dot_S8192x128_S128x256_S8192x256_1_0_0_1_n_n.lhsIdx i q 1).val = (q ⟨0, by decide⟩).val :=
  dot_S8192x128_S128x256_S8192x256_1_0_0_1_n_n.lhsIdx_val_of_single rfl i q
theorem rhs_f1_0 (i : S8192x256.Idx) (q : dot_S8192x128_S128x256_S8192x256_1_0_0_1_n_n.contr.Idx) :
    (dot_S8192x128_S128x256_S8192x256_1_0_0_1_n_n.rhsIdx i q 0).val = (q ⟨0, by decide⟩).val :=
  dot_S8192x128_S128x256_S8192x256_1_0_0_1_n_n.rhsIdx_val_of_single rfl i q
theorem rhs_f1_1 (i : S8192x256.Idx) (q : dot_S8192x128_S128x256_S8192x256_1_0_0_1_n_n.contr.Idx) :
    (dot_S8192x128_S128x256_S8192x256_1_0_0_1_n_n.rhsIdx i q 1).val = (i 1).val := by
  unfold DotDims.rhsIdx
  rw [dif_neg (show ¬(1 : Fin S128x256.rank) ∈ dot_S8192x128_S128x256_S8192x256_1_0_0_1_n_n.rhsBatch by decide),
    dif_pos (show (1 : Fin S128x256.rank) ∈ dot_S8192x128_S128x256_S8192x256_1_0_0_1_n_n.rhsNonContracting by decide)]
  rfl

/-- Row r of the segment means times column c of the head's first matrix. -/
theorem dot_f1_apply (G : FVec Ideal S8192x128 .f32) (W : FVec Ideal S128x256 .f32) (r : Fin 8192) (c : Fin 256) :
    Host.dotGeneral dot_S8192x128_S128x256_S8192x256_1_0_0_1_n_n none G W (ix2 r c)
      = ∑ j : Fin 128, G (ix2 r j) * W (ix2 j c) := by
  simp only [Host.dotGeneral]
  rw [Ideal.dotGeneral_apply,
    ← Equiv.sum_comp (contrEquiv1 dot_S8192x128_S128x256_S8192x256_1_0_0_1_n_n 128 rfl rfl).symm]
  refine Finset.sum_congr rfl fun j _ => ?_
  have hk := contrEquiv1_symm_val dot_S8192x128_S128x256_S8192x256_1_0_0_1_n_n 128 rfl rfl j
  have el : dot_S8192x128_S128x256_S8192x256_1_0_0_1_n_n.lhsIdx (ix2 r c)
      ((contrEquiv1 dot_S8192x128_S128x256_S8192x256_1_0_0_1_n_n 128 rfl rfl).symm j) = ix2 r j :=
    funext fun a => Fin.ext (by
      match a with
      | ⟨0, _⟩ => exact lhs_f1_0 _ _
      | ⟨1, _⟩ => exact (lhs_f1_1 _ _).trans hk)
  have er : dot_S8192x128_S128x256_S8192x256_1_0_0_1_n_n.rhsIdx (ix2 r c)
      ((contrEquiv1 dot_S8192x128_S128x256_S8192x256_1_0_0_1_n_n 128 rfl rfl).symm j) = ix2 j c :=
    funext fun a => Fin.ext (by
      match a with
      | ⟨0, _⟩ => exact (rhs_f1_0 _ _).trans hk
      | ⟨1, _⟩ => exact rhs_f1_1 _ _)
  rw [el, er]

/-! ## The head's second product: [8192,256] · [256,10] -/

theorem lhs_f2_0 (i : S8192x10.Idx) (q : dot_S8192x256_S256x10_S8192x10_1_0_0_1_n_n.contr.Idx) :
    (dot_S8192x256_S256x10_S8192x10_1_0_0_1_n_n.lhsIdx i q 0).val = (i 0).val := by
  unfold DotDims.lhsIdx
  rw [dif_neg (show ¬(0 : Fin S8192x256.rank) ∈ dot_S8192x256_S256x10_S8192x10_1_0_0_1_n_n.lhsBatch by decide),
    dif_pos (show (0 : Fin S8192x256.rank) ∈ dot_S8192x256_S256x10_S8192x10_1_0_0_1_n_n.lhsNonContracting by decide)]
  rfl
theorem lhs_f2_1 (i : S8192x10.Idx) (q : dot_S8192x256_S256x10_S8192x10_1_0_0_1_n_n.contr.Idx) :
    (dot_S8192x256_S256x10_S8192x10_1_0_0_1_n_n.lhsIdx i q 1).val = (q ⟨0, by decide⟩).val :=
  dot_S8192x256_S256x10_S8192x10_1_0_0_1_n_n.lhsIdx_val_of_single rfl i q
theorem rhs_f2_0 (i : S8192x10.Idx) (q : dot_S8192x256_S256x10_S8192x10_1_0_0_1_n_n.contr.Idx) :
    (dot_S8192x256_S256x10_S8192x10_1_0_0_1_n_n.rhsIdx i q 0).val = (q ⟨0, by decide⟩).val :=
  dot_S8192x256_S256x10_S8192x10_1_0_0_1_n_n.rhsIdx_val_of_single rfl i q
theorem rhs_f2_1 (i : S8192x10.Idx) (q : dot_S8192x256_S256x10_S8192x10_1_0_0_1_n_n.contr.Idx) :
    (dot_S8192x256_S256x10_S8192x10_1_0_0_1_n_n.rhsIdx i q 1).val = (i 1).val := by
  unfold DotDims.rhsIdx
  rw [dif_neg (show ¬(1 : Fin S256x10.rank) ∈ dot_S8192x256_S256x10_S8192x10_1_0_0_1_n_n.rhsBatch by decide),
    dif_pos (show (1 : Fin S256x10.rank) ∈ dot_S8192x256_S256x10_S8192x10_1_0_0_1_n_n.rhsNonContracting by decide)]
  rfl

/-- Row r of the hidden activations times column c of the head's second matrix. -/
theorem dot_f2_apply (A : FVec Ideal S8192x256 .f32) (W : FVec Ideal S256x10 .f32) (r : Fin 8192) (c : Fin 10) :
    Host.dotGeneral dot_S8192x256_S256x10_S8192x10_1_0_0_1_n_n none A W (ix2 r c)
      = ∑ j : Fin 256, A (ix2 r j) * W (ix2 j c) := by
  simp only [Host.dotGeneral]
  rw [Ideal.dotGeneral_apply,
    ← Equiv.sum_comp (contrEquiv1 dot_S8192x256_S256x10_S8192x10_1_0_0_1_n_n 256 rfl rfl).symm]
  refine Finset.sum_congr rfl fun j _ => ?_
  have hk := contrEquiv1_symm_val dot_S8192x256_S256x10_S8192x10_1_0_0_1_n_n 256 rfl rfl j
  have el : dot_S8192x256_S256x10_S8192x10_1_0_0_1_n_n.lhsIdx (ix2 r c)
      ((contrEquiv1 dot_S8192x256_S256x10_S8192x10_1_0_0_1_n_n 256 rfl rfl).symm j) = ix2 r j :=
    funext fun a => Fin.ext (by
      match a with
      | ⟨0, _⟩ => exact lhs_f2_0 _ _
      | ⟨1, _⟩ => exact (lhs_f2_1 _ _).trans hk)
  have er : dot_S8192x256_S256x10_S8192x10_1_0_0_1_n_n.rhsIdx (ix2 r c)
      ((contrEquiv1 dot_S8192x256_S256x10_S8192x10_1_0_0_1_n_n 256 rfl rfl).symm j) = ix2 j c :=
    funext fun a => Fin.ext (by
      match a with
      | ⟨0, _⟩ => exact (rhs_f2_0 _ _).trans hk
      | ⟨1, _⟩ => exact rhs_f2_1 _ _)
  rw [el, er]

/-! ## A bias laid along every row -/

/-- A 128-vector made a one-row matrix and repeated down 262144 rows reads, at row n and channel k, the vector at k. -/
theorem bias128_rows_apply (b : FVec Ideal S128 .f32) (n : Fin 262144) (k : Fin 128) :
    broadcastInDim S262144x128 ![0, 1] bcast_S1x128_S262144x128_0_1 (broadcastInDim S1x128 ![1] bcast_S128_S1x128_1 b) (ix2 n k)
      = b (ix1 k) := by
  rw [broadcastInDim_apply _ _ _ (ix2 n k) (ix2 (0 : Fin 1) k) (fun a => by match a with | ⟨0, _⟩ => rfl | ⟨1, _⟩ => rfl)]
  exact broadcastInDim_apply _ _ _ (ix2 (0 : Fin 1) k) (ix1 k) (fun a => by match a with | ⟨0, _⟩ => rfl)

/-- The same for a 256-vector down 8192 rows. -/
theorem bias256_rows_apply (b : FVec Ideal S256 .f32) (r : Fin 8192) (q : Fin 256) :
    broadcastInDim S8192x256 ![0, 1] bcast_S1x256_S8192x256_0_1 (broadcastInDim S1x256 ![1] bcast_S256_S1x256_1 b) (ix2 r q)
      = b (ix1 q) := by
  rw [broadcastInDim_apply _ _ _ (ix2 r q) (ix2 (0 : Fin 1) q) (fun a => by match a with | ⟨0, _⟩ => rfl | ⟨1, _⟩ => rfl)]
  exact broadcastInDim_apply _ _ _ (ix2 (0 : Fin 1) q) (ix1 q) (fun a => by match a with | ⟨0, _⟩ => rfl)

/-- The same for a 10-vector down 8192 rows. -/
theorem bias10_rows_apply (b : FVec Ideal S10 .f32) (r : Fin 8192) (t : Fin 10) :
    broadcastInDim S8192x10 ![0, 1] bcast_S1x10_S8192x10_0_1 (broadcastInDim S1x10 ![1] bcast_S10_S1x10_1 b) (ix2 r t)
      = b (ix1 t) := by
  rw [broadcastInDim_apply _ _ _ (ix2 r t) (ix2 (0 : Fin 1) t) (fun a => by match a with | ⟨0, _⟩ => rfl | ⟨1, _⟩ => rfl)]
  exact broadcastInDim_apply _ _ _ (ix2 (0 : Fin 1) t) (ix1 t) (fun a => by match a with | ⟨0, _⟩ => rfl)

/-! ## ELU as the reference spells it -/

/-- Where 0 < s both spellings give s; elsewhere the inner choice returns s and the reference has 1 · (e^s − 1). -/
theorem elu_eq (s : EReal) :
    Scalar.select (FloatOps.cmpf (F := Ideal) (φ := .f32) .ogt s (Ideal.ofBits .f32 0x00000000#32)) s
      (Ideal.ofBits .f32 0x3F800000#32
        * (Ideal.exp (Scalar.select (FloatOps.cmpf (F := Ideal) (φ := .f32) .ogt s (Ideal.ofBits .f32 0x00000000#32))
            (Ideal.ofBits .f32 0x00000000#32) s) - 1))
      = Cert.Spec.elu s := by
  unfold Cert.Spec.elu
  rw [Ideal.cmpf_def, Ideal.ofBits_zero_f32, Ideal.ofBits_one_f32]
  by_cases hs : 0 < s
  · have hb : Ideal.cmp .ogt s 0 = 1#1 := by unfold Ideal.cmp; rw [decide_eq_true hs]; rfl
    rw [if_pos hs, hb]
    exact select_one _ _
  · have hb : Ideal.cmp .ogt s 0 = 0#1 := by unfold Ideal.cmp; rw [decide_eq_false hs]; rfl
    rw [if_neg hs, hb, select_zero, select_zero, one_mul]

/-- The reference's ELU array at row n, channel k is ELU of that element. -/
theorem eluV_apply (x : FVec Ideal S262144x128 .f32) (n : Fin 262144) (k : Fin 128) :
    eluV x (ix2 n k) = Cert.Spec.elu (x (ix2 n k)) := by
  refine Eq.trans ?_ (elu_eq (x (ix2 n k)))
  unfold eluV
  simp only [select_apply, cmpf_apply, mulf_apply, broadcastInDim_scalar_apply, constant_apply, id]
  rfl

/-! ## One layer and the head at an index -/

/-- One layer of the reference at row n, channel k: ELU of (row n of h) · (column k of Wfc) + bfc k + the gathered
    per-segment feature there. -/
theorem layer_apply (h : FVec Ideal S262144x128 .f32) (idx : IVec S262144 32) (Wfc : FVec Ideal S128x128 .f32)
    (bfc : FVec Ideal S128 .f32) (Wsum : FVec Ideal S128x128 .f32) (bsum : FVec Ideal S128 .f32) (n : Fin 262144) (k : Fin 128) :
    layer h idx Wfc bfc Wsum bsum (ix2 n k)
      = Cert.Spec.layerAt h (gath (segFeat h idx Wsum bsum) idx) Wfc (fun k' => bfc (ix1 k')) n k := by
  unfold layer Cert.Spec.layerAt
  rw [eluV_apply]
  refine congrArg Cert.Spec.elu ?_
  rw [addf_apply, addf_apply, dot_fc_apply, bias128_rows_apply]

/-- The head of the reference at segment r, task t: relu(row r of G · W1 + b1) · (column t of W2) + b2 t, relu being
    the maximum with zero. -/
theorem head_apply (G : FVec Ideal S8192x128 .f32) (W1 : FVec Ideal S128x256 .f32) (b1 : FVec Ideal S256 .f32)
    (W2 : FVec Ideal S256x10 .f32) (b2 : FVec Ideal S10 .f32) (r : Fin 8192) (t : Fin 10) :
    head G W1 b1 W2 b2 (ix2 r t)
      = Cert.Spec.headAt G W1 (fun q => b1 (ix1 q)) W2 (fun t' => b2 (ix1 t')) r t := by
  unfold head Cert.Spec.headAt
  rw [addf_apply, dot_f2_apply, bias10_rows_apply]
  refine congrArg (· + b2 (ix1 t)) (Finset.sum_congr rfl fun q _ => ?_)
  rw [maximumf_apply, addf_apply, dot_f1_apply, bias256_rows_apply, broadcastInDim_scalar_apply, constant_apply,
    Ideal.ofBits_zero_f32]

end Cert.ReferenceIdeal.Val

end
-- ==== Proof.Bridge.lean ====
/-
  The two programs compute one function of their arguments.

  Both apply the same segment mean, per-segment feature and weight slices. They differ in one place: reading the
  per-segment feature back at a row whose segment id is not a segment, one program fills the row with a fixed value and
  the other clamps the id. Such a row is never added into a segment sum (its update lands outside the operand and is
  dropped), and a layer's row depends on the same row of its input only. So the feature arrays of the two programs
  agree on the live rows after every layer, their segment means are equal, and the heads — the same function of the
  segment means, row by row — are equal.
-/
import proofs.«424086_j12352325943915_1_alg».proof.Proof.KOut
import proofs.«424086_j12352325943915_1_alg».proof.Proof.RTerms
import proofs.«424086_j12352325943915_1_alg».proof.Proof.Live
import proofs.«424086_j12352325943915_1_alg».proof.Proof.RefIndex

noncomputable section

namespace Cert.Bridge

open Idealize.ShloMosaic Idealize.ShloMosaic.ValueIdx Cert.Spec
open Cert.KernelIdeal (S262144x128 S262144 S128x128 S128 S8192x128 S3x128x128 S3x128 S128x256 S256 S256x10 S10 S8192x10)

/-! ## The shared host values are the same terms in both programs -/

theorem segMean_eq (h : FVec Ideal S262144x128 .f32) (idx : IVec S262144 32) :
    Cert.KernelIdeal.Val.segMean h idx = Cert.ReferenceIdeal.Val.segMean h idx := rfl
theorem segFeat_eq (h : FVec Ideal S262144x128 .f32) (idx : IVec S262144 32) (Wm : FVec Ideal S128x128 .f32) (bv : FVec Ideal S128 .f32) :
    Cert.KernelIdeal.Val.segFeat h idx Wm bv = Cert.ReferenceIdeal.Val.segFeat h idx Wm bv := rfl
theorem gath_eq (x : FVec Ideal S8192x128 .f32) (idx : IVec S262144 32) :
    Cert.KernelIdeal.Val.gath x idx = Cert.ReferenceIdeal.Val.gath x idx := rfl
theorem mat0_eq (a : FVec Ideal S3x128x128 .f32) : Cert.KernelIdeal.Val.mat0 a = Cert.ReferenceIdeal.Val.mat0 a := rfl
theorem mat1_eq (a : FVec Ideal S3x128x128 .f32) : Cert.KernelIdeal.Val.mat1 a = Cert.ReferenceIdeal.Val.mat1 a := rfl
theorem mat2_eq (a : FVec Ideal S3x128x128 .f32) : Cert.KernelIdeal.Val.mat2 a = Cert.ReferenceIdeal.Val.mat2 a := rfl
theorem vec0_eq (a : FVec Ideal S3x128 .f32) : Cert.KernelIdeal.Val.vec0 a = Cert.ReferenceIdeal.Val.vec0 a := rfl
theorem vec1_eq (a : FVec Ideal S3x128 .f32) : Cert.KernelIdeal.Val.vec1 a = Cert.ReferenceIdeal.Val.vec1 a := rfl
theorem vec2_eq (a : FVec Ideal S3x128 .f32) : Cert.KernelIdeal.Val.vec2 a = Cert.ReferenceIdeal.Val.vec2 a := rfl

/-! ## One layer keeps the agreement on the live rows -/

/-- The kernel program's layer read at row n, channel k. -/
theorem layerK_apply (h : FVec Ideal S262144x128 .f32) (idx : IVec S262144 32) (Wfc : FVec Ideal S128x128 .f32)
    (bfc : FVec Ideal S128 .f32) (Wsum : FVec Ideal S128x128 .f32) (bsum : FVec Ideal S128 .f32) (n : Fin 262144) (k : Fin 128) :
    Cert.KernelIdeal.Val.layerK h idx Wfc bfc Wsum bsum (ix2 n k)
      = layerAt h (Cert.KernelIdeal.Val.take (Cert.KernelIdeal.Val.segFeat h idx Wsum bsum) idx) Wfc (fun k' => bfc (ix1 k')) n k := by
  have hb : (fun k' => Cert.KernelIdeal.Val.row128 bfc (ix2 0 k')) = fun k' => bfc (ix1 k') :=
    funext (Cert.KernelIdeal.Val.row128_apply bfc)
  rw [← hb]
  rfl

/-- If h and h' agree on the live rows, so do the kernel program's layer of h and the reference's layer of h': the
    per-segment features are equal (only live rows are summed), on a live row the guarded gather is the gather, and
    the row itself depends on row n of h only. -/
theorem layer_agree (idx : IVec S262144 32) (h h' : FVec Ideal S262144x128 .f32) (hh : AgreeLive idx h h')
    (Wfc : FVec Ideal S128x128 .f32) (bfc : FVec Ideal S128 .f32) (Wsum : FVec Ideal S128x128 .f32) (bsum : FVec Ideal S128 .f32) :
    AgreeLive idx (Cert.KernelIdeal.Val.layerK h idx Wfc bfc Wsum bsum) (Cert.ReferenceIdeal.Val.layer h' idx Wfc bfc Wsum bsum) := by
  intro n hn k
  rw [layerK_apply, Cert.ReferenceIdeal.Val.layer_apply]
  refine layerAt_congr Wfc _ n k (fun j => hh n hn j) ?_
  rw [Cert.KernelIdeal.Val.take_live _ idx n k hn, Cert.KernelIdeal.Val.segFeat_congr idx h h' hh, segFeat_eq, gath_eq]

/-! ## The results -/

/-- The kernel program's result is the reference's, for every value of the ten arguments. -/
theorem out_eq (a0 : FVec Ideal S262144x128 .f32) (a1 : IVec S262144 32) (a2 : FVec Ideal S3x128x128 .f32) (a3 : FVec Ideal S3x128 .f32)
    (a4 : FVec Ideal S3x128x128 .f32) (a5 : FVec Ideal S3x128 .f32) (a6 : FVec Ideal S128x256 .f32) (a7 : FVec Ideal S256 .f32)
    (a8 : FVec Ideal S256x10 .f32) (a9 : FVec Ideal S10 .f32) :
    Cert.KernelIdeal.Val.out a0 a1 a2 a3 a4 a5 a6 a7 a8 a9 = Cert.ReferenceIdeal.Val.out a0 a1 a2 a3 a4 a5 a6 a7 a8 a9 := by
  have e1 := layer_agree a1 a0 a0 (fun _ _ _ => rfl) (Cert.KernelIdeal.Val.mat0 a2) (Cert.KernelIdeal.Val.vec0 a3)
    (Cert.KernelIdeal.Val.mat0 a4) (Cert.KernelIdeal.Val.vec0 a5)
  have e2 := layer_agree a1 _ _ e1 (Cert.KernelIdeal.Val.mat1 a2) (Cert.KernelIdeal.Val.vec1 a3)
    (Cert.KernelIdeal.Val.mat1 a4) (Cert.KernelIdeal.Val.vec1 a5)
  have e3 := layer_agree a1 _ _ e2 (Cert.KernelIdeal.Val.mat2 a2) (Cert.KernelIdeal.Val.vec2 a3)
    (Cert.KernelIdeal.Val.mat2 a4) (Cert.KernelIdeal.Val.vec2 a5)
  have eG := (Cert.KernelIdeal.Val.segMean_congr a1 _ _ e3).trans (segMean_eq _ a1)
  unfold Cert.KernelIdeal.Val.out Cert.KernelIdeal.Val.h3 Cert.KernelIdeal.Val.h2 Cert.KernelIdeal.Val.h1
  rw [eG]
  funext y
  obtain ⟨r, t, rfl⟩ : ∃ (r : Fin 8192) (t : Fin 10), y = ix2 r t := ⟨y 0, y 1, eq_ix2 y⟩
  have hb1 : (fun q => Cert.KernelIdeal.Val.row256 a7 (ix2 0 q)) = fun q => a7 (ix1 q) := funext (Cert.KernelIdeal.Val.row256_apply a7)
  have hb2 : (fun t' => Cert.KernelIdeal.Val.row10 a9 (ix2 0 t')) = fun t' => a9 (ix1 t') := funext (Cert.KernelIdeal.Val.row10_apply a9)
  refine Eq.trans ?_ (Cert.ReferenceIdeal.Val.head_apply _ a6 a7 a8 a9 r t).symm
  rw [← hb1, ← hb2]
  rfl

end Cert.Bridge

end
-- ==== Proof.lean ====
/-
  The certificate of a three-layer graph network with a head: the kernel program and the reference compute the same
  result at the extended reals.

  The three frame claims are the generated frames of the two kernel programs and the reference's run with its result
  dropped. The idealization rewrote nothing, so the preservation claim is trivial. For the algebraic claim the kernel
  program's run names its result buffer at the contents of its last segment boundary; that value is read back through
  the four kernel regions (each block of a region's output is the layer, or the head, of the matching input rows) and the
  host stretches between them as one function of the ten arguments; the reference's run gives its own function of the
  arguments; and the two functions are equal: they agree on every row whose segment id names a segment, and only those
  rows ever enter a segment mean.
-/
import proofs.«424086_j12352325943915_1_alg».proof.Defs
import proofs.«424086_j12352325943915_1_alg».proof.Proof.Gen.Kernel
import proofs.«424086_j12352325943915_1_alg».proof.Proof.Gen.Kernel.Frame
import proofs.«424086_j12352325943915_1_alg».proof.Proof.Gen.KernelIdeal
import proofs.«424086_j12352325943915_1_alg».proof.Proof.Gen.KernelIdeal.Frame
import proofs.«424086_j12352325943915_1_alg».proof.Proof.Gen.ReferenceIdeal
import proofs.«424086_j12352325943915_1_alg».proof.Proof.Gen.Pre_finite_inputs
import proofs.«424086_j12352325943915_1_alg».proof.Proof.KRun
import proofs.«424086_j12352325943915_1_alg».proof.Proof.KLayer0
import proofs.«424086_j12352325943915_1_alg».proof.Proof.KLayer1
import proofs.«424086_j12352325943915_1_alg».proof.Proof.KLayer2
import proofs.«424086_j12352325943915_1_alg».proof.Proof.KHead
import proofs.«424086_j12352325943915_1_alg».proof.Proof.KValue
import proofs.«424086_j12352325943915_1_alg».proof.Proof.RefValue
import proofs.«424086_j12352325943915_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Run.run (F := Ideal) m ρ)

/-- Both runs end at one function of the arguments: the kernel program's through its regions and host stretches, the
    reference's through its host operations, the two functions equal on arguments that agree. -/
theorem algebraic : Cert.algebraic_KernelIdeal_ReferenceIdeal := by
  intro m ρ m' ρ' _ hagree
  refine ⟨_, (θ_run Cert.KernelIdeal.defs _ _).mono (fun _ h c => ⟨(h c).1.trans
      (Cert.KernelIdeal.Chain.W14_result Cert.KernelIdeal.Val0.arrAt_out Cert.KernelIdeal.Val1.arrAt_out
        Cert.KernelIdeal.Val2.arrAt_out Cert.KernelIdeal.Val3.arrAt_out m ρ c), (h c).2⟩)
    (Cert.KernelIdeal.RunNamed.run_named (F := Ideal) m ρ), ?_⟩
  refine (θ_run Cert.ReferenceIdeal.defs _ _).mono (fun _ h c => ⟨(h c).1.trans ?_, (h c).2⟩)
    (Cert.ReferenceIdeal.Run.run (F := Ideal) m' ρ')
  obtain ⟨h0, h1, h2, h3, h4, h5, h6, h7, h8, h9⟩ := hagree c
  rw [h0, h1, h2, h3, h4, h5, h6, h7, h8, h9]
  exact (Cert.Bridge.out_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
